-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S8192x2048 : Shape := ⟨2, ![8192, 2048]⟩
abbrev S8192 : Shape := ⟨1, ![8192]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S8192x2048 .f32) (main_arg6 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S8192x2048 .f32) (main_arg4 : FVec F S8192 .f32) (main_arg5 : FVec F S8192x2048 .f32) (main_arg6 : FVec F S8192 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_v13 main_v16
-- ==== Kernel.lean ====
abbrev S4096x2048 : Shape := ⟨2, ![4096, 2048]⟩
abbrev S8192x2048 : Shape := ⟨2, ![8192, 2048]⟩
abbrev S8192 : Shape := ⟨1, ![8192]⟩
abbrev S1x8192 : Shape := ⟨2, ![1, 8192]⟩
abbrev S4096x8192 : Shape := ⟨2, ![4096, 8192]⟩
abbrev S1024x512 : Shape := ⟨2, ![1024, 512]⟩
abbrev S1x1024 : Shape := ⟨2, ![1, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 12
  | .vmem => 29
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S1x8192, .f32⟩
  | .hbm, ⟨8, _⟩ => ⟨S1x8192, .f32⟩
  | .hbm, ⟨9, _⟩ => ⟨S4096x8192, .f32⟩
  | .hbm, ⟨10, _⟩ => ⟨S4096x2048, .f32⟩
  | .hbm, ⟨11, _⟩ => ⟨S4096x2048, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v25 : BitVec 1 := Scalar.cmpi .eq arg2 c3_i32
  let v26 : BitVec 32 := Scalar.extui v25
  let c0_i32_17 : BitVec 32 := 0#32
  let v27 : BitVec 1 := Scalar.cmpi .ne v26 c0_i32_17
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨2, ![8, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  ![arg0.toNat, v0.toNat]

def cc1_transform_2 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  ![arg0.toNat, v0.toNat]

def cc1_transform_3 (i : grid1.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  ![arg0.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S8192_S1x8192 : S8192.ShapeCasts S1x8192
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x2048.size a
  hwx0_0 : ∀ i : grid0.Coords, EltTy.bits .f32 = 32 ∨ (Rect.block (s := S4096x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x2048.size a
  hwx0_1 : ∀ i : grid0.Coords, EltTy.bits .f32 = 32 ∨ (Rect.block (s := S4096x2048) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S8192x2048.size a
  hwx0_2 : ∀ i : grid0.Coords, EltTy.bits .f32 = 32 ∨ (Rect.block (s := S8192x2048) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S8192x2048.size a
  hwx0_3 : ∀ i : grid0.Coords, EltTy.bits .f32 = 32 ∨ (Rect.block (s := S8192x2048) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .f32 = 32 ∨ (Rect.block (s := S1x8192) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S4096x8192.size a
  hwx0_6 : ∀ i : grid0.Coords, EltTy.bits .f32 = 32 ∨ (Rect.block (s := S4096x8192) S1024x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S4096x8192.size a
  hwx1_0 : ∀ i : grid1.Coords, EltTy.bits .f32 = 32 ∨ (Rect.block (s := S4096x8192) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S4096x8192.size a
  hwx1_1 : ∀ i : grid1.Coords, EltTy.bits .f32 = 32 ∨ (Rect.block (s := S4096x8192) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S4096x8192.size a
  hwx1_2 : ∀ i : grid1.Coords, EltTy.bits .f32 = 32 ∨ (Rect.block (s := S4096x8192) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S4096x8192.size a
  hwx1_3 : ∀ i : grid1.Coords, EltTy.bits .f32 = 32 ∨ (Rect.block (s := S4096x8192) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x512.size a ≤ S4096x2048.size a
  hwx1_4 : ∀ i : grid1.Coords, EltTy.bits .f32 = 32 ∨ (Rect.block (s := S4096x2048) S512x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S4096x2048.size a
  hwx1_5 : ∀ i : grid1.Coords, EltTy.bits .f32 = 32 ∨ (Rect.block (s := S4096x2048) S512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x512.size a ≤ S4096x2048.size a
  hwx1_6 : ∀ i : grid1.Coords, EltTy.bits .f32 = 32 ∨ (Rect.block (s := S4096x2048) S512x512.size (cc1_transform_6 i) (hinb1_6 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v2) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S512x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S512x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3_0) S512x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v3_1) S512x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4096x2048 : Shape := ⟨2, ![4096, 2048]⟩
abbrev S8192x2048 : Shape := ⟨2, ![8192, 2048]⟩
abbrev S8192 : Shape := ⟨1, ![8192]⟩
abbrev S2048x8192 : Shape := ⟨2, ![2048, 8192]⟩
abbrev S4096x8192 : Shape := ⟨2, ![4096, 8192]⟩
abbrev S1x8192 : Shape := ⟨2, ![1, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S8192x2048, .f32⟩
  | .hbm, ⟨4, _⟩ => ⟨S8192, .f32⟩
  | .hbm, ⟨5, _⟩ => ⟨S8192x2048, .f32⟩
  | .hbm, ⟨6, _⟩ => ⟨S8192, .f32⟩
  | .hbm, ⟨7, _⟩ => ⟨S2048x8192, .f32⟩
  | .hbm, ⟨8, _⟩ => ⟨S4096x8192, .f32⟩
  | .hbm, ⟨9, _⟩ => ⟨S1x8192, .f32⟩
  | .hbm, ⟨10, _⟩ => ⟨S4096x8192, .f32⟩
  | .hbm, ⟨11, _⟩ => ⟨S4096x8192, .f32⟩
  | .hbm, ⟨12, _⟩ => ⟨S2048x8192, .f32⟩
  | .hbm, ⟨13, _⟩ => ⟨S4096x8192, .f32⟩
  | .hbm, ⟨14, _⟩ => ⟨S4096x8192, .f32⟩
  | .hbm, ⟨15, _⟩ => ⟨S1x8192, .f32⟩
  | .hbm, ⟨16, _⟩ => ⟨S4096x8192, .f32⟩
  | .hbm, ⟨17, _⟩ => ⟨S4096x8192, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  bcast_S_S4096x2048 : S_.BroadcastsInDim S4096x2048 (![] : Fin 0 → Fin S4096x2048.rank)
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  dot_S4096x2048_S2048x8192_S4096x8192_1_0_0_1_n_n_wf : DotDims.WF S4096x2048 S2048x8192 S4096x8192 [1] [0] [0] [1] [] []

variable [Facts₀]

def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf

class Facts : Prop extends Facts₀ where

variable [Facts]
-- ==== Proof.KRegion0_Cases.lean ====
/- The matmul kernel's two tests on the K-chunk coordinate, in closed form over the grid: the accumulator is reset at the
   first chunk of an output block (position ≡ 0 mod 4) and the output block is stored at the last (position ≡ 3 mod 4),
   where alone its window is live. -/
import proofs.«132795_j64476049047569_1_alg».proof.Proof.Gen.Kernel.Skeleton
import proofs.«132795_j64476049047569_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test, from the grid coordinates: the K-chunk coordinate is 0. -/
abbrev isFirst (i : grid0.Coords) : Prop :=
  (Scalar.cmpi .ne (Scalar.extui (Scalar.cmpi .eq (BitVec.ofNat 32 (i 2).val) 0#32)) 0#32) = 1#1

/-- The second conditional's test: the K-chunk coordinate is 3. -/
abbrev isLast (i : grid0.Coords) : Prop := k0_cond2 i = 1#1

/-- The K-chunk coordinate of position `t` is `t % 4`: the first test holds exactly at the positions ≡ 0 (mod 4), -/
theorem isFirst_iff : ∀ t : Fin cfg0.N, isFirst (grid0.coords t) ↔ t.val % 4 = 0 :=
  (by decide +kernel : ∀ t : Fin grid0.N, isFirst (grid0.coords t) ↔ t.val % 4 = 0)

/-- and the second exactly at the positions ≡ 3 (mod 4). -/
theorem isLast_iff : ∀ t : Fin cfg0.N, isLast (grid0.coords t) ↔ t.val % 4 = 3 :=
  (by decide +kernel : ∀ t : Fin grid0.N, isLast (grid0.coords t) ↔ t.val % 4 = 3)

/-- The output window is idle where the second test fails, -/
theorem idle_out : ∀ t : Fin cfg0.N, t.val % 4 ≠ 3 → cfg0.idle 6 (grid0.coords t) = true :=
  (by decide +kernel : ∀ t : Fin grid0.N, t.val % 4 ≠ 3 → idle0 6 (grid0.coords t) = true)

/-- live where it holds, -/
theorem live_out : ∀ t : Fin cfg0.N, t.val % 4 = 3 → cfg0.idle 6 (grid0.coords t) = false :=
  (by decide +kernel : ∀ t : Fin grid0.N, t.val % 4 = 3 → idle0 6 (grid0.coords t) = false)

/-- and not written back where it is idle. -/
theorem noFlush_out (t : Fin cfg0.N) (h : t.val % 4 ≠ 3) : (cfg0.win 6).flush t = false :=
  Bool.eq_false_iff.mpr fun e => h ((flush0_6 t).mp e)

/-- Every load and store of the body is through the whole-block rectangle: offsets zero on both axes. -/
theorem zero_off : (![0, 0] : Fin 2 → Nat) = fun _ => 0 := funext fun a => by fin_cases a <;> rfl

end Cert.Kernel.R0

end
-- ==== Proof.KRegion0_First.lean ====
/- The matmul kernel's body at the first K-chunk of an output block: the accumulator is reset to zero, then takes the two
   products of this chunk; the output block's buffer is not touched. -/
import proofs.«132795_j64476049047569_1_alg».proof.Proof.KRegion0_Cases
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the four input blocks, with the accumulator at anything: the body, its first test
    taken and its second not, leaves the inputs as they were and the accumulator at zero plus x·Wxᵀ plus h·Whᵀ of this
    chunk. The accumulator is stored whole three times (the zero, then each partial sum); each later load reads the
    store before it, so the last store's payload is the composed term. -/
theorem run_first (c : Dev nD) (i : grid0.Coords)
    (mx : Memref sig .tc .vmem S1024x512 .f32) (hx : mx.IsWhole) (mh : Memref sig .tc .vmem S1024x512 .f32) (hh : mh.IsWhole)
    (mwx : Memref sig .tc .vmem S1024x512 .f32) (hwx : mwx.IsWhole) (mwh : Memref sig .tc .vmem S1024x512 .f32) (hwh : mwh.IsWhole)
    (mbx : Memref sig .tc .vmem S1x1024 .f32) (hbx : mbx.IsWhole) (mbh : Memref sig .tc .vmem S1x1024 .f32) (hbh : mbh.IsWhole)
    (mo : Memref sig .tc .vmem S1024x1024 .f32) (ho : mo.IsWhole) (ma : Memref sig .tc .vmem S1024x1024 .f32) (ha : ma.IsWhole)
    (h1 : isFirst i) (h2 : ¬isLast i)
    (x h wx wh : Vec F S1024x512 .f32) (E : Set ℕ) (K : PUnit → sProp 𝕄) :
    iprop(owns (c : Thread nD τ) mx fullShare x ∗ owns (c : Thread nD τ) mh fullShare h ∗ owns (c : Thread nD τ) mwx fullShare wx ∗ owns (c : Thread nD τ) mwh fullShare wh
        ∗ (∃ d, owns (c : Thread nD τ) ma fullShare d)
        ∗ (iprop(owns (c : Thread nD τ) mx fullShare x ∗ owns (c : Thread nD τ) mh fullShare h ∗ owns (c : Thread nD τ) mwx fullShare wx ∗ owns (c : Thread nD τ) mwh fullShare wh
            ∗ owns (c : Thread nD τ) ma fullShare (k0_pay3 h wh (k0_pay2 x wx (k0_pay1 (F := F))))) -∗ K ⟨⟩))
      ⊢ wp frame (wpE (defs₀ (F := F)) Variants.none c none) E (cc0__mm_kernel i mx hx mh hh mwx hwx mwh hwh mbx hbx mbh hbh mo ho ma ha) K := by
  simp only [cc0__mm_kernel_eq_skeleton]; unfold cc0__mm_kernel_skel
  unfold owns
  iintro ⟨⟨%fx, %ex, Hx⟩, ⟨%fh, %eh, Hh⟩, ⟨%fwx, %ewx, Hwx⟩, ⟨%fwh, %ewh, Hwh⟩, ⟨%d, %fa, -, Ha⟩, Hk⟩
  obtain rfl := hx.eq_unread ex; obtain rfl := hh.eq_unread eh
  obtain rfl := hwx.eq_unread ewx; obtain rfl := hwh.eq_unread ewh
  sl_exec (disch := first | exact h1 | exact h2)
  sl_step
  iapply Hk
  isplitl [Hx]
  · iexists _; isplitr; · ipureintro; exact hx.read_unread _
    iexact Hx
  isplitl [Hh]
  · iexists _; isplitr; · ipureintro; exact hh.read_unread _
    iexact Hh
  isplitl [Hwx]
  · iexists _; isplitr; · ipureintro; exact hwx.read_unread _
    iexact Hwx
  isplitl [Hwh]
  · iexists _; isplitr; · ipureintro; exact hwh.read_unread _
    iexact Hwh
  iexists _; isplitr
  swap; · iexact Ha
  ipureintro
  sl_unfold_run_names
  rw [View.read_writes_eq_canon _ _ _ (fun y => ⟨_, List.mem_cons_self, View.mem_set_unit_zero zero_off inb_S1024x1024_S1024x1024_0_0 y⟩)]
  rw [View.canon_cons_unit_zero zero_off]
  simp only [View.readAt_eq_ld, hx.read_unread, hh.read_unread, hwx.read_unread, hwh.read_unread,
    View.ld_unit_zero (S := S1024x512) zero_off, View.ld_unit_zero (S := S1024x1024) zero_off, View.ld_unit_zero (S := S1x1024) zero_off,
    View.readCov_cons_toLoadRect]

end Cert.Kernel.R0

end
-- ==== Proof.KRegion0_Mid.lean ====
/- The matmul kernel's body at a middle K-chunk: the accumulator, at what the chunk before left, takes the two products of
   this chunk; the output block's buffer is not touched. -/
import proofs.«132795_j64476049047569_1_alg».proof.Proof.KRegion0_First
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the four input blocks, with the accumulator at `a`: the body, neither test taken,
    leaves the inputs as they were and the accumulator at `a` plus x·Wxᵀ plus h·Whᵀ of this chunk. -/
theorem run_mid (c : Dev nD) (i : grid0.Coords)
    (mx : Memref sig .tc .vmem S1024x512 .f32) (hx : mx.IsWhole) (mh : Memref sig .tc .vmem S1024x512 .f32) (hh : mh.IsWhole)
    (mwx : Memref sig .tc .vmem S1024x512 .f32) (hwx : mwx.IsWhole) (mwh : Memref sig .tc .vmem S1024x512 .f32) (hwh : mwh.IsWhole)
    (mbx : Memref sig .tc .vmem S1x1024 .f32) (hbx : mbx.IsWhole) (mbh : Memref sig .tc .vmem S1x1024 .f32) (hbh : mbh.IsWhole)
    (mo : Memref sig .tc .vmem S1024x1024 .f32) (ho : mo.IsWhole) (ma : Memref sig .tc .vmem S1024x1024 .f32) (ha : ma.IsWhole)
    (h1 : ¬isFirst i) (h2 : ¬isLast i)
    (x h wx wh : Vec F S1024x512 .f32) (a : Vec F S1024x1024 .f32) (E : Set ℕ) (K : PUnit → sProp 𝕄) :
    iprop(owns (c : Thread nD τ) mx fullShare x ∗ owns (c : Thread nD τ) mh fullShare h ∗ owns (c : Thread nD τ) mwx fullShare wx ∗ owns (c : Thread nD τ) mwh fullShare wh
        ∗ owns (c : Thread nD τ) ma fullShare a
        ∗ (iprop(owns (c : Thread nD τ) mx fullShare x ∗ owns (c : Thread nD τ) mh fullShare h ∗ owns (c : Thread nD τ) mwx fullShare wx ∗ owns (c : Thread nD τ) mwh fullShare wh
            ∗ owns (c : Thread nD τ) ma fullShare (k0_pay3 h wh (k0_pay2 x wx a))) -∗ K ⟨⟩))
      ⊢ wp frame (wpE (defs₀ (F := F)) Variants.none c none) E (cc0__mm_kernel i mx hx mh hh mwx hwx mwh hwh mbx hbx mbh hbh mo ho ma ha) K := by
  simp only [cc0__mm_kernel_eq_skeleton]; unfold cc0__mm_kernel_skel
  unfold owns
  iintro ⟨⟨%fx, %ex, Hx⟩, ⟨%fh, %eh, Hh⟩, ⟨%fwx, %ewx, Hwx⟩, ⟨%fwh, %ewh, Hwh⟩, ⟨%fa, %ea, Ha⟩, Hk⟩
  obtain rfl := hx.eq_unread ex; obtain rfl := hh.eq_unread eh
  obtain rfl := hwx.eq_unread ewx; obtain rfl := hwh.eq_unread ewh; obtain rfl := ha.eq_unread ea
  sl_exec (disch := first | exact h1 | exact h2)
  sl_step
  iapply Hk
  isplitl [Hx]
  · iexists _; isplitr; · ipureintro; exact hx.read_unread _
    iexact Hx
  isplitl [Hh]
  · iexists _; isplitr; · ipureintro; exact hh.read_unread _
    iexact Hh
  isplitl [Hwx]
  · iexists _; isplitr; · ipureintro; exact hwx.read_unread _
    iexact Hwx
  isplitl [Hwh]
  · iexists _; isplitr; · ipureintro; exact hwh.read_unread _
    iexact Hwh
  iexists _; isplitr
  swap; · iexact Ha
  ipureintro
  sl_unfold_run_names
  rw [View.read_writes_eq_canon _ _ _ (fun y => ⟨_, List.mem_cons_self, View.mem_set_unit_zero zero_off inb_S1024x1024_S1024x1024_0_0 y⟩)]
  rw [View.canon_cons_unit_zero zero_off]
  simp only [View.readAt_eq_ld, hx.read_unread, hh.read_unread, hwx.read_unread, hwh.read_unread, ha.read_unread,
    View.ld_unit_zero (S := S1024x512) zero_off, View.ld_unit_zero (S := S1024x1024) zero_off, View.ld_unit_zero (S := S1x1024) zero_off,
    View.readCov_cons_toLoadRect]

end Cert.Kernel.R0

end
-- ==== Proof.KRegion0_Last.lean ====
/- The matmul kernel's body at the last K-chunk of an output block: the accumulator takes the two products of this chunk,
   and the output block's buffer is stored with the accumulator plus the two bias rows. -/
import proofs.«132795_j64476049047569_1_alg».proof.Proof.KRegion0_Mid
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the four input blocks and the two bias rows, with the accumulator at `a` and the
    output block's buffer at anything: the body, its first test not taken and its second taken, leaves the inputs as
    they were, the accumulator at `a` plus x·Wxᵀ plus h·Whᵀ of this chunk, and the output block at that plus the bias
    rows (one whole-block store: its payload is what the buffer then reads). -/
theorem run_last (c : Dev nD) (i : grid0.Coords)
    (mx : Memref sig .tc .vmem S1024x512 .f32) (hx : mx.IsWhole) (mh : Memref sig .tc .vmem S1024x512 .f32) (hh : mh.IsWhole)
    (mwx : Memref sig .tc .vmem S1024x512 .f32) (hwx : mwx.IsWhole) (mwh : Memref sig .tc .vmem S1024x512 .f32) (hwh : mwh.IsWhole)
    (mbx : Memref sig .tc .vmem S1x1024 .f32) (hbx : mbx.IsWhole) (mbh : Memref sig .tc .vmem S1x1024 .f32) (hbh : mbh.IsWhole)
    (mo : Memref sig .tc .vmem S1024x1024 .f32) (ho : mo.IsWhole) (ma : Memref sig .tc .vmem S1024x1024 .f32) (ha : ma.IsWhole)
    (h1 : ¬isFirst i) (h2 : isLast i)
    (x h wx wh : Vec F S1024x512 .f32) (bx bh : Vec F S1x1024 .f32) (a : Vec F S1024x1024 .f32) (E : Set ℕ) (K : PUnit → sProp 𝕄) :
    iprop(owns (c : Thread nD τ) mx fullShare x ∗ owns (c : Thread nD τ) mh fullShare h ∗ owns (c : Thread nD τ) mwx fullShare wx ∗ owns (c : Thread nD τ) mwh fullShare wh
        ∗ owns (c : Thread nD τ) mbx fullShare bx ∗ owns (c : Thread nD τ) mbh fullShare bh
        ∗ (∃ d, owns (c : Thread nD τ) mo fullShare d) ∗ owns (c : Thread nD τ) ma fullShare a
        ∗ (iprop(owns (c : Thread nD τ) mx fullShare x ∗ owns (c : Thread nD τ) mh fullShare h ∗ owns (c : Thread nD τ) mwx fullShare wx ∗ owns (c : Thread nD τ) mwh fullShare wh
            ∗ owns (c : Thread nD τ) mbx fullShare bx ∗ owns (c : Thread nD τ) mbh fullShare bh
            ∗ owns (c : Thread nD τ) mo fullShare (k0_pay4 (k0_pay3 h wh (k0_pay2 x wx a)) bx bh)
            ∗ owns (c : Thread nD τ) ma fullShare (k0_pay3 h wh (k0_pay2 x wx a))) -∗ K ⟨⟩))
      ⊢ wp frame (wpE (defs₀ (F := F)) Variants.none c none) E (cc0__mm_kernel i mx hx mh hh mwx hwx mwh hwh mbx hbx mbh hbh mo ho ma ha) K := by
  simp only [cc0__mm_kernel_eq_skeleton]; unfold cc0__mm_kernel_skel
  unfold owns
  iintro ⟨⟨%fx, %ex, Hx⟩, ⟨%fh, %eh, Hh⟩, ⟨%fwx, %ewx, Hwx⟩, ⟨%fwh, %ewh, Hwh⟩, ⟨%fbx, %ebx, Hbx⟩, ⟨%fbh, %ebh, Hbh⟩,
    ⟨%d, %fo, -, Ho⟩, ⟨%fa, %ea, Ha⟩, Hk⟩
  obtain rfl := hx.eq_unread ex; obtain rfl := hh.eq_unread eh
  obtain rfl := hwx.eq_unread ewx; obtain rfl := hwh.eq_unread ewh
  obtain rfl := hbx.eq_unread ebx; obtain rfl := hbh.eq_unread ebh; obtain rfl := ha.eq_unread ea
  sl_exec (disch := first | exact h1 | exact h2)
  sl_step
  iapply Hk
  isplitl [Hx]
  · iexists _; isplitr; · ipureintro; exact hx.read_unread _
    iexact Hx
  isplitl [Hh]
  · iexists _; isplitr; · ipureintro; exact hh.read_unread _
    iexact Hh
  isplitl [Hwx]
  · iexists _; isplitr; · ipureintro; exact hwx.read_unread _
    iexact Hwx
  isplitl [Hwh]
  · iexists _; isplitr; · ipureintro; exact hwh.read_unread _
    iexact Hwh
  isplitl [Hbx]
  · iexists _; isplitr; · ipureintro; exact hbx.read_unread _
    iexact Hbx
  isplitl [Hbh]
  · iexists _; isplitr; · ipureintro; exact hbh.read_unread _
    iexact Hbh
  isplitl [Ho]
  · iexists _; isplitr
    swap; · iexact Ho
    ipureintro
    sl_unfold_run_names
    rw [View.read_writes_eq_canon _ _ _ (fun y => ⟨_, List.mem_cons_self, View.mem_set_unit_zero zero_off inb_S1024x1024_S1024x1024_0_0 y⟩)]
    rw [View.canon_cons_unit_zero zero_off]
    simp only [View.readAt_eq_ld, hx.read_unread, hh.read_unread, hwx.read_unread, hwh.read_unread, hbx.read_unread, hbh.read_unread, ha.read_unread,
      View.ld_unit_zero (S := S1024x512) zero_off, View.ld_unit_zero (S := S1024x1024) zero_off, View.ld_unit_zero (S := S1x1024) zero_off,
      View.readCov_cons_toLoadRect]
  iexists _; isplitr
  swap; · iexact Ha
  ipureintro
  sl_unfold_run_names
  rw [View.read_writes_eq_canon _ _ _ (fun y => ⟨_, List.mem_cons_self, View.mem_set_unit_zero zero_off inb_S1024x1024_S1024x1024_0_0 y⟩)]
  rw [View.canon_cons_unit_zero zero_off]
  simp only [View.readAt_eq_ld, hx.read_unread, hh.read_unread, hwx.read_unread, hwh.read_unread, ha.read_unread,
    View.ld_unit_zero (S := S1024x512) zero_off, View.ld_unit_zero (S := S1024x1024) zero_off, View.ld_unit_zero (S := S1x1024) zero_off,
    View.readCov_cons_toLoadRect]

end Cert.Kernel.R0

end
-- ==== Proof.KRegion0.lean ====
/- The matmul kernel region (pallas_call 0): what its body leaves at each grid point, and that it does. -/
import proofs.«132795_j64476049047569_1_alg».proof.Proof.Gen.Kernel.Launch
import proofs.«132795_j64476049047569_1_alg».proof.Proof.Gen.Kernel.Skeleton
import proofs.«132795_j64476049047569_1_alg».proof.Proof.Gen.Kernel.Points
import proofs.«132795_j64476049047569_1_alg».proof.Proof.KRegion0_Last
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of the accumulator: add the x·Wxᵀ chunk, then the h·Whᵀ chunk. -/
def step0 (x h wx wh : Vec F S1024x512 .f32) (a : Vec F S1024x1024 .f32) : Vec F S1024x1024 .f32 :=
  k0_pay3 h wh (k0_pay2 x wx a)

/-- The accumulator (the scratch buffer) after the body at position `n`: reset to zero where the point's position is a
    multiple of 4 (the first chunk of an output block), else what the point before left; then this point's update. -/
def accAt (c : Dev nD) : (n : ℕ) → n < cfg0.N → Vec F S1024x1024 .f32
  | 0, hn => step0 (iblk0 V c 0 ⟨0, hn⟩) (iblk0 V c 1 ⟨0, hn⟩) (iblk0 V c 2 ⟨0, hn⟩) (iblk0 V c 3 ⟨0, hn⟩) (k0_pay1 (F := F))
  | n + 1, hn =>
    step0 (iblk0 V c 0 ⟨n + 1, hn⟩) (iblk0 V c 1 ⟨n + 1, hn⟩) (iblk0 V c 2 ⟨n + 1, hn⟩) (iblk0 V c 3 ⟨n + 1, hn⟩)
      (if (n + 1) % 4 = 0 then k0_pay1 (F := F) else accAt c n (Nat.lt_of_succ_lt hn))

/-- What the body stores into the output block (window 6) at the last chunk: the accumulator plus the two bias rows. -/
def out0_6 (c : Dev nD) (t : Fin cfg0.N) : Vec F S1024x1024 .f32 :=
  k0_pay4 (accAt V c t.val t.isLt) (iblk0 V c 4 t) (iblk0 V c 5 t)

/-- The region invariant before position `n`: the scratch accumulator at what the point before left (at anything before a
    point that resets it), the other scoped buffers at anything, the generator register at some state. -/
def Phi0 (c : Dev nD) (n : ℕ) (hn : n ≤ cfg0.N) : sProp 𝕄 :=
  iprop((∃ f : Buf (Elt F) ((c : Thread nD τ).loc cc0_scratch0),
      ⌜∀ h : n % 4 ≠ 0, f = accAt V c (n - 1) (by omega)⌝ ∗ (((c : Thread nD τ).loc cc0_scratch0) ↦{fullShare} f))
    ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f)
    ∗ ∃ r, prngReg c r)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

/-! ## The accumulator, one position unfolded -/

/-- At the first chunk of an output block the accumulator starts from zero. -/
theorem accAt_first (c : Dev nD) (t : Fin cfg0.N) (h0 : t.val % 4 = 0) :
    accAt V c t.val t.isLt = step0 (iblk0 V c 0 t) (iblk0 V c 1 t) (iblk0 V c 2 t) (iblk0 V c 3 t) (k0_pay1 (F := F)) := by
  obtain ⟨n, hn⟩ := t
  cases n with
  | zero => rfl
  | succ n => exact (show accAt V c (n + 1) hn = step0 _ _ _ _ (if (n + 1) % 4 = 0 then k0_pay1 (F := F) else accAt V c n _) from rfl).trans (by rw [if_pos h0])

/-- At any other chunk it starts from what the position before left. -/
theorem accAt_next (c : Dev nD) (t : Fin cfg0.N) (h0 : t.val % 4 ≠ 0) :
    accAt V c t.val t.isLt = step0 (iblk0 V c 0 t) (iblk0 V c 1 t) (iblk0 V c 2 t) (iblk0 V c 3 t) (accAt V c (t.val - 1) (Nat.lt_of_le_of_lt (Nat.sub_le _ _) t.isLt)) := by
  obtain ⟨n, hn⟩ := t
  cases n with
  | zero => exact absurd (Nat.zero_mod 4) h0
  | succ n => exact (show accAt V c (n + 1) hn = step0 _ _ _ _ (if (n + 1) % 4 = 0 then k0_pay1 (F := F) else accAt V c n _) from rfl).trans (by rw [if_neg h0]; rfl)

/-! ## The invariant, opened -/

/-- The part of the invariant the body never touches: the other call's staging buffers, each at some contents, and the
    generator register at some state. -/
def Rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ ∃ r, prngReg c r)

/-- The invariant as the body's run takes it: the accumulator's memref owned at contents that, before a position that
    does not reset it, are what the position before left; beside the untouched rest. -/
theorem Phi0_eq (c : Dev nD) (n : ℕ) (hn : n ≤ cfg0.N) :
    Phi0 V c n hn = iprop((∃ a : Buf (Elt F) ((c : Thread nD τ).loc cc0_scratch0),
        ⌜∀ h : n % 4 ≠ 0, a = accAt V c (n - 1) (by omega)⌝ ∗ owns (c : Thread nD τ) (Memref.whole cc0_scratch0) fullShare a)
      ∗ Rest0 c) := by
  unfold Phi0 Rest0; simp only [owns_whole]

theorem Phi0_castSucc (c : Dev nD) (t : Fin cfg0.N) :
    (dat0 V c).Φ t.castSucc = Phi0 V c t.val (Nat.le_of_lt t.isLt) := rfl

theorem Phi0_succ (c : Dev nD) (t : Fin cfg0.N) :
    (dat0 V c).Φ t.succ = Phi0 V c (t.val + 1) t.isLt := rfl

/-- Where the position is a multiple of 4 the accumulator's contents are not pinned, and the invariant is the scoped
    buffers no window stages, each at some contents, beside the generator register. -/
theorem Phi0_intro (c : Dev nD) (n : ℕ) (hn : n ≤ cfg0.N) (h4 : n % 4 = 0) :
    iprop((∃ r, prngReg c r) ∗ Pipeline.scopedRest (Ix := Unit) (Name := ℕ) (U := UR sig nD τ) (Lvl := ℕ) (Val := Elt F) spec0 c)
      ⊢ Phi0 V c n hn := by
  unfold Phi0; rw [scopedRest0_eq]
  iintro ⟨Hg, ⟨%f, Hs⟩, R1, R2, R3, R4, R5, R6, R7, R8, R9, R10, R11, R12, R13, R14⟩
  isplitl [Hs]
  · iexists f; isplitr
    · ipureintro; intro h; exact absurd h4 h
    iexact Hs
  iframe

/-- At any position the invariant gives them back: the accumulator's pinned contents are forgotten. -/
theorem Phi0_elim (c : Dev nD) (n : ℕ) (hn : n ≤ cfg0.N) :
    Phi0 V c n hn
      ⊢ iprop((∃ r, prngReg c r) ∗ Pipeline.scopedRest (Ix := Unit) (Name := ℕ) (U := UR sig nD τ) (Lvl := ℕ) (Val := Elt F) spec0 c) := by
  unfold Phi0; rw [scopedRest0_eq]
  iintro ⟨⟨%f, -, Hs⟩, R1, R2, R3, R4, R5, R6, R7, R8, R9, R10, R11, R12, R13, R14, Hg⟩
  isplitl [Hg]; · iexact Hg
  isplitl [Hs]; · iexists f; iexact Hs
  iframe

/-- The invariant before the first point, from the generator register and the scoped buffers no window stages. -/
theorem hin0 (c : Dev nD) :
    iprop((∃ r, prngReg c r) ∗ Pipeline.scopedRest (Ix := Unit) (Name := ℕ) (U := UR sig nD τ) (Lvl := ℕ) (Val := Elt F) spec0 c) ⊢ (dat0 V c).Φ 0 :=
  Phi0_intro V c _ (Nat.le_of_lt_succ (0 : Fin (cfg0.N + 1)).isLt) (Nat.zero_mod 4)

/-- The invariant after the last point gives them back. -/
theorem hout0 (c : Dev nD) :
    (dat0 V c).Φ (Fin.last cfg0.N) ⊢ iprop((∃ r, prngReg c r) ∗ Pipeline.scopedRest (Ix := Unit) (Name := ℕ) (U := UR sig nD τ) (Lvl := ℕ) (Val := Elt F) spec0 c) :=
  Phi0_elim V c _ (Nat.le_of_lt_succ (Fin.last cfg0.N).isLt)

/-! ## What the body finds in, and leaves in, the windows' buffers -/

/-- The block a fetch of window `w` at point `t` reads is the block of the array as the region finds it. -/
theorem block0 (c : Dev nD) (w : Fin cfg0.W) (t : Fin cfg0.N) : (dat0 V c).blockOf w t = iblk0 V c w t := by
  unfold Dat.blockOf iblk0; rw [A_eq0]

/-- The x block's buffer holds the block at every point (an input fetched at every point, its blocks whole). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [block0]; dsimp only [dat0]) t d).trans
    (by unfold Dat.fetched; rw [block0]; rfl)

/-- The same for the h block, -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [block0]; dsimp only [dat0]) t d).trans
    (by unfold Dat.fetched; rw [block0]; rfl)

/-- the Wx block, -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [block0]; dsimp only [dat0]) t d).trans
    (by unfold Dat.fetched; rw [block0]; rfl)

/-- and the Wh block. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [block0]; dsimp only [dat0]) t d).trans
    (by unfold Dat.fetched; rw [block0]; rfl)

/-- The bias rows are fetched only at the first chunk of an output block; at the other chunks the block index has not moved and the body left the row in place, so the buffer still holds the point's block. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [block0]; dsimp only [dat0]) t d).trans
    (by unfold Dat.fetched; rw [block0]; rfl)

/-- The same for the second bias row. -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [block0]; dsimp only [dat0]) t d).trans
    (by unfold Dat.fetched; rw [block0]; rfl)

/-- An input window is never idle: the body leaves its buffer at the block. -/
theorem leaves0_0 (c : Dev nD) (t : Fin cfg0.N) :
    (dat0 V c).leavesExact 0 t = owns (c : Thread nD τ) (st0_0 t) fullShare (iblk0 V c 0 t) := by
  unfold Dat.leavesExact; dsimp only [dat0]
theorem leaves0_1 (c : Dev nD) (t : Fin cfg0.N) :
    (dat0 V c).leavesExact 1 t = owns (c : Thread nD τ) (st0_1 t) fullShare (iblk0 V c 1 t) := by
  unfold Dat.leavesExact; dsimp only [dat0]
theorem leaves0_2 (c : Dev nD) (t : Fin cfg0.N) :
    (dat0 V c).leavesExact 2 t = owns (c : Thread nD τ) (st0_2 t) fullShare (iblk0 V c 2 t) := by
  unfold Dat.leavesExact; dsimp only [dat0]
theorem leaves0_3 (c : Dev nD) (t : Fin cfg0.N) :
    (dat0 V c).leavesExact 3 t = owns (c : Thread nD τ) (st0_3 t) fullShare (iblk0 V c 3 t) := by
  unfold Dat.leavesExact; dsimp only [dat0]
theorem leaves0_4 (c : Dev nD) (t : Fin cfg0.N) :
    (dat0 V c).leavesExact 4 t = owns (c : Thread nD τ) (st0_4 t) fullShare (iblk0 V c 4 t) := by
  unfold Dat.leavesExact; dsimp only [dat0]
theorem leaves0_5 (c : Dev nD) (t : Fin cfg0.N) :
    (dat0 V c).leavesExact 5 t = owns (c : Thread nD τ) (st0_5 t) fullShare (iblk0 V c 5 t) := by
  unfold Dat.leavesExact; dsimp only [dat0]

/-- At the last chunk the output window is live: the body leaves the accumulator, this chunk's two products added, plus
    the two bias rows. -/
theorem leaves0_6 (c : Dev nD) (t : Fin cfg0.N) (h0 : t.val % 4 ≠ 0) (h3 : t.val % 4 = 3) :
    (dat0 V c).leavesExact 6 t = owns (c : Thread nD τ) (st0_6 t) fullShare
      (k0_pay4 (k0_pay3 (iblk0 V c 1 t) (iblk0 V c 3 t) (k0_pay2 (iblk0 V c 0 t) (iblk0 V c 2 t)
        (accAt V c (t.val - 1) (Nat.lt_of_le_of_lt (Nat.sub_le _ _) t.isLt)))) (iblk0 V c 4 t) (iblk0 V c 5 t)) := by
  unfold Dat.leavesExact; rw [live_out t h3]
  show owns _ _ _ ((dat0 V c).after 6 t) = _
  dsimp only [dat0]; unfold out0_6; rw [accAt_next V c t h0]; rfl

/-! ## The body obligation -/

/-- The body at any point, the windows one by one. By the position's K-chunk: at the first chunk the accumulator is
    reset and the invariant's pin (vacuous there) is not used; at the others the invariant hands the accumulator at what
    the position before left; after every chunk it is pinned at this position's contents; the output window's buffer is
    handed back as found except at the last chunk, where it is stored. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))
      ∗ (∃ d, owns (c : Thread nD τ) (st0_6 t) fullShare ((dat0 V c).before 6 t d)))
    ⊢ wp frame (wpE (defs₀ (F := F)) Variants.none c none) Set.univ (bodyAt0 t) (fun _ =>
        iprop((dat0 V c).Φ t.succ ∗ (dat0 V c).owesAt () t.succ
          ∗ (dat0 V c).leavesExact 0 t ∗ (dat0 V c).leavesExact 1 t ∗ (dat0 V c).leavesExact 2 t ∗ (dat0 V c).leavesExact 3 t
          ∗ (dat0 V c).leavesExact 4 t ∗ (dat0 V c).leavesExact 5 t ∗ (dat0 V c).leavesExact 6 t)) := by
  simp only [before0_0, before0_1, before0_2, before0_3, before0_4, before0_5]
  rw [leaves0_0, leaves0_1, leaves0_2, leaves0_3, leaves0_4, leaves0_5]
  rw [show (dat0 V c).owesAt () t.succ = (dat0 V c).owesAt () t.castSucc from rfl]
  rw [Phi0_castSucc, Phi0_succ, Phi0_eq, Phi0_eq]
  rcases (by omega : t.val % 4 = 0 ∨ (t.val % 4 ≠ 0 ∧ t.val % 4 ≠ 3) ∨ (t.val % 4 ≠ 0 ∧ t.val % 4 = 3)) with h0 | ⟨h0, h3⟩ | ⟨h0, h3⟩
  · have h3 : t.val % 4 ≠ 3 := by omega
    rw [(dat0 V c).leavesExact_idle 6 t (idle_out t h3) (noFlush_out t h3)]
    iintro ⟨⟨⟨%a, -, Ha⟩, Hr⟩, Hw, ⟨%d0, H0⟩, ⟨%d1, H1⟩, ⟨%d2, H2⟩, ⟨%d3, H3⟩, ⟨%d4, H4⟩, ⟨%d5, H5⟩, H6⟩
    iapply (run_first c (grid0.coords t) _ _ _ _ _ _ _ _ _ _ _ _ _ _ _ _ ((isFirst_iff t).mpr h0) (fun e => h3 ((isLast_iff t).mp e))
      (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [Ha]; · iexists a; iexact Ha
    iintro ⟨H0, H1, H2, H3, Ha⟩
    isplitl [Ha Hr]
    · isplitl [Ha]
      · iexists _; isplitr
        swap; · iexact Ha
        ipureintro; intro _; exact (accAt_first V c t h0).symm
      iexact Hr
    iframe
  · rw [(dat0 V c).leavesExact_idle 6 t (idle_out t h3) (noFlush_out t h3)]
    iintro ⟨⟨⟨%a, %ea, Ha⟩, Hr⟩, Hw, ⟨%d0, H0⟩, ⟨%d1, H1⟩, ⟨%d2, H2⟩, ⟨%d3, H3⟩, ⟨%d4, H4⟩, ⟨%d5, H5⟩, H6⟩
    obtain rfl := ea h0
    iapply (run_mid c (grid0.coords t) _ _ _ _ _ _ _ _ _ _ _ _ _ _ _ _ (fun e => h0 ((isFirst_iff t).mp e)) (fun e => h3 ((isLast_iff t).mp e))
      (iblk0 V c 0 t) (iblk0 V c 1 t) (iblk0 V c 2 t) (iblk0 V c 3 t) (accAt V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [Ha]; · iexact Ha
    iintro ⟨H0, H1, H2, H3, Ha⟩
    isplitl [Ha Hr]
    · isplitl [Ha]
      · iexists _; isplitr
        swap; · iexact Ha
        ipureintro; intro _; exact (accAt_next V c t h0).symm
      iexact Hr
    iframe
  · rw [leaves0_6 V c t h0 h3]
    iintro ⟨⟨⟨%a, %ea, Ha⟩, Hr⟩, Hw, ⟨%d0, H0⟩, ⟨%d1, H1⟩, ⟨%d2, H2⟩, ⟨%d3, H3⟩, ⟨%d4, H4⟩, ⟨%d5, H5⟩, ⟨%d6, H6⟩⟩
    obtain rfl := ea h0
    iapply (run_last c (grid0.coords t) _ _ _ _ _ _ _ _ _ _ _ _ _ _ _ _ (fun e => h0 ((isFirst_iff t).mp e)) ((isLast_iff t).mpr h3)
      (iblk0 V c 0 t) (iblk0 V c 1 t) (iblk0 V c 2 t) (iblk0 V c 3 t) (iblk0 V c 4 t) (iblk0 V c 5 t) (accAt V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Ha]; · iexact Ha
    iintro ⟨H0, H1, H2, H3, H4, H5, H6, Ha⟩
    isplitl [Ha Hr]
    · isplitl [Ha]
      · iexists _; isplitr
        swap; · iexact Ha
        ipureintro; intro _; exact (accAt_next V c t h0).symm
      iexact Hr
    iframe

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.R0

end
-- ==== Proof.KRegion1.lean ====
/- The gate kernel region (pallas_call 1): what its body leaves at each grid point, and that it does. -/
import proofs.«132795_j64476049047569_1_alg».proof.Proof.Gen.Kernel.Launch
import proofs.«132795_j64476049047569_1_alg».proof.Proof.Gen.Kernel.Skeleton
import proofs.«132795_j64476049047569_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body stores into the hy block (window 5) and the cy block (window 6), from the five input blocks. -/
def out1_5 (f i g o cx : Vec F S512x512 .f32) : Vec F S512x512 .f32 := k1_pay2 f i g o cx
def out1_6 (f i g o cx : Vec F S512x512 .f32) : Vec F S512x512 .f32 := k1_pay1 f i g cx

/-- The proof data of pipeline 1 on core `c`. The four gate windows read ONE array, each at a quarter share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

/-! ## What the body leaves, window by window

The five inputs keep their blocks; the two outputs take the gate arithmetic of the five input blocks. -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) := by dsimp only [dat1]

/-! ## What the body finds in the inputs' buffers

An input window's buffer holds the window's block at every point: the body leaves it in place, and a point
that does not fetch has the block index of the point before it. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body's one rectangle

Every load and store of the body goes through the whole 512x512 block: the unit-stride rectangle at offset
zero, through which a load reads the contents and a store leaves its payload. -/

abbrev rW : Rect S512x512 := Rect.unit (s := S512x512) ![0, 0] S512x512.size inb_S512x512_S512x512_0_0

theorem zeroOff : (![0, 0] : Fin 2 → Nat) = fun _ => 0 := funext fun a => by fin_cases a <;> rfl

/-- One store through the whole block covers it. -/
theorem coverW (p : Vec F S512x512 .f32) (y : S512x512.Idx) :
    ∃ pc ∈ ([⟨rW, p⟩] : List (View.Piece (Elt F) S512x512 .f32)), y ∈ pc.1.set :=
  ⟨_, List.mem_singleton_self _, View.mem_set_unit_zero (S := S512x512) zeroOff inb_S512x512_S512x512_0_0 y⟩

/-- The hy block: the one whole-block store of `o`'s logistic times the tanh of the new cell, of the loaded blocks. -/
theorem canon1_5 (f i g o cx : Vec F S512x512 .f32) :
    View.canon [(⟨rW, k1_pay2 (View.ld f rW) (View.ld i rW) (View.ld g rW) (View.ld o rW) (View.ld cx rW)⟩ : View.Piece (Elt F) S512x512 .f32)]
      = out1_5 f i g o cx := by
  rw [View.canon_unit_zero (S := S512x512) zeroOff inb_S512x512_S512x512_0_0]
  simp only [View.ld_unit_zero (S := S512x512) zeroOff inb_S512x512_S512x512_0_0]
  rfl

/-- The cy block: the one whole-block store of the new cell, of the loaded blocks. -/
theorem canon1_6 (f i g cx : Vec F S512x512 .f32) :
    View.canon [(⟨rW, k1_pay1 (View.ld f rW) (View.ld i rW) (View.ld g rW) (View.ld cx rW)⟩ : View.Piece (Elt F) S512x512 .f32)]
      = k1_pay1 f i g cx := by
  rw [View.canon_unit_zero (S := S512x512) zeroOff inb_S512x512_S512x512_0_0]
  simp only [View.ld_unit_zero (S := S512x512) zeroOff inb_S512x512_S512x512_0_0]

/-! ## The body's triple -/

set_option maxHeartbeats 4000000 in
/-- The body on seven whole buffers, the five inputs' at read contents and the two outputs' at anything, runs to
    the continuation holding the inputs' as they were, the hy buffer at `out1_5` and the cy buffer at `out1_6` of
    the inputs. -/
theorem sound_kernel1 (c : Dev nD) (E : Set ℕ) (i : grid1.Coords)
    (a0 : Memref sig .tc .vmem S512x512 .f32) (h0 : a0.IsWhole) (a1 : Memref sig .tc .vmem S512x512 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole)
    (x0 x1 x2 x3 x4 : Vec F S512x512 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4
        ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out1_5 x0 x1 x2 x3 x4)
            ∗ owns (c : Thread nD τ) a6 fullShare (out1_6 x0 x1 x2 x3 x4)) -∗ K ⟨⟩))
      ⊢ wp frame (wpE (defs₀ (F := F)) Variants.none c none) E (cc1__ew_kernel i a0 h0 a1 h1 a2 h2 a3 h3 a4 h4 a5 h5 a6 h6) K := by
  simp only [cc1__ew_kernel_eq_skeleton]; unfold cc1__ew_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (View.read_writes_eq_canon _ _ _ (coverW _)).trans
      (canon1_5 (a0.view.read (Elt F) f0) (a1.view.read (Elt F) f1) (a2.view.read (Elt F) f2) (a3.view.read (Elt F) f3) (a4.view.read (Elt F) f4))
  iexists _; isplitr
  swap; · iexact H6
  ipureintro
  exact (View.read_writes_eq_canon _ _ _ (coverW _)).trans
    (canon1_6 (a0.view.read (Elt F) f0) (a1.view.read (Elt F) f1) (a2.view.read (Elt F) f2) (a4.view.read (Elt F) f4))

/-! ## The body obligation, at a generic point -/

/-- What the body is called with at point `t`: the invariant, what the core owes, and each window's current buffer
    at what it then holds, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the five inputs' buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.R1

end
-- ==== Proof.KSegs.lean ====
/- The two kernel regions as segments of @main: each region's arrays are split out of the core's unscoped buffers at its
   entry and put back at its exit; the gate region's four windows on the gates array each take a quarter of its share. -/
import proofs.«132795_j64476049047569_1_alg».proof.Proof.KRegion0
import proofs.«132795_j64476049047569_1_alg».proof.Proof.KRegion1
import proofs.«132795_j64476049047569_1_alg».proof.Proof.Gen.Kernel.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between the items of @main -/

/-- Region 0's entry contents (after the two reshapes of the biases), read at the TensorCore's references. -/
abbrev E1 : (c : Dev nD) → (b : Ref sig .tc) → Buf (Elt F) ((c : Thread nD τ).loc b) := fun c b => Gen.V1 m c b

/-- What region 0 leaves in the gates array. -/
def o2 (c : Dev nD) : Buf (Elt F) ((c : Thread nD τ).loc main_v2) := (R0.dat0 (E1 m) c).arrAt 6 cfg0.N

/-- Region 1's entry contents: region 0's, the gates array at what region 0 left. -/
abbrev W2 (c : Dev nD) : Valuation τ sig (Elt F) := Function.update (Gen.V1 m c) main_v2 (o2 m c)
abbrev E2 : (c : Dev nD) → (b : Ref sig .tc) → Buf (Elt F) ((c : Thread nD τ).loc b) := fun c b => W2 m c b

/-- What region 1 leaves in its two result arrays. -/
def o3_0 (c : Dev nD) : Buf (Elt F) ((c : Thread nD τ).loc main_v3_0) := (R1.dat1 (E2 m) c).arrAt 5 cfg1.N
def o3_1 (c : Dev nD) : Buf (Elt F) ((c : Thread nD τ).loc main_v3_1) := (R1.dat1 (E2 m) c).arrAt 6 cfg1.N

/-- The contents the regions leave, as the conditional frame's unknowns. -/
def outs : Gen.Outs (F := F) := fun _ r c =>
  if h : r = main_v2 then h ▸ o2 m c
  else if h : r = main_v3_0 then h ▸ o3_0 m c
  else if h : r = main_v3_1 then h ▸ o3_1 m c
  else m ((c : Thread nD τ).loc r)

theorem outs_v2 (J : ℕ) (c : Dev nD) : outs m J main_v2 c = o2 m c := by
  unfold outs; rw [dif_pos rfl]
theorem outs_v3_0 (J : ℕ) (c : Dev nD) : outs m J main_v3_0 c = o3_0 m c := by
  unfold outs; rw [dif_neg (by decide), dif_pos rfl]
theorem outs_v3_1 (J : ℕ) (c : Dev nD) : outs m J main_v3_1 c = o3_1 m c := by
  unfold outs; rw [dif_neg (by decide), dif_neg (by decide), dif_pos rfl]

theorem V2_eq (c : Dev nD) : Gen.V2 m (outs m) c = W2 m c := by
  unfold Gen.V2 W2; rw [outs_v2]

/-- Region 1's exit contents. -/
abbrev W3 (c : Dev nD) : Valuation τ sig (Elt F) := Function.update (Function.update (W2 m c) main_v3_0 (o3_0 m c)) main_v3_1 (o3_1 m c)
abbrev E3 : (c : Dev nD) → (b : Ref sig .tc) → Buf (Elt F) ((c : Thread nD τ).loc b) := fun c b => W3 m c b

theorem V3_eq (c : Dev nD) : Gen.V3 m (outs m) c = W3 m c := by
  unfold Gen.V3 W3; rw [outs_v3_0, outs_v3_1, V2_eq]

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => R0.dat0 (E1 m) c
  | ⟨1, _⟩ => fun c => R1.dat1 (E2 m) c

abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)

/-! ## Region 0 as a segment -/

/-- Off the gates array region 1's entry contents are region 0's. -/
theorem E2_of_ne (c : Dev nD) (b : Ref sig .tc) (h : b ≠ main_v2) : E2 m c b = E1 m c b := by
  show W2 m c b = Gen.V1 m c b
  rw [← V2_eq]; exact Gen.V2_of m (outs m) c b (fun hm => h (List.mem_singleton.mp hm))

theorem hF0 (c : Dev nD) (w : Fin cfg0.W) : (pdats m 0 c).arrAt w cfg0.N = E2 m c (Pipeline.arrRef spec0 w) := by
  match w with
  | ⟨0, _⟩ => exact ((pdats m 0 c).arrAt_in 0 rfl _).trans (E2_of_ne m c main_arg0 (by decide)).symm
  | ⟨1, _⟩ => exact ((pdats m 0 c).arrAt_in 1 rfl _).trans (E2_of_ne m c main_arg1 (by decide)).symm
  | ⟨2, _⟩ => exact ((pdats m 0 c).arrAt_in 2 rfl _).trans (E2_of_ne m c main_arg3 (by decide)).symm
  | ⟨3, _⟩ => exact ((pdats m 0 c).arrAt_in 3 rfl _).trans (E2_of_ne m c main_arg5 (by decide)).symm
  | ⟨4, _⟩ => exact ((pdats m 0 c).arrAt_in 4 rfl _).trans (E2_of_ne m c main_v0 (by decide)).symm
  | ⟨5, _⟩ => exact ((pdats m 0 c).arrAt_in 5 rfl _).trans (E2_of_ne m c main_v1 (by decide)).symm
  | ⟨6, _⟩ => exact (Function.update_self (β := fun b : DevRef τ sig => Buf (Elt F) ((c : Thread nD τ).1, b)) (Proc.devRef .tc main_v2) (o2 m c) (Gen.V1 m c)).symm

theorem hrest0 (c : Dev nD) : ∀ b, b ∉ Finset.univ.image (Pipeline.arrRef spec0) → E2 m c b = E1 m c b := fun b hb =>
  E2_of_ne m c b fun e => hb (Finset.mem_image.mpr ⟨6, Finset.mem_univ _, e.symm⟩)

set_option backward.isDefEq.respectTransparency.types false in
/-- The matmul region: entered from every unscoped buffer at the contents after the reshapes, left with the gates array at
    what the pipeline's write-backs leave; the generator register goes into the invariant and comes back; nothing owed; no
    semaphore of the kernel's own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (R0.dat0 (E1 m) c).Φ 0 from rfl]
    iintro ⟨Hp, -, Hr⟩
    iapply (R0.hin0 (E1 m) c)
    isplitl [Hp]; · iexact Hp
    iexact Hr
  hout c := by
    rw [Pipeline.ownSems0_none, show (pdats m 0 c).Φ (Fin.last _) = (R0.dat0 (E1 m) c).Φ (Fin.last cfg0.N) from rfl]
    refine (R0.hout0 (E1 m) c).trans ?_
    iintro ⟨Hp, Hr⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the gates array dealt among the four windows that read it -/

section Shares

variable (Vr : (c : Dev nD) → (b : Ref sig .tc) → Buf (Elt F) ((c : Thread nD τ).loc b))

/-- The distinct buffers behind pipeline 1's arrays, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v2) ↦{fullShare} W main_v2) ∗ (((c : Thread nD τ).loc main_arg2) ↦{fullShare} W main_arg2)
          ∗ (((c : Thread nD τ).loc main_v3_0) ↦{fullShare} W main_v3_0) ∗ (((c : Thread nD τ).loc main_v3_1) ↦{fullShare} W main_v3_1)) := by
  unfold Pipeline.arrBufs
  rw [bigSep_eq_bigSepL_of_eq [main_v2, main_arg2, main_v3_0, main_v3_1] (by decide) (by decide)]
  rfl

/-- Pipeline 1's arrays, window by window, each at its share. -/
theorem arrays1_eq (c : Dev nD) (Fw : (w : Fin cfg1.W) → Buf (Elt F) ((cfg1.win w).arr.view.loc (c : Thread nD τ))) :
    ((R1.dat1 Vr c).arrays Fw : sProp 𝕄)
      = iprop((((c : Thread nD τ).loc main_v2) ↦{fullShare.left.left} Fw 0) ∗ (((c : Thread nD τ).loc main_v2) ↦{fullShare.left.right} Fw 1)
          ∗ (((c : Thread nD τ).loc main_v2) ↦{fullShare.right.left} Fw 2) ∗ (((c : Thread nD τ).loc main_v2) ↦{fullShare.right.right} Fw 3)
          ∗ (((c : Thread nD τ).loc main_arg2) ↦{fullShare} Fw 4) ∗ (((c : Thread nD τ).loc main_v3_0) ↦{fullShare} Fw 5)
          ∗ (((c : Thread nD τ).loc main_v3_1) ↦{fullShare} Fw 6)) := by
  unfold Pipeline.Dat.arrays
  rw [bigSep_W1, (arr_whole1 0).set_eq_univ, (arr_whole1 4).set_eq_univ, (arr_whole1 5).set_eq_univ, (arr_whole1 6).set_eq_univ]
  rfl

/-- A buffer held whole splits into four quarter shares at the same contents, and back. -/
theorem quarters {ℓ : Loc nD τ sig} (f : Buf (Elt F) ℓ) :
    (ℓ ↦{fullShare} f : sProp 𝕄) ⊣⊢ iprop((ℓ ↦{fullShare.left.left} f) ∗ (ℓ ↦{fullShare.left.right} f) ∗ (ℓ ↦{fullShare.right.left} f) ∗ (ℓ ↦{fullShare.right.right} f)) := by
  constructor
  · iintro H
    ihave H2 := (pointsTo_share (PosShare.mem_left_op_right fullShare)).1 $$ H
    icases H2 with ⟨Hl, Hr⟩
    ihave Hl2 := (pointsTo_share (PosShare.mem_left_op_right fullShare.left)).1 $$ Hl
    ihave Hr2 := (pointsTo_share (PosShare.mem_left_op_right fullShare.right)).1 $$ Hr
    icases Hl2 with ⟨Hll, Hlr⟩
    icases Hr2 with ⟨Hrl, Hrr⟩
    isplitl [Hll]; · iexact Hll
    isplitl [Hlr]; · iexact Hlr
    isplitl [Hrl]; · iexact Hrl
    iexact Hrr
  · iintro ⟨Hll, Hlr, Hrl, Hrr⟩
    iapply (pointsTo_share (PosShare.mem_left_op_right fullShare)).2
    isplitl [Hll Hlr]
    · iapply (pointsTo_share (PosShare.mem_left_op_right fullShare.left)).2
      isplitl [Hll] <;> iassumption
    · iapply (pointsTo_share (PosShare.mem_left_op_right fullShare.right)).2
      isplitl [Hrl] <;> iassumption

end Shares

/-! ## Region 1 as a segment -/

/-- Off its two result arrays region 1's exit contents are its entry contents. -/
theorem E3_of (c : Dev nD) (b : Ref sig .tc) (h : b ∉ ([main_v3_0, main_v3_1] : List (Ref sig .tc))) : E3 m c b = E2 m c b := by
  show W3 m c b = W2 m c b
  rw [← V3_eq, ← V2_eq]; exact Gen.V3_of m (outs m) c b h
theorem E3_v3_1 (c : Dev nD) : E3 m c main_v3_1 = o3_1 m c :=
  Function.update_self (β := fun b : DevRef τ sig => Buf (Elt F) ((c : Thread nD τ).1, b)) (Proc.devRef .tc main_v3_1) (o3_1 m c) _
theorem E3_v3_0 (c : Dev nD) : E3 m c main_v3_0 = o3_0 m c :=
  (Function.update_of_ne (β := fun b : DevRef τ sig => Buf (Elt F) ((c : Thread nD τ).1, b))
    (StableHlo.devRef_ne_of_ne (by decide) : (Proc.devRef .tc main_v3_0 : DevRef τ sig) ≠ Proc.devRef .tc main_v3_1) (o3_1 m c) _).trans
  (Function.update_self (β := fun b : DevRef τ sig => Buf (Elt F) ((c : Thread nD τ).1, b)) (Proc.devRef .tc main_v3_0) (o3_0 m c) _)

/-- The core's unscoped buffers are the buffers behind pipeline 1's arrays and the rest. -/
theorem split1 (c : Dev nD) (W : (b : Ref sig .tc) → Buf (Elt F) ((c : Thread nD τ).loc b)) :
    (unscopedBufs c W : sProp 𝕄) = iprop(Pipeline.arrBufs (Ix := Unit) (Name := ℕ) (U := UR sig nD τ) (Lvl := ℕ) spec1 c W
      ∗ Pipeline.unscopedRest (Ix := Unit) (Name := ℕ) (U := UR sig nD τ) (Lvl := ℕ) spec1 c W) :=
  Pipeline.unscopedBufs_split₀ cfgs 1 winFacts₀1.arr_unscoped c W

/-- ENTRY: the unscoped buffers at region 1's entry contents are its arrays at the proof data's entry contents — the gates
    array dealt in quarters among the four windows that read it — and the rest. -/
theorem entry1 (c : Dev nD) :
    (StableHlo.held (c : Thread nD τ) (Pipeline.ucRefs τ sig) (W2 m c) : sProp 𝕄)
      ⊢ iprop((pdats m 1 c).arrays ((pdats m 1 c).arrAt · 0)
          ∗ Pipeline.unscopedRest (Ix := Unit) (Name := ℕ) (U := UR sig nD τ) (Lvl := ℕ) spec1 c (E2 m c)) := by
  rw [← Pipeline.unscopedBufs_held c (W2 m c), split1 c (E2 m c), arrBufs1_eq,
    show (pdats m 1 c).arrays ((pdats m 1 c).arrAt · 0) = (R1.dat1 (E2 m) c).arrays ((R1.dat1 (E2 m) c).arrAt · 0) from rfl, arrays1_eq]
  iintro ⟨⟨Hg, Hcx, Ho0, Ho1⟩, Hrest⟩
  ihave Hq := (quarters (E2 m c main_v2)).1 $$ Hg
  icases Hq with ⟨H0, H1, H2, H3⟩
  isplitr [Hrest]
  · isplitl [H0]; · iexact H0
    isplitl [H1]; · iexact H1
    isplitl [H2]; · iexact H2
    isplitl [H3]; · iexact H3
    isplitl [Hcx]; · iexact Hcx
    isplitl [Ho0]; · iexact Ho0
    iexact Ho1
  · iexact Hrest

/-- The rest of the unscoped buffers is untouched by the region. -/
theorem rest1_eq (c : Dev nD) :
    (Pipeline.unscopedRest (Ix := Unit) (Name := ℕ) (U := UR sig nD τ) (Lvl := ℕ) spec1 c (E3 m c) : sProp 𝕄)
      = Pipeline.unscopedRest (Ix := Unit) (Name := ℕ) (U := UR sig nD τ) (Lvl := ℕ) spec1 c (E2 m c) := by
  unfold Pipeline.unscopedRest
  refine bigSep_congr fun b hb => ?_
  have hb' := (Finset.mem_sdiff.mp hb).2
  rw [E3_of m c b (fun h => hb' (by
    rcases List.mem_cons.mp h with rfl | h
    · exact Finset.mem_image.mpr ⟨5, Finset.mem_univ _, rfl⟩
    · rcases List.mem_cons.mp h with rfl | h
      · exact Finset.mem_image.mpr ⟨6, Finset.mem_univ _, rfl⟩
      · exact absurd h (List.not_mem_nil)))]

/-- EXIT: the arrays at what the pipeline leaves — the four quarters of the gates array joined back — and the rest are the
    unscoped buffers at region 1's exit contents. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (E2 m c))
      ⊢ (StableHlo.held (c : Thread nD τ) (Pipeline.ucRefs τ sig) (W3 m c) : sProp 𝕄) := by
  have h0 : (R1.dat1 (E2 m) c).arrAt 0 cfg1.N = E3 m c main_v2 := ((R1.dat1 (E2 m) c).arrAt_in 0 rfl _).trans (E3_of m c main_v2 (by decide)).symm
  have h1 : (R1.dat1 (E2 m) c).arrAt 1 cfg1.N = E3 m c main_v2 := ((R1.dat1 (E2 m) c).arrAt_in 1 rfl _).trans (E3_of m c main_v2 (by decide)).symm
  have h2 : (R1.dat1 (E2 m) c).arrAt 2 cfg1.N = E3 m c main_v2 := ((R1.dat1 (E2 m) c).arrAt_in 2 rfl _).trans (E3_of m c main_v2 (by decide)).symm
  have h3 : (R1.dat1 (E2 m) c).arrAt 3 cfg1.N = E3 m c main_v2 := ((R1.dat1 (E2 m) c).arrAt_in 3 rfl _).trans (E3_of m c main_v2 (by decide)).symm
  have h4 : (R1.dat1 (E2 m) c).arrAt 4 cfg1.N = E3 m c main_arg2 := ((R1.dat1 (E2 m) c).arrAt_in 4 rfl _).trans (E3_of m c main_arg2 (by decide)).symm
  have h5 : (R1.dat1 (E2 m) c).arrAt 5 cfg1.N = E3 m c main_v3_0 := (E3_v3_0 m c).symm
  have h6 : (R1.dat1 (E2 m) c).arrAt 6 cfg1.N = E3 m c main_v3_1 := (E3_v3_1 m c).symm
  rw [← Pipeline.unscopedBufs_held c (W3 m c), split1 c (E3 m c), arrBufs1_eq, rest1_eq,
    show (pdats m 1 c).arrays ((pdats m 1 c).arrAt · cfg1.N) = (R1.dat1 (E2 m) c).arrays ((R1.dat1 (E2 m) c).arrAt · cfg1.N) from rfl, arrays1_eq]
  dsimp only
  rw [h0, h1, h2, h3, h4, h5, h6]
  iintro ⟨⟨H0, H1, H2, H3, Hcx, Ho0, Ho1⟩, Hrest⟩
  isplitr [Hrest]
  · isplitl [H0 H1 H2 H3]
    · iapply (quarters (E3 m c main_v2)).2
      isplitl [H0]; · iexact H0
      isplitl [H1]; · iexact H1
      isplitl [H2]; · iexact H2
      iexact H3
    isplitl [Hcx]; · iexact Hcx
    isplitl [Ho0]; · iexact Ho0
    iexact Ho1
  · iexact Hrest

/-- The last thread state without the `owes`: every unscoped buffer at region 1's exit contents, the generator register at some state. -/
abbrev Tₙ (c : Dev nD) : sProp 𝕄 := iprop(StableHlo.held (c : Thread nD τ) (Pipeline.ucRefs τ sig) (W3 m c) ∗ ∃ r, prngReg c r)

set_option backward.isDefEq.respectTransparency.types false in
/-- The gate region: entered from every unscoped buffer at region 0's exit contents, left with the two result arrays at what
    the pipeline's write-backs leave. -/
def reg1 : RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (R1.body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit1 m c); isplitl [Ha] <;> iassumption
      iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

set_option backward.isDefEq.respectTransparency.types false in
/-- From any memory with zero counters every weakly fair execution of @main terminates, nothing faulting, with the two
    result arrays at what region 1's write-backs leave and every argument array as launched. -/
theorem run_main : θ_run defs (onTc (τ := τ) (main (F := F))) ⟨m, fun _ => 0, ρ⟩ (fun r => ∀ c : Dev nD,
      r.2.mem ((c.tc : Thread nD τ).loc main_v3_0) = o3_0 m c
      ∧ r.2.mem ((c.tc : Thread nD τ).loc main_v3_1) = o3_1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) Gen.adm (pdats m) () cellOf_inj emb₁ defs₀ 𝒱₀ L lv m ρ main
    (fun c => Gen.segs m 𝒱₀ L lv (fun _ c => R c) () (pdats m) (reg0 m) (reg1 m) c)
    (fun c Q => by
      rewrite [main_chain c, Seg.run_eq_chain,
        show (Gen.segs m 𝒱₀ L lv (fun _ c => R c) () (pdats m) (reg0 m) (reg1 m) c).map Seg.prog = [
          StableHlo.seq hostOps0,
          Prog.lift (.customCall (Pipeline.entry 0) ()),
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := fun c => ⟨.rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v3_0 (by decide))).trans (E3_v3_0 m c),
       (h c _ (mem_uc main_v3_1 (by decide))).trans (E3_v3_1 m c),
       (h c _ (mem_uc main_arg0 (by decide))).trans ((congrFun (V3_eq m c).symm _).trans (Gen.V3_main_arg0 m (outs m) c)),
       (h c _ (mem_uc main_arg1 (by decide))).trans ((congrFun (V3_eq m c).symm _).trans (Gen.V3_main_arg1 m (outs m) c)),
       (h c _ (mem_uc main_arg2 (by decide))).trans ((congrFun (V3_eq m c).symm _).trans (Gen.V3_main_arg2 m (outs m) c)),
       (h c _ (mem_uc main_arg3 (by decide))).trans ((congrFun (V3_eq m c).symm _).trans (Gen.V3_main_arg3 m (outs m) c)),
       (h c _ (mem_uc main_arg4 (by decide))).trans ((congrFun (V3_eq m c).symm _).trans (Gen.V3_main_arg4 m (outs m) c)),
       (h c _ (mem_uc main_arg5 (by decide))).trans ((congrFun (V3_eq m c).symm _).trans (Gen.V3_main_arg5 m (outs m) c)),
       (h c _ (mem_uc main_arg6 (by decide))).trans ((congrFun (V3_eq m c).symm _).trans (Gen.V3_main_arg6 m (outs m) c))⟩)

end Cert.Kernel.Run

end
-- ==== Proof.Region0_Cases.lean ====
/- The matmul kernel's two tests on the K-chunk coordinate, in closed form over the grid: the accumulator is reset at the
   first chunk of an output block (position ≡ 0 mod 4) and the output block is stored at the last (position ≡ 3 mod 4),
   where alone its window is live. -/
import proofs.«132795_j64476049047569_1_alg».proof.Proof.Gen.KernelIdeal.Skeleton
import proofs.«132795_j64476049047569_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's test, from the grid coordinates: the K-chunk coordinate is 0. -/
abbrev isFirst (i : grid0.Coords) : Prop :=
  (Scalar.cmpi .ne (Scalar.extui (Scalar.cmpi .eq (BitVec.ofNat 32 (i 2).val) 0#32)) 0#32) = 1#1

/-- The second conditional's test: the K-chunk coordinate is 3. -/
abbrev isLast (i : grid0.Coords) : Prop := k0_cond2 i = 1#1

/-- The K-chunk coordinate of position `t` is `t % 4`: the first test holds exactly at the positions ≡ 0 (mod 4), -/
theorem isFirst_iff : ∀ t : Fin cfg0.N, isFirst (grid0.coords t) ↔ t.val % 4 = 0 :=
  (by decide +kernel : ∀ t : Fin grid0.N, isFirst (grid0.coords t) ↔ t.val % 4 = 0)

/-- and the second exactly at the positions ≡ 3 (mod 4). -/
theorem isLast_iff : ∀ t : Fin cfg0.N, isLast (grid0.coords t) ↔ t.val % 4 = 3 :=
  (by decide +kernel : ∀ t : Fin grid0.N, isLast (grid0.coords t) ↔ t.val % 4 = 3)

/-- The output window is idle where the second test fails, -/
theorem idle_out : ∀ t : Fin cfg0.N, t.val % 4 ≠ 3 → cfg0.idle 6 (grid0.coords t) = true :=
  (by decide +kernel : ∀ t : Fin grid0.N, t.val % 4 ≠ 3 → idle0 6 (grid0.coords t) = true)

/-- live where it holds, -/
theorem live_out : ∀ t : Fin cfg0.N, t.val % 4 = 3 → cfg0.idle 6 (grid0.coords t) = false :=
  (by decide +kernel : ∀ t : Fin grid0.N, t.val % 4 = 3 → idle0 6 (grid0.coords t) = false)

/-- and not written back where it is idle. -/
theorem noFlush_out (t : Fin cfg0.N) (h : t.val % 4 ≠ 3) : (cfg0.win 6).flush t = false :=
  Bool.eq_false_iff.mpr fun e => h ((flush0_6 t).mp e)

/-- Every load and store of the body is through the whole-block rectangle: offsets zero on both axes. -/
theorem zero_off : (![0, 0] : Fin 2 → Nat) = fun _ => 0 := funext fun a => by fin_cases a <;> rfl

end Cert.KernelIdeal.R0

end
-- ==== Proof.Region0_First.lean ====
/- The matmul kernel's body at the first K-chunk of an output block: the accumulator is reset to zero, then takes the two
   products of this chunk; the output block's buffer is not touched. -/
import proofs.«132795_j64476049047569_1_alg».proof.Proof.Region0_Cases
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the four input blocks, with the accumulator at anything: the body, its first test
    taken and its second not, leaves the inputs as they were and the accumulator at zero plus x·Wxᵀ plus h·Whᵀ of this
    chunk. The accumulator is stored whole three times (the zero, then each partial sum); each later load reads the
    store before it, so the last store's payload is the composed term. -/
theorem run_first (c : Dev nD) (i : grid0.Coords)
    (mx : Memref sig .tc .vmem S1024x512 .f32) (hx : mx.IsWhole) (mh : Memref sig .tc .vmem S1024x512 .f32) (hh : mh.IsWhole)
    (mwx : Memref sig .tc .vmem S1024x512 .f32) (hwx : mwx.IsWhole) (mwh : Memref sig .tc .vmem S1024x512 .f32) (hwh : mwh.IsWhole)
    (mbx : Memref sig .tc .vmem S1x1024 .f32) (hbx : mbx.IsWhole) (mbh : Memref sig .tc .vmem S1x1024 .f32) (hbh : mbh.IsWhole)
    (mo : Memref sig .tc .vmem S1024x1024 .f32) (ho : mo.IsWhole) (ma : Memref sig .tc .vmem S1024x1024 .f32) (ha : ma.IsWhole)
    (h1 : isFirst i) (h2 : ¬isLast i)
    (x h wx wh : Vec F S1024x512 .f32) (E : Set ℕ) (K : PUnit → sProp 𝕄) :
    iprop(owns (c : Thread nD τ) mx fullShare x ∗ owns (c : Thread nD τ) mh fullShare h ∗ owns (c : Thread nD τ) mwx fullShare wx ∗ owns (c : Thread nD τ) mwh fullShare wh
        ∗ (∃ d, owns (c : Thread nD τ) ma fullShare d)
        ∗ (iprop(owns (c : Thread nD τ) mx fullShare x ∗ owns (c : Thread nD τ) mh fullShare h ∗ owns (c : Thread nD τ) mwx fullShare wx ∗ owns (c : Thread nD τ) mwh fullShare wh
            ∗ owns (c : Thread nD τ) ma fullShare (k0_pay3 h wh (k0_pay2 x wx (k0_pay1 (F := F))))) -∗ K ⟨⟩))
      ⊢ wp frame (wpE (defs₀ (F := F)) Variants.none c none) E (cc0__mm_kernel i mx hx mh hh mwx hwx mwh hwh mbx hbx mbh hbh mo ho ma ha) K := by
  simp only [cc0__mm_kernel_eq_skeleton]; unfold cc0__mm_kernel_skel
  unfold owns
  iintro ⟨⟨%fx, %ex, Hx⟩, ⟨%fh, %eh, Hh⟩, ⟨%fwx, %ewx, Hwx⟩, ⟨%fwh, %ewh, Hwh⟩, ⟨%d, %fa, -, Ha⟩, Hk⟩
  obtain rfl := hx.eq_unread ex; obtain rfl := hh.eq_unread eh
  obtain rfl := hwx.eq_unread ewx; obtain rfl := hwh.eq_unread ewh
  sl_exec (disch := first | exact h1 | exact h2)
  sl_step
  iapply Hk
  isplitl [Hx]
  · iexists _; isplitr; · ipureintro; exact hx.read_unread _
    iexact Hx
  isplitl [Hh]
  · iexists _; isplitr; · ipureintro; exact hh.read_unread _
    iexact Hh
  isplitl [Hwx]
  · iexists _; isplitr; · ipureintro; exact hwx.read_unread _
    iexact Hwx
  isplitl [Hwh]
  · iexists _; isplitr; · ipureintro; exact hwh.read_unread _
    iexact Hwh
  iexists _; isplitr
  swap; · iexact Ha
  ipureintro
  sl_unfold_run_names
  rw [View.read_writes_eq_canon _ _ _ (fun y => ⟨_, List.mem_cons_self, View.mem_set_unit_zero zero_off inb_S1024x1024_S1024x1024_0_0 y⟩)]
  rw [View.canon_cons_unit_zero zero_off]
  simp only [View.readAt_eq_ld, hx.read_unread, hh.read_unread, hwx.read_unread, hwh.read_unread,
    View.ld_unit_zero (S := S1024x512) zero_off, View.ld_unit_zero (S := S1024x1024) zero_off, View.ld_unit_zero (S := S1x1024) zero_off,
    View.readCov_cons_toLoadRect]

end Cert.KernelIdeal.R0

end
-- ==== Proof.Region0_Mid.lean ====
/- The matmul kernel's body at a middle K-chunk: the accumulator, at what the chunk before left, takes the two products of
   this chunk; the output block's buffer is not touched. -/
import proofs.«132795_j64476049047569_1_alg».proof.Proof.Region0_First
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the four input blocks, with the accumulator at `a`: the body, neither test taken,
    leaves the inputs as they were and the accumulator at `a` plus x·Wxᵀ plus h·Whᵀ of this chunk. -/
theorem run_mid (c : Dev nD) (i : grid0.Coords)
    (mx : Memref sig .tc .vmem S1024x512 .f32) (hx : mx.IsWhole) (mh : Memref sig .tc .vmem S1024x512 .f32) (hh : mh.IsWhole)
    (mwx : Memref sig .tc .vmem S1024x512 .f32) (hwx : mwx.IsWhole) (mwh : Memref sig .tc .vmem S1024x512 .f32) (hwh : mwh.IsWhole)
    (mbx : Memref sig .tc .vmem S1x1024 .f32) (hbx : mbx.IsWhole) (mbh : Memref sig .tc .vmem S1x1024 .f32) (hbh : mbh.IsWhole)
    (mo : Memref sig .tc .vmem S1024x1024 .f32) (ho : mo.IsWhole) (ma : Memref sig .tc .vmem S1024x1024 .f32) (ha : ma.IsWhole)
    (h1 : ¬isFirst i) (h2 : ¬isLast i)
    (x h wx wh : Vec F S1024x512 .f32) (a : Vec F S1024x1024 .f32) (E : Set ℕ) (K : PUnit → sProp 𝕄) :
    iprop(owns (c : Thread nD τ) mx fullShare x ∗ owns (c : Thread nD τ) mh fullShare h ∗ owns (c : Thread nD τ) mwx fullShare wx ∗ owns (c : Thread nD τ) mwh fullShare wh
        ∗ owns (c : Thread nD τ) ma fullShare a
        ∗ (iprop(owns (c : Thread nD τ) mx fullShare x ∗ owns (c : Thread nD τ) mh fullShare h ∗ owns (c : Thread nD τ) mwx fullShare wx ∗ owns (c : Thread nD τ) mwh fullShare wh
            ∗ owns (c : Thread nD τ) ma fullShare (k0_pay3 h wh (k0_pay2 x wx a))) -∗ K ⟨⟩))
      ⊢ wp frame (wpE (defs₀ (F := F)) Variants.none c none) E (cc0__mm_kernel i mx hx mh hh mwx hwx mwh hwh mbx hbx mbh hbh mo ho ma ha) K := by
  simp only [cc0__mm_kernel_eq_skeleton]; unfold cc0__mm_kernel_skel
  unfold owns
  iintro ⟨⟨%fx, %ex, Hx⟩, ⟨%fh, %eh, Hh⟩, ⟨%fwx, %ewx, Hwx⟩, ⟨%fwh, %ewh, Hwh⟩, ⟨%fa, %ea, Ha⟩, Hk⟩
  obtain rfl := hx.eq_unread ex; obtain rfl := hh.eq_unread eh
  obtain rfl := hwx.eq_unread ewx; obtain rfl := hwh.eq_unread ewh; obtain rfl := ha.eq_unread ea
  sl_exec (disch := first | exact h1 | exact h2)
  sl_step
  iapply Hk
  isplitl [Hx]
  · iexists _; isplitr; · ipureintro; exact hx.read_unread _
    iexact Hx
  isplitl [Hh]
  · iexists _; isplitr; · ipureintro; exact hh.read_unread _
    iexact Hh
  isplitl [Hwx]
  · iexists _; isplitr; · ipureintro; exact hwx.read_unread _
    iexact Hwx
  isplitl [Hwh]
  · iexists _; isplitr; · ipureintro; exact hwh.read_unread _
    iexact Hwh
  iexists _; isplitr
  swap; · iexact Ha
  ipureintro
  sl_unfold_run_names
  rw [View.read_writes_eq_canon _ _ _ (fun y => ⟨_, List.mem_cons_self, View.mem_set_unit_zero zero_off inb_S1024x1024_S1024x1024_0_0 y⟩)]
  rw [View.canon_cons_unit_zero zero_off]
  simp only [View.readAt_eq_ld, hx.read_unread, hh.read_unread, hwx.read_unread, hwh.read_unread, ha.read_unread,
    View.ld_unit_zero (S := S1024x512) zero_off, View.ld_unit_zero (S := S1024x1024) zero_off, View.ld_unit_zero (S := S1x1024) zero_off,
    View.readCov_cons_toLoadRect]

end Cert.KernelIdeal.R0

end
-- ==== Proof.Region0_Last.lean ====
/- The matmul kernel's body at the last K-chunk of an output block: the accumulator takes the two products of this chunk,
   and the output block's buffer is stored with the accumulator plus the two bias rows. -/
import proofs.«132795_j64476049047569_1_alg».proof.Proof.Region0_Mid
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole staging memrefs holding the four input blocks and the two bias rows, with the accumulator at `a` and the
    output block's buffer at anything: the body, its first test not taken and its second taken, leaves the inputs as
    they were, the accumulator at `a` plus x·Wxᵀ plus h·Whᵀ of this chunk, and the output block at that plus the bias
    rows (one whole-block store: its payload is what the buffer then reads). -/
theorem run_last (c : Dev nD) (i : grid0.Coords)
    (mx : Memref sig .tc .vmem S1024x512 .f32) (hx : mx.IsWhole) (mh : Memref sig .tc .vmem S1024x512 .f32) (hh : mh.IsWhole)
    (mwx : Memref sig .tc .vmem S1024x512 .f32) (hwx : mwx.IsWhole) (mwh : Memref sig .tc .vmem S1024x512 .f32) (hwh : mwh.IsWhole)
    (mbx : Memref sig .tc .vmem S1x1024 .f32) (hbx : mbx.IsWhole) (mbh : Memref sig .tc .vmem S1x1024 .f32) (hbh : mbh.IsWhole)
    (mo : Memref sig .tc .vmem S1024x1024 .f32) (ho : mo.IsWhole) (ma : Memref sig .tc .vmem S1024x1024 .f32) (ha : ma.IsWhole)
    (h1 : ¬isFirst i) (h2 : isLast i)
    (x h wx wh : Vec F S1024x512 .f32) (bx bh : Vec F S1x1024 .f32) (a : Vec F S1024x1024 .f32) (E : Set ℕ) (K : PUnit → sProp 𝕄) :
    iprop(owns (c : Thread nD τ) mx fullShare x ∗ owns (c : Thread nD τ) mh fullShare h ∗ owns (c : Thread nD τ) mwx fullShare wx ∗ owns (c : Thread nD τ) mwh fullShare wh
        ∗ owns (c : Thread nD τ) mbx fullShare bx ∗ owns (c : Thread nD τ) mbh fullShare bh
        ∗ (∃ d, owns (c : Thread nD τ) mo fullShare d) ∗ owns (c : Thread nD τ) ma fullShare a
        ∗ (iprop(owns (c : Thread nD τ) mx fullShare x ∗ owns (c : Thread nD τ) mh fullShare h ∗ owns (c : Thread nD τ) mwx fullShare wx ∗ owns (c : Thread nD τ) mwh fullShare wh
            ∗ owns (c : Thread nD τ) mbx fullShare bx ∗ owns (c : Thread nD τ) mbh fullShare bh
            ∗ owns (c : Thread nD τ) mo fullShare (k0_pay4 (k0_pay3 h wh (k0_pay2 x wx a)) bx bh)
            ∗ owns (c : Thread nD τ) ma fullShare (k0_pay3 h wh (k0_pay2 x wx a))) -∗ K ⟨⟩))
      ⊢ wp frame (wpE (defs₀ (F := F)) Variants.none c none) E (cc0__mm_kernel i mx hx mh hh mwx hwx mwh hwh mbx hbx mbh hbh mo ho ma ha) K := by
  simp only [cc0__mm_kernel_eq_skeleton]; unfold cc0__mm_kernel_skel
  unfold owns
  iintro ⟨⟨%fx, %ex, Hx⟩, ⟨%fh, %eh, Hh⟩, ⟨%fwx, %ewx, Hwx⟩, ⟨%fwh, %ewh, Hwh⟩, ⟨%fbx, %ebx, Hbx⟩, ⟨%fbh, %ebh, Hbh⟩,
    ⟨%d, %fo, -, Ho⟩, ⟨%fa, %ea, Ha⟩, Hk⟩
  obtain rfl := hx.eq_unread ex; obtain rfl := hh.eq_unread eh
  obtain rfl := hwx.eq_unread ewx; obtain rfl := hwh.eq_unread ewh
  obtain rfl := hbx.eq_unread ebx; obtain rfl := hbh.eq_unread ebh; obtain rfl := ha.eq_unread ea
  sl_exec (disch := first | exact h1 | exact h2)
  sl_step
  iapply Hk
  isplitl [Hx]
  · iexists _; isplitr; · ipureintro; exact hx.read_unread _
    iexact Hx
  isplitl [Hh]
  · iexists _; isplitr; · ipureintro; exact hh.read_unread _
    iexact Hh
  isplitl [Hwx]
  · iexists _; isplitr; · ipureintro; exact hwx.read_unread _
    iexact Hwx
  isplitl [Hwh]
  · iexists _; isplitr; · ipureintro; exact hwh.read_unread _
    iexact Hwh
  isplitl [Hbx]
  · iexists _; isplitr; · ipureintro; exact hbx.read_unread _
    iexact Hbx
  isplitl [Hbh]
  · iexists _; isplitr; · ipureintro; exact hbh.read_unread _
    iexact Hbh
  isplitl [Ho]
  · iexists _; isplitr
    swap; · iexact Ho
    ipureintro
    sl_unfold_run_names
    rw [View.read_writes_eq_canon _ _ _ (fun y => ⟨_, List.mem_cons_self, View.mem_set_unit_zero zero_off inb_S1024x1024_S1024x1024_0_0 y⟩)]
    rw [View.canon_cons_unit_zero zero_off]
    simp only [View.readAt_eq_ld, hx.read_unread, hh.read_unread, hwx.read_unread, hwh.read_unread, hbx.read_unread, hbh.read_unread, ha.read_unread,
      View.ld_unit_zero (S := S1024x512) zero_off, View.ld_unit_zero (S := S1024x1024) zero_off, View.ld_unit_zero (S := S1x1024) zero_off,
      View.readCov_cons_toLoadRect]
  iexists _; isplitr
  swap; · iexact Ha
  ipureintro
  sl_unfold_run_names
  rw [View.read_writes_eq_canon _ _ _ (fun y => ⟨_, List.mem_cons_self, View.mem_set_unit_zero zero_off inb_S1024x1024_S1024x1024_0_0 y⟩)]
  rw [View.canon_cons_unit_zero zero_off]
  simp only [View.readAt_eq_ld, hx.read_unread, hh.read_unread, hwx.read_unread, hwh.read_unread, ha.read_unread,
    View.ld_unit_zero (S := S1024x512) zero_off, View.ld_unit_zero (S := S1024x1024) zero_off, View.ld_unit_zero (S := S1x1024) zero_off,
    View.readCov_cons_toLoadRect]

end Cert.KernelIdeal.R0

end
-- ==== Proof.Region0.lean ====
/- The matmul kernel region (pallas_call 0): what its body leaves at each grid point, and that it does. -/
import proofs.«132795_j64476049047569_1_alg».proof.Proof.Gen.KernelIdeal.Launch
import proofs.«132795_j64476049047569_1_alg».proof.Proof.Gen.KernelIdeal.Skeleton
import proofs.«132795_j64476049047569_1_alg».proof.Proof.Gen.KernelIdeal.Points
import proofs.«132795_j64476049047569_1_alg».proof.Proof.Region0_Last
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- One point's update of the accumulator: add the x·Wxᵀ chunk, then the h·Whᵀ chunk. -/
def step0 (x h wx wh : Vec F S1024x512 .f32) (a : Vec F S1024x1024 .f32) : Vec F S1024x1024 .f32 :=
  k0_pay3 h wh (k0_pay2 x wx a)

/-- The accumulator (the scratch buffer) after the body at position `n`: reset to zero where the point's position is a
    multiple of 4 (the first chunk of an output block), else what the point before left; then this point's update. -/
def accAt (c : Dev nD) : (n : ℕ) → n < cfg0.N → Vec F S1024x1024 .f32
  | 0, hn => step0 (iblk0 V c 0 ⟨0, hn⟩) (iblk0 V c 1 ⟨0, hn⟩) (iblk0 V c 2 ⟨0, hn⟩) (iblk0 V c 3 ⟨0, hn⟩) (k0_pay1 (F := F))
  | n + 1, hn =>
    step0 (iblk0 V c 0 ⟨n + 1, hn⟩) (iblk0 V c 1 ⟨n + 1, hn⟩) (iblk0 V c 2 ⟨n + 1, hn⟩) (iblk0 V c 3 ⟨n + 1, hn⟩)
      (if (n + 1) % 4 = 0 then k0_pay1 (F := F) else accAt c n (Nat.lt_of_succ_lt hn))

/-- What the body stores into the output block (window 6) at the last chunk: the accumulator plus the two bias rows. -/
def out0_6 (c : Dev nD) (t : Fin cfg0.N) : Vec F S1024x1024 .f32 :=
  k0_pay4 (accAt V c t.val t.isLt) (iblk0 V c 4 t) (iblk0 V c 5 t)

/-- The region invariant before position `n`: the scratch accumulator at what the point before left (at anything before a
    point that resets it), the other scoped buffers at anything, the generator register at some state. -/
def Phi0 (c : Dev nD) (n : ℕ) (hn : n ≤ cfg0.N) : sProp 𝕄 :=
  iprop((∃ f : Buf (Elt F) ((c : Thread nD τ).loc cc0_scratch0),
      ⌜∀ h : n % 4 ≠ 0, f = accAt V c (n - 1) (by omega)⌝ ∗ (((c : Thread nD τ).loc cc0_scratch0) ↦{fullShare} f))
    ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f)
    ∗ ∃ r, prngReg c r)

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 V c t
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

/-! ## The accumulator, one position unfolded -/

/-- At the first chunk of an output block the accumulator starts from zero. -/
theorem accAt_first (c : Dev nD) (t : Fin cfg0.N) (h0 : t.val % 4 = 0) :
    accAt V c t.val t.isLt = step0 (iblk0 V c 0 t) (iblk0 V c 1 t) (iblk0 V c 2 t) (iblk0 V c 3 t) (k0_pay1 (F := F)) := by
  obtain ⟨n, hn⟩ := t
  cases n with
  | zero => rfl
  | succ n => exact (show accAt V c (n + 1) hn = step0 _ _ _ _ (if (n + 1) % 4 = 0 then k0_pay1 (F := F) else accAt V c n _) from rfl).trans (by rw [if_pos h0])

/-- At any other chunk it starts from what the position before left. -/
theorem accAt_next (c : Dev nD) (t : Fin cfg0.N) (h0 : t.val % 4 ≠ 0) :
    accAt V c t.val t.isLt = step0 (iblk0 V c 0 t) (iblk0 V c 1 t) (iblk0 V c 2 t) (iblk0 V c 3 t) (accAt V c (t.val - 1) (Nat.lt_of_le_of_lt (Nat.sub_le _ _) t.isLt)) := by
  obtain ⟨n, hn⟩ := t
  cases n with
  | zero => exact absurd (Nat.zero_mod 4) h0
  | succ n => exact (show accAt V c (n + 1) hn = step0 _ _ _ _ (if (n + 1) % 4 = 0 then k0_pay1 (F := F) else accAt V c n _) from rfl).trans (by rw [if_neg h0]; rfl)

/-! ## The invariant, opened -/

/-- The part of the invariant the body never touches: the other call's staging buffers, each at some contents, and the
    generator register at some state. -/
def Rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg4_1), ((c : Thread nD τ).loc cc1_stg4_1) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg5_1), ((c : Thread nD τ).loc cc1_stg5_1) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg6_1), ((c : Thread nD τ).loc cc1_stg6_1) ↦{fullShare} f)
    ∗ ∃ r, prngReg c r)

/-- The invariant as the body's run takes it: the accumulator's memref owned at contents that, before a position that
    does not reset it, are what the position before left; beside the untouched rest. -/
theorem Phi0_eq (c : Dev nD) (n : ℕ) (hn : n ≤ cfg0.N) :
    Phi0 V c n hn = iprop((∃ a : Buf (Elt F) ((c : Thread nD τ).loc cc0_scratch0),
        ⌜∀ h : n % 4 ≠ 0, a = accAt V c (n - 1) (by omega)⌝ ∗ owns (c : Thread nD τ) (Memref.whole cc0_scratch0) fullShare a)
      ∗ Rest0 c) := by
  unfold Phi0 Rest0; simp only [owns_whole]

theorem Phi0_castSucc (c : Dev nD) (t : Fin cfg0.N) :
    (dat0 V c).Φ t.castSucc = Phi0 V c t.val (Nat.le_of_lt t.isLt) := rfl

theorem Phi0_succ (c : Dev nD) (t : Fin cfg0.N) :
    (dat0 V c).Φ t.succ = Phi0 V c (t.val + 1) t.isLt := rfl

/-- Where the position is a multiple of 4 the accumulator's contents are not pinned, and the invariant is the scoped
    buffers no window stages, each at some contents, beside the generator register. -/
theorem Phi0_intro (c : Dev nD) (n : ℕ) (hn : n ≤ cfg0.N) (h4 : n % 4 = 0) :
    iprop((∃ r, prngReg c r) ∗ Pipeline.scopedRest (Ix := Unit) (Name := ℕ) (U := UR sig nD τ) (Lvl := ℕ) (Val := Elt F) spec0 c)
      ⊢ Phi0 V c n hn := by
  unfold Phi0; rw [scopedRest0_eq]
  iintro ⟨Hg, ⟨%f, Hs⟩, R1, R2, R3, R4, R5, R6, R7, R8, R9, R10, R11, R12, R13, R14⟩
  isplitl [Hs]
  · iexists f; isplitr
    · ipureintro; intro h; exact absurd h4 h
    iexact Hs
  iframe

/-- At any position the invariant gives them back: the accumulator's pinned contents are forgotten. -/
theorem Phi0_elim (c : Dev nD) (n : ℕ) (hn : n ≤ cfg0.N) :
    Phi0 V c n hn
      ⊢ iprop((∃ r, prngReg c r) ∗ Pipeline.scopedRest (Ix := Unit) (Name := ℕ) (U := UR sig nD τ) (Lvl := ℕ) (Val := Elt F) spec0 c) := by
  unfold Phi0; rw [scopedRest0_eq]
  iintro ⟨⟨%f, -, Hs⟩, R1, R2, R3, R4, R5, R6, R7, R8, R9, R10, R11, R12, R13, R14, Hg⟩
  isplitl [Hg]; · iexact Hg
  isplitl [Hs]; · iexists f; iexact Hs
  iframe

/-- The invariant before the first point, from the generator register and the scoped buffers no window stages. -/
theorem hin0 (c : Dev nD) :
    iprop((∃ r, prngReg c r) ∗ Pipeline.scopedRest (Ix := Unit) (Name := ℕ) (U := UR sig nD τ) (Lvl := ℕ) (Val := Elt F) spec0 c) ⊢ (dat0 V c).Φ 0 :=
  Phi0_intro V c _ (Nat.le_of_lt_succ (0 : Fin (cfg0.N + 1)).isLt) (Nat.zero_mod 4)

/-- The invariant after the last point gives them back. -/
theorem hout0 (c : Dev nD) :
    (dat0 V c).Φ (Fin.last cfg0.N) ⊢ iprop((∃ r, prngReg c r) ∗ Pipeline.scopedRest (Ix := Unit) (Name := ℕ) (U := UR sig nD τ) (Lvl := ℕ) (Val := Elt F) spec0 c) :=
  Phi0_elim V c _ (Nat.le_of_lt_succ (Fin.last cfg0.N).isLt)

/-! ## What the body finds in, and leaves in, the windows' buffers -/

/-- The block a fetch of window `w` at point `t` reads is the block of the array as the region finds it. -/
theorem block0 (c : Dev nD) (w : Fin cfg0.W) (t : Fin cfg0.N) : (dat0 V c).blockOf w t = iblk0 V c w t := by
  unfold Dat.blockOf iblk0; rw [A_eq0]

/-- The x block's buffer holds the block at every point (an input fetched at every point, its blocks whole). -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [block0]; dsimp only [dat0]) t d).trans
    (by unfold Dat.fetched; rw [block0]; rfl)

/-- The same for the h block, -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [block0]; dsimp only [dat0]) t d).trans
    (by unfold Dat.fetched; rw [block0]; rfl)

/-- the Wx block, -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [block0]; dsimp only [dat0]) t d).trans
    (by unfold Dat.fetched; rw [block0]; rfl)

/-- and the Wh block. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [block0]; dsimp only [dat0]) t d).trans
    (by unfold Dat.fetched; rw [block0]; rfl)

/-- The bias rows are fetched only at the first chunk of an output block; at the other chunks the block index has not moved and the body left the row in place, so the buffer still holds the point's block. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [block0]; dsimp only [dat0]) t d).trans
    (by unfold Dat.fetched; rw [block0]; rfl)

/-- The same for the second bias row. -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [block0]; dsimp only [dat0]) t d).trans
    (by unfold Dat.fetched; rw [block0]; rfl)

/-- An input window is never idle: the body leaves its buffer at the block. -/
theorem leaves0_0 (c : Dev nD) (t : Fin cfg0.N) :
    (dat0 V c).leavesExact 0 t = owns (c : Thread nD τ) (st0_0 t) fullShare (iblk0 V c 0 t) := by
  unfold Dat.leavesExact; dsimp only [dat0]
theorem leaves0_1 (c : Dev nD) (t : Fin cfg0.N) :
    (dat0 V c).leavesExact 1 t = owns (c : Thread nD τ) (st0_1 t) fullShare (iblk0 V c 1 t) := by
  unfold Dat.leavesExact; dsimp only [dat0]
theorem leaves0_2 (c : Dev nD) (t : Fin cfg0.N) :
    (dat0 V c).leavesExact 2 t = owns (c : Thread nD τ) (st0_2 t) fullShare (iblk0 V c 2 t) := by
  unfold Dat.leavesExact; dsimp only [dat0]
theorem leaves0_3 (c : Dev nD) (t : Fin cfg0.N) :
    (dat0 V c).leavesExact 3 t = owns (c : Thread nD τ) (st0_3 t) fullShare (iblk0 V c 3 t) := by
  unfold Dat.leavesExact; dsimp only [dat0]
theorem leaves0_4 (c : Dev nD) (t : Fin cfg0.N) :
    (dat0 V c).leavesExact 4 t = owns (c : Thread nD τ) (st0_4 t) fullShare (iblk0 V c 4 t) := by
  unfold Dat.leavesExact; dsimp only [dat0]
theorem leaves0_5 (c : Dev nD) (t : Fin cfg0.N) :
    (dat0 V c).leavesExact 5 t = owns (c : Thread nD τ) (st0_5 t) fullShare (iblk0 V c 5 t) := by
  unfold Dat.leavesExact; dsimp only [dat0]

/-- At the last chunk the output window is live: the body leaves the accumulator, this chunk's two products added, plus
    the two bias rows. -/
theorem leaves0_6 (c : Dev nD) (t : Fin cfg0.N) (h0 : t.val % 4 ≠ 0) (h3 : t.val % 4 = 3) :
    (dat0 V c).leavesExact 6 t = owns (c : Thread nD τ) (st0_6 t) fullShare
      (k0_pay4 (k0_pay3 (iblk0 V c 1 t) (iblk0 V c 3 t) (k0_pay2 (iblk0 V c 0 t) (iblk0 V c 2 t)
        (accAt V c (t.val - 1) (Nat.lt_of_le_of_lt (Nat.sub_le _ _) t.isLt)))) (iblk0 V c 4 t) (iblk0 V c 5 t)) := by
  unfold Dat.leavesExact; rw [live_out t h3]
  show owns _ _ _ ((dat0 V c).after 6 t) = _
  dsimp only [dat0]; unfold out0_6; rw [accAt_next V c t h0]; rfl

/-! ## The body obligation -/

/-- The body at any point, the windows one by one. By the position's K-chunk: at the first chunk the accumulator is
    reset and the invariant's pin (vacuous there) is not used; at the others the invariant hands the accumulator at what
    the position before left; after every chunk it is pinned at this position's contents; the output window's buffer is
    handed back as found except at the last chunk, where it is stored. -/
theorem sound_body0 (c : Dev nD) (t : Fin cfg0.N) :
    iprop((dat0 V c).Φ t.castSucc ∗ (dat0 V c).owesAt () t.castSucc
      ∗ (∃ d, owns (c : Thread nD τ) (st0_0 t) fullShare ((dat0 V c).before 0 t d))
      ∗ (∃ d, owns (c : Thread nD τ) (st0_1 t) fullShare ((dat0 V c).before 1 t d))
      ∗ (∃ d, owns (c : Thread nD τ) (st0_2 t) fullShare ((dat0 V c).before 2 t d))
      ∗ (∃ d, owns (c : Thread nD τ) (st0_3 t) fullShare ((dat0 V c).before 3 t d))
      ∗ (∃ d, owns (c : Thread nD τ) (st0_4 t) fullShare ((dat0 V c).before 4 t d))
      ∗ (∃ d, owns (c : Thread nD τ) (st0_5 t) fullShare ((dat0 V c).before 5 t d))
      ∗ (∃ d, owns (c : Thread nD τ) (st0_6 t) fullShare ((dat0 V c).before 6 t d)))
    ⊢ wp frame (wpE (defs₀ (F := F)) Variants.none c none) Set.univ (bodyAt0 t) (fun _ =>
        iprop((dat0 V c).Φ t.succ ∗ (dat0 V c).owesAt () t.succ
          ∗ (dat0 V c).leavesExact 0 t ∗ (dat0 V c).leavesExact 1 t ∗ (dat0 V c).leavesExact 2 t ∗ (dat0 V c).leavesExact 3 t
          ∗ (dat0 V c).leavesExact 4 t ∗ (dat0 V c).leavesExact 5 t ∗ (dat0 V c).leavesExact 6 t)) := by
  simp only [before0_0, before0_1, before0_2, before0_3, before0_4, before0_5]
  rw [leaves0_0, leaves0_1, leaves0_2, leaves0_3, leaves0_4, leaves0_5]
  rw [show (dat0 V c).owesAt () t.succ = (dat0 V c).owesAt () t.castSucc from rfl]
  rw [Phi0_castSucc, Phi0_succ, Phi0_eq, Phi0_eq]
  rcases (by omega : t.val % 4 = 0 ∨ (t.val % 4 ≠ 0 ∧ t.val % 4 ≠ 3) ∨ (t.val % 4 ≠ 0 ∧ t.val % 4 = 3)) with h0 | ⟨h0, h3⟩ | ⟨h0, h3⟩
  · have h3 : t.val % 4 ≠ 3 := by omega
    rw [(dat0 V c).leavesExact_idle 6 t (idle_out t h3) (noFlush_out t h3)]
    iintro ⟨⟨⟨%a, -, Ha⟩, Hr⟩, Hw, ⟨%d0, H0⟩, ⟨%d1, H1⟩, ⟨%d2, H2⟩, ⟨%d3, H3⟩, ⟨%d4, H4⟩, ⟨%d5, H5⟩, H6⟩
    iapply (run_first c (grid0.coords t) _ _ _ _ _ _ _ _ _ _ _ _ _ _ _ _ ((isFirst_iff t).mpr h0) (fun e => h3 ((isLast_iff t).mp e))
      (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [Ha]; · iexists a; iexact Ha
    iintro ⟨H0, H1, H2, H3, Ha⟩
    isplitl [Ha Hr]
    · isplitl [Ha]
      · iexists _; isplitr
        swap; · iexact Ha
        ipureintro; intro _; exact (accAt_first V c t h0).symm
      iexact Hr
    iframe
  · rw [(dat0 V c).leavesExact_idle 6 t (idle_out t h3) (noFlush_out t h3)]
    iintro ⟨⟨⟨%a, %ea, Ha⟩, Hr⟩, Hw, ⟨%d0, H0⟩, ⟨%d1, H1⟩, ⟨%d2, H2⟩, ⟨%d3, H3⟩, ⟨%d4, H4⟩, ⟨%d5, H5⟩, H6⟩
    obtain rfl := ea h0
    iapply (run_mid c (grid0.coords t) _ _ _ _ _ _ _ _ _ _ _ _ _ _ _ _ (fun e => h0 ((isFirst_iff t).mp e)) (fun e => h3 ((isLast_iff t).mp e))
      (iblk0 V c 0 t) (iblk0 V c 1 t) (iblk0 V c 2 t) (iblk0 V c 3 t) (accAt V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [Ha]; · iexact Ha
    iintro ⟨H0, H1, H2, H3, Ha⟩
    isplitl [Ha Hr]
    · isplitl [Ha]
      · iexists _; isplitr
        swap; · iexact Ha
        ipureintro; intro _; exact (accAt_next V c t h0).symm
      iexact Hr
    iframe
  · rw [leaves0_6 V c t h0 h3]
    iintro ⟨⟨⟨%a, %ea, Ha⟩, Hr⟩, Hw, ⟨%d0, H0⟩, ⟨%d1, H1⟩, ⟨%d2, H2⟩, ⟨%d3, H3⟩, ⟨%d4, H4⟩, ⟨%d5, H5⟩, ⟨%d6, H6⟩⟩
    obtain rfl := ea h0
    iapply (run_last c (grid0.coords t) _ _ _ _ _ _ _ _ _ _ _ _ _ _ _ _ (fun e => h0 ((isFirst_iff t).mp e)) ((isLast_iff t).mpr h3)
      (iblk0 V c 0 t) (iblk0 V c 1 t) (iblk0 V c 2 t) (iblk0 V c 3 t) (iblk0 V c 4 t) (iblk0 V c 5 t) (accAt V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Ha]; · iexact Ha
    iintro ⟨H0, H1, H2, H3, H4, H5, H6, Ha⟩
    isplitl [Ha Hr]
    · isplitl [Ha]
      · iexists _; isplitr
        swap; · iexact Ha
        ipureintro; intro _; exact (accAt_next V c t h0).symm
      iexact Hr
    iframe

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.R0

end
-- ==== Proof.Region1.lean ====
/- The gate kernel region (pallas_call 1): what its body leaves at each grid point, and that it does. -/
import proofs.«132795_j64476049047569_1_alg».proof.Proof.Gen.KernelIdeal.Launch
import proofs.«132795_j64476049047569_1_alg».proof.Proof.Gen.KernelIdeal.Skeleton
import proofs.«132795_j64476049047569_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body stores into the hy block (window 5) and the cy block (window 6), from the five input blocks. -/
def out1_5 (f i g o cx : Vec F S512x512 .f32) : Vec F S512x512 .f32 := k1_pay2 f i g o cx
def out1_6 (f i g o cx : Vec F S512x512 .f32) : Vec F S512x512 .f32 := k1_pay1 f i g cx

/-- The proof data of pipeline 1 on core `c`. The four gate windows read ONE array, each at a quarter share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q w := match w with
    | ⟨0, _⟩ => fullShare.left.left
    | ⟨1, _⟩ => fullShare.left.right
    | ⟨2, _⟩ => fullShare.right.left
    | ⟨3, _⟩ => fullShare.right.right
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

/-! ## What the body leaves, window by window

The five inputs keep their blocks; the two outputs take the gate arithmetic of the five input blocks. -/

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) := by dsimp only [dat1]

/-! ## What the body finds in the inputs' buffers

An input window's buffer holds the window's block at every point: the body leaves it in place, and a point
that does not fetch has the block index of the point before it. -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body's one rectangle

Every load and store of the body goes through the whole 512x512 block: the unit-stride rectangle at offset
zero, through which a load reads the contents and a store leaves its payload. -/

abbrev rW : Rect S512x512 := Rect.unit (s := S512x512) ![0, 0] S512x512.size inb_S512x512_S512x512_0_0

theorem zeroOff : (![0, 0] : Fin 2 → Nat) = fun _ => 0 := funext fun a => by fin_cases a <;> rfl

/-- One store through the whole block covers it. -/
theorem coverW (p : Vec F S512x512 .f32) (y : S512x512.Idx) :
    ∃ pc ∈ ([⟨rW, p⟩] : List (View.Piece (Elt F) S512x512 .f32)), y ∈ pc.1.set :=
  ⟨_, List.mem_singleton_self _, View.mem_set_unit_zero (S := S512x512) zeroOff inb_S512x512_S512x512_0_0 y⟩

/-- The hy block: the one whole-block store of `o`'s logistic times the tanh of the new cell, of the loaded blocks. -/
theorem canon1_5 (f i g o cx : Vec F S512x512 .f32) :
    View.canon [(⟨rW, k1_pay2 (View.ld f rW) (View.ld i rW) (View.ld g rW) (View.ld o rW) (View.ld cx rW)⟩ : View.Piece (Elt F) S512x512 .f32)]
      = out1_5 f i g o cx := by
  rw [View.canon_unit_zero (S := S512x512) zeroOff inb_S512x512_S512x512_0_0]
  simp only [View.ld_unit_zero (S := S512x512) zeroOff inb_S512x512_S512x512_0_0]
  rfl

/-- The cy block: the one whole-block store of the new cell, of the loaded blocks. -/
theorem canon1_6 (f i g cx : Vec F S512x512 .f32) :
    View.canon [(⟨rW, k1_pay1 (View.ld f rW) (View.ld i rW) (View.ld g rW) (View.ld cx rW)⟩ : View.Piece (Elt F) S512x512 .f32)]
      = k1_pay1 f i g cx := by
  rw [View.canon_unit_zero (S := S512x512) zeroOff inb_S512x512_S512x512_0_0]
  simp only [View.ld_unit_zero (S := S512x512) zeroOff inb_S512x512_S512x512_0_0]

/-! ## The body's triple -/

set_option maxHeartbeats 4000000 in
/-- The body on seven whole buffers, the five inputs' at read contents and the two outputs' at anything, runs to
    the continuation holding the inputs' as they were, the hy buffer at `out1_5` and the cy buffer at `out1_6` of
    the inputs. -/
theorem sound_kernel1 (c : Dev nD) (E : Set ℕ) (i : grid1.Coords)
    (a0 : Memref sig .tc .vmem S512x512 .f32) (h0 : a0.IsWhole) (a1 : Memref sig .tc .vmem S512x512 .f32) (h1 : a1.IsWhole)
    (a2 : Memref sig .tc .vmem S512x512 .f32) (h2 : a2.IsWhole) (a3 : Memref sig .tc .vmem S512x512 .f32) (h3 : a3.IsWhole)
    (a4 : Memref sig .tc .vmem S512x512 .f32) (h4 : a4.IsWhole) (a5 : Memref sig .tc .vmem S512x512 .f32) (h5 : a5.IsWhole)
    (a6 : Memref sig .tc .vmem S512x512 .f32) (h6 : a6.IsWhole)
    (x0 x1 x2 x3 x4 : Vec F S512x512 .f32) (K : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ owns (c : Thread nD τ) a4 fullShare x4
        ∗ (∃ d, owns (c : Thread nD τ) a5 fullShare d) ∗ (∃ d, owns (c : Thread nD τ) a6 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare (out1_5 x0 x1 x2 x3 x4)
            ∗ owns (c : Thread nD τ) a6 fullShare (out1_6 x0 x1 x2 x3 x4)) -∗ K ⟨⟩))
      ⊢ wp frame (wpE (defs₀ (F := F)) Variants.none c none) E (cc1__ew_kernel i a0 h0 a1 h1 a2 h2 a3 h3 a4 h4 a5 h5 a6 h6) K := by
  simp only [cc1__ew_kernel_eq_skeleton]; unfold cc1__ew_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact (View.read_writes_eq_canon _ _ _ (coverW _)).trans
      (canon1_5 (a0.view.read (Elt F) f0) (a1.view.read (Elt F) f1) (a2.view.read (Elt F) f2) (a3.view.read (Elt F) f3) (a4.view.read (Elt F) f4))
  iexists _; isplitr
  swap; · iexact H6
  ipureintro
  exact (View.read_writes_eq_canon _ _ _ (coverW _)).trans
    (canon1_6 (a0.view.read (Elt F) f0) (a1.view.read (Elt F) f1) (a2.view.read (Elt F) f2) (a4.view.read (Elt F) f4))

/-! ## The body obligation, at a generic point -/

/-- What the body is called with at point `t`: the invariant, what the core owes, and each window's current buffer
    at what it then holds, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the five inputs' buffers hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.R1

end
-- ==== Proof.Segs.lean ====
/- The two kernel regions as segments of @main: each region's arrays are split out of the core's unscoped buffers at its
   entry and put back at its exit; the gate region's four windows on the gates array each take a quarter of its share. -/
import proofs.«132795_j64476049047569_1_alg».proof.Proof.Region0
import proofs.«132795_j64476049047569_1_alg».proof.Proof.Region1
import proofs.«132795_j64476049047569_1_alg».proof.Proof.Gen.KernelIdeal.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents between the items of @main -/

/-- Region 0's entry contents (after the two reshapes of the biases), read at the TensorCore's references. -/
abbrev E1 : (c : Dev nD) → (b : Ref sig .tc) → Buf (Elt F) ((c : Thread nD τ).loc b) := fun c b => Gen.V1 m c b

/-- What region 0 leaves in the gates array. -/
def o2 (c : Dev nD) : Buf (Elt F) ((c : Thread nD τ).loc main_v2) := (R0.dat0 (E1 m) c).arrAt 6 cfg0.N

/-- Region 1's entry contents: region 0's, the gates array at what region 0 left. -/
abbrev W2 (c : Dev nD) : Valuation τ sig (Elt F) := Function.update (Gen.V1 m c) main_v2 (o2 m c)
abbrev E2 : (c : Dev nD) → (b : Ref sig .tc) → Buf (Elt F) ((c : Thread nD τ).loc b) := fun c b => W2 m c b

/-- What region 1 leaves in its two result arrays. -/
def o3_0 (c : Dev nD) : Buf (Elt F) ((c : Thread nD τ).loc main_v3_0) := (R1.dat1 (E2 m) c).arrAt 5 cfg1.N
def o3_1 (c : Dev nD) : Buf (Elt F) ((c : Thread nD τ).loc main_v3_1) := (R1.dat1 (E2 m) c).arrAt 6 cfg1.N

/-- The contents the regions leave, as the conditional frame's unknowns. -/
def outs : Gen.Outs (F := F) := fun _ r c =>
  if h : r = main_v2 then h ▸ o2 m c
  else if h : r = main_v3_0 then h ▸ o3_0 m c
  else if h : r = main_v3_1 then h ▸ o3_1 m c
  else m ((c : Thread nD τ).loc r)

theorem outs_v2 (J : ℕ) (c : Dev nD) : outs m J main_v2 c = o2 m c := by
  unfold outs; rw [dif_pos rfl]
theorem outs_v3_0 (J : ℕ) (c : Dev nD) : outs m J main_v3_0 c = o3_0 m c := by
  unfold outs; rw [dif_neg (by decide), dif_pos rfl]
theorem outs_v3_1 (J : ℕ) (c : Dev nD) : outs m J main_v3_1 c = o3_1 m c := by
  unfold outs; rw [dif_neg (by decide), dif_neg (by decide), dif_pos rfl]

theorem V2_eq (c : Dev nD) : Gen.V2 m (outs m) c = W2 m c := by
  unfold Gen.V2 W2; rw [outs_v2]

/-- Region 1's exit contents. -/
abbrev W3 (c : Dev nD) : Valuation τ sig (Elt F) := Function.update (Function.update (W2 m c) main_v3_0 (o3_0 m c)) main_v3_1 (o3_1 m c)
abbrev E3 : (c : Dev nD) → (b : Ref sig .tc) → Buf (Elt F) ((c : Thread nD τ).loc b) := fun c b => W3 m c b

theorem V3_eq (c : Dev nD) : Gen.V3 m (outs m) c = W3 m c := by
  unfold Gen.V3 W3; rw [outs_v3_0, outs_v3_1, V2_eq]

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => R0.dat0 (E1 m) c
  | ⟨1, _⟩ => fun c => R1.dat1 (E2 m) c

abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)

/-! ## Region 0 as a segment -/

/-- Off the gates array region 1's entry contents are region 0's. -/
theorem E2_of_ne (c : Dev nD) (b : Ref sig .tc) (h : b ≠ main_v2) : E2 m c b = E1 m c b := by
  show W2 m c b = Gen.V1 m c b
  rw [← V2_eq]; exact Gen.V2_of m (outs m) c b (fun hm => h (List.mem_singleton.mp hm))

theorem hF0 (c : Dev nD) (w : Fin cfg0.W) : (pdats m 0 c).arrAt w cfg0.N = E2 m c (Pipeline.arrRef spec0 w) := by
  match w with
  | ⟨0, _⟩ => exact ((pdats m 0 c).arrAt_in 0 rfl _).trans (E2_of_ne m c main_arg0 (by decide)).symm
  | ⟨1, _⟩ => exact ((pdats m 0 c).arrAt_in 1 rfl _).trans (E2_of_ne m c main_arg1 (by decide)).symm
  | ⟨2, _⟩ => exact ((pdats m 0 c).arrAt_in 2 rfl _).trans (E2_of_ne m c main_arg3 (by decide)).symm
  | ⟨3, _⟩ => exact ((pdats m 0 c).arrAt_in 3 rfl _).trans (E2_of_ne m c main_arg5 (by decide)).symm
  | ⟨4, _⟩ => exact ((pdats m 0 c).arrAt_in 4 rfl _).trans (E2_of_ne m c main_v0 (by decide)).symm
  | ⟨5, _⟩ => exact ((pdats m 0 c).arrAt_in 5 rfl _).trans (E2_of_ne m c main_v1 (by decide)).symm
  | ⟨6, _⟩ => exact (Function.update_self (β := fun b : DevRef τ sig => Buf (Elt F) ((c : Thread nD τ).1, b)) (Proc.devRef .tc main_v2) (o2 m c) (Gen.V1 m c)).symm

theorem hrest0 (c : Dev nD) : ∀ b, b ∉ Finset.univ.image (Pipeline.arrRef spec0) → E2 m c b = E1 m c b := fun b hb =>
  E2_of_ne m c b fun e => hb (Finset.mem_image.mpr ⟨6, Finset.mem_univ _, e.symm⟩)

set_option backward.isDefEq.respectTransparency.types false in
/-- The matmul region: entered from every unscoped buffer at the contents after the reshapes, left with the gates array at
    what the pipeline's write-backs leave; the generator register goes into the invariant and comes back; nothing owed; no
    semaphore of the kernel's own. -/
def reg0 : RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (E1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (R0.dat0 (E1 m) c).Φ 0 from rfl]
    iintro ⟨Hp, -, Hr⟩
    iapply (R0.hin0 (E1 m) c)
    isplitl [Hp]; · iexact Hp
    iexact Hr
  hout c := by
    rw [Pipeline.ownSems0_none, show (pdats m 0 c).Φ (Fin.last _) = (R0.dat0 (E1 m) c).Φ (Fin.last cfg0.N) from rfl]
    refine (R0.hout0 (E1 m) c).trans ?_
    iintro ⟨Hp, Hr⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: the gates array dealt among the four windows that read it -/

section Shares

variable (Vr : (c : Dev nD) → (b : Ref sig .tc) → Buf (Elt F) ((c : Thread nD τ).loc b))

/-- The distinct buffers behind pipeline 1's arrays, one by one. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v2) ↦{fullShare} W main_v2) ∗ (((c : Thread nD τ).loc main_arg2) ↦{fullShare} W main_arg2)
          ∗ (((c : Thread nD τ).loc main_v3_0) ↦{fullShare} W main_v3_0) ∗ (((c : Thread nD τ).loc main_v3_1) ↦{fullShare} W main_v3_1)) := by
  unfold Pipeline.arrBufs
  rw [bigSep_eq_bigSepL_of_eq [main_v2, main_arg2, main_v3_0, main_v3_1] (by decide) (by decide)]
  rfl

/-- Pipeline 1's arrays, window by window, each at its share. -/
theorem arrays1_eq (c : Dev nD) (Fw : (w : Fin cfg1.W) → Buf (Elt F) ((cfg1.win w).arr.view.loc (c : Thread nD τ))) :
    ((R1.dat1 Vr c).arrays Fw : sProp 𝕄)
      = iprop((((c : Thread nD τ).loc main_v2) ↦{fullShare.left.left} Fw 0) ∗ (((c : Thread nD τ).loc main_v2) ↦{fullShare.left.right} Fw 1)
          ∗ (((c : Thread nD τ).loc main_v2) ↦{fullShare.right.left} Fw 2) ∗ (((c : Thread nD τ).loc main_v2) ↦{fullShare.right.right} Fw 3)
          ∗ (((c : Thread nD τ).loc main_arg2) ↦{fullShare} Fw 4) ∗ (((c : Thread nD τ).loc main_v3_0) ↦{fullShare} Fw 5)
          ∗ (((c : Thread nD τ).loc main_v3_1) ↦{fullShare} Fw 6)) := by
  unfold Pipeline.Dat.arrays
  rw [bigSep_W1, (arr_whole1 0).set_eq_univ, (arr_whole1 4).set_eq_univ, (arr_whole1 5).set_eq_univ, (arr_whole1 6).set_eq_univ]
  rfl

/-- A buffer held whole splits into four quarter shares at the same contents, and back. -/
theorem quarters {ℓ : Loc nD τ sig} (f : Buf (Elt F) ℓ) :
    (ℓ ↦{fullShare} f : sProp 𝕄) ⊣⊢ iprop((ℓ ↦{fullShare.left.left} f) ∗ (ℓ ↦{fullShare.left.right} f) ∗ (ℓ ↦{fullShare.right.left} f) ∗ (ℓ ↦{fullShare.right.right} f)) := by
  constructor
  · iintro H
    ihave H2 := (pointsTo_share (PosShare.mem_left_op_right fullShare)).1 $$ H
    icases H2 with ⟨Hl, Hr⟩
    ihave Hl2 := (pointsTo_share (PosShare.mem_left_op_right fullShare.left)).1 $$ Hl
    ihave Hr2 := (pointsTo_share (PosShare.mem_left_op_right fullShare.right)).1 $$ Hr
    icases Hl2 with ⟨Hll, Hlr⟩
    icases Hr2 with ⟨Hrl, Hrr⟩
    isplitl [Hll]; · iexact Hll
    isplitl [Hlr]; · iexact Hlr
    isplitl [Hrl]; · iexact Hrl
    iexact Hrr
  · iintro ⟨Hll, Hlr, Hrl, Hrr⟩
    iapply (pointsTo_share (PosShare.mem_left_op_right fullShare)).2
    isplitl [Hll Hlr]
    · iapply (pointsTo_share (PosShare.mem_left_op_right fullShare.left)).2
      isplitl [Hll] <;> iassumption
    · iapply (pointsTo_share (PosShare.mem_left_op_right fullShare.right)).2
      isplitl [Hrl] <;> iassumption

end Shares

/-! ## Region 1 as a segment -/

/-- Off its two result arrays region 1's exit contents are its entry contents. -/
theorem E3_of (c : Dev nD) (b : Ref sig .tc) (h : b ∉ ([main_v3_0, main_v3_1] : List (Ref sig .tc))) : E3 m c b = E2 m c b := by
  show W3 m c b = W2 m c b
  rw [← V3_eq, ← V2_eq]; exact Gen.V3_of m (outs m) c b h
theorem E3_v3_1 (c : Dev nD) : E3 m c main_v3_1 = o3_1 m c :=
  Function.update_self (β := fun b : DevRef τ sig => Buf (Elt F) ((c : Thread nD τ).1, b)) (Proc.devRef .tc main_v3_1) (o3_1 m c) _
theorem E3_v3_0 (c : Dev nD) : E3 m c main_v3_0 = o3_0 m c :=
  (Function.update_of_ne (β := fun b : DevRef τ sig => Buf (Elt F) ((c : Thread nD τ).1, b))
    (StableHlo.devRef_ne_of_ne (by decide) : (Proc.devRef .tc main_v3_0 : DevRef τ sig) ≠ Proc.devRef .tc main_v3_1) (o3_1 m c) _).trans
  (Function.update_self (β := fun b : DevRef τ sig => Buf (Elt F) ((c : Thread nD τ).1, b)) (Proc.devRef .tc main_v3_0) (o3_0 m c) _)

/-- The core's unscoped buffers are the buffers behind pipeline 1's arrays and the rest. -/
theorem split1 (c : Dev nD) (W : (b : Ref sig .tc) → Buf (Elt F) ((c : Thread nD τ).loc b)) :
    (unscopedBufs c W : sProp 𝕄) = iprop(Pipeline.arrBufs (Ix := Unit) (Name := ℕ) (U := UR sig nD τ) (Lvl := ℕ) spec1 c W
      ∗ Pipeline.unscopedRest (Ix := Unit) (Name := ℕ) (U := UR sig nD τ) (Lvl := ℕ) spec1 c W) :=
  Pipeline.unscopedBufs_split₀ cfgs 1 winFacts₀1.arr_unscoped c W

/-- ENTRY: the unscoped buffers at region 1's entry contents are its arrays at the proof data's entry contents — the gates
    array dealt in quarters among the four windows that read it — and the rest. -/
theorem entry1 (c : Dev nD) :
    (StableHlo.held (c : Thread nD τ) (Pipeline.ucRefs τ sig) (W2 m c) : sProp 𝕄)
      ⊢ iprop((pdats m 1 c).arrays ((pdats m 1 c).arrAt · 0)
          ∗ Pipeline.unscopedRest (Ix := Unit) (Name := ℕ) (U := UR sig nD τ) (Lvl := ℕ) spec1 c (E2 m c)) := by
  rw [← Pipeline.unscopedBufs_held c (W2 m c), split1 c (E2 m c), arrBufs1_eq,
    show (pdats m 1 c).arrays ((pdats m 1 c).arrAt · 0) = (R1.dat1 (E2 m) c).arrays ((R1.dat1 (E2 m) c).arrAt · 0) from rfl, arrays1_eq]
  iintro ⟨⟨Hg, Hcx, Ho0, Ho1⟩, Hrest⟩
  ihave Hq := (quarters (E2 m c main_v2)).1 $$ Hg
  icases Hq with ⟨H0, H1, H2, H3⟩
  isplitr [Hrest]
  · isplitl [H0]; · iexact H0
    isplitl [H1]; · iexact H1
    isplitl [H2]; · iexact H2
    isplitl [H3]; · iexact H3
    isplitl [Hcx]; · iexact Hcx
    isplitl [Ho0]; · iexact Ho0
    iexact Ho1
  · iexact Hrest

/-- The rest of the unscoped buffers is untouched by the region. -/
theorem rest1_eq (c : Dev nD) :
    (Pipeline.unscopedRest (Ix := Unit) (Name := ℕ) (U := UR sig nD τ) (Lvl := ℕ) spec1 c (E3 m c) : sProp 𝕄)
      = Pipeline.unscopedRest (Ix := Unit) (Name := ℕ) (U := UR sig nD τ) (Lvl := ℕ) spec1 c (E2 m c) := by
  unfold Pipeline.unscopedRest
  refine bigSep_congr fun b hb => ?_
  have hb' := (Finset.mem_sdiff.mp hb).2
  rw [E3_of m c b (fun h => hb' (by
    rcases List.mem_cons.mp h with rfl | h
    · exact Finset.mem_image.mpr ⟨5, Finset.mem_univ _, rfl⟩
    · rcases List.mem_cons.mp h with rfl | h
      · exact Finset.mem_image.mpr ⟨6, Finset.mem_univ _, rfl⟩
      · exact absurd h (List.not_mem_nil)))]

/-- EXIT: the arrays at what the pipeline leaves — the four quarters of the gates array joined back — and the rest are the
    unscoped buffers at region 1's exit contents. -/
theorem exit1 (c : Dev nD) :
    iprop((pdats m 1 c).arrays ((pdats m 1 c).arrAt · cfg1.N)
        ∗ Pipeline.unscopedRest (Ix := Unit) (Name := ℕ) (U := UR sig nD τ) (Lvl := ℕ) spec1 c (E2 m c))
      ⊢ (StableHlo.held (c : Thread nD τ) (Pipeline.ucRefs τ sig) (W3 m c) : sProp 𝕄) := by
  have h0 : (R1.dat1 (E2 m) c).arrAt 0 cfg1.N = E3 m c main_v2 := ((R1.dat1 (E2 m) c).arrAt_in 0 rfl _).trans (E3_of m c main_v2 (by decide)).symm
  have h1 : (R1.dat1 (E2 m) c).arrAt 1 cfg1.N = E3 m c main_v2 := ((R1.dat1 (E2 m) c).arrAt_in 1 rfl _).trans (E3_of m c main_v2 (by decide)).symm
  have h2 : (R1.dat1 (E2 m) c).arrAt 2 cfg1.N = E3 m c main_v2 := ((R1.dat1 (E2 m) c).arrAt_in 2 rfl _).trans (E3_of m c main_v2 (by decide)).symm
  have h3 : (R1.dat1 (E2 m) c).arrAt 3 cfg1.N = E3 m c main_v2 := ((R1.dat1 (E2 m) c).arrAt_in 3 rfl _).trans (E3_of m c main_v2 (by decide)).symm
  have h4 : (R1.dat1 (E2 m) c).arrAt 4 cfg1.N = E3 m c main_arg2 := ((R1.dat1 (E2 m) c).arrAt_in 4 rfl _).trans (E3_of m c main_arg2 (by decide)).symm
  have h5 : (R1.dat1 (E2 m) c).arrAt 5 cfg1.N = E3 m c main_v3_0 := (E3_v3_0 m c).symm
  have h6 : (R1.dat1 (E2 m) c).arrAt 6 cfg1.N = E3 m c main_v3_1 := (E3_v3_1 m c).symm
  rw [← Pipeline.unscopedBufs_held c (W3 m c), split1 c (E3 m c), arrBufs1_eq, rest1_eq,
    show (pdats m 1 c).arrays ((pdats m 1 c).arrAt · cfg1.N) = (R1.dat1 (E2 m) c).arrays ((R1.dat1 (E2 m) c).arrAt · cfg1.N) from rfl, arrays1_eq]
  dsimp only
  rw [h0, h1, h2, h3, h4, h5, h6]
  iintro ⟨⟨H0, H1, H2, H3, Hcx, Ho0, Ho1⟩, Hrest⟩
  isplitr [Hrest]
  · isplitl [H0 H1 H2 H3]
    · iapply (quarters (E3 m c main_v2)).2
      isplitl [H0]; · iexact H0
      isplitl [H1]; · iexact H1
      isplitl [H2]; · iexact H2
      iexact H3
    isplitl [Hcx]; · iexact Hcx
    isplitl [Ho0]; · iexact Ho0
    iexact Ho1
  · iexact Hrest

/-- The last thread state without the `owes`: every unscoped buffer at region 1's exit contents, the generator register at some state. -/
abbrev Tₙ (c : Dev nD) : sProp 𝕄 := iprop(StableHlo.held (c : Thread nD τ) (Pipeline.ucRefs τ sig) (W3 m c) ∗ ∃ r, prngReg c r)

set_option backward.isDefEq.respectTransparency.types false in
/-- The gate region: entered from every unscoped buffer at region 0's exit contents, left with the two result arrays at what
    the pipeline's write-backs leave. -/
def reg1 : RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (R1.body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    iintro ⟨⟨Hub, Hp, HO⟩, -, -⟩
    ihave H := (entry1 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · iapply (exit1 m c); isplitl [Ha] <;> iassumption
      iexact HY
    unfold Pipeline.Dat.owesAt Pipeline.owesWithin
    icases HO with ⟨%W, -, HO⟩; iexists W; iexact HO

/-! ## The run -/

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (ρ : Dev nD → PrngReg)

set_option backward.isDefEq.respectTransparency.types false in
/-- From any memory with zero counters every weakly fair execution of @main terminates, nothing faulting, with the two
    result arrays at what region 1's write-backs leave and every argument array as launched. -/
theorem run_main : θ_run defs (onTc (τ := τ) (main (F := F))) ⟨m, fun _ => 0, ρ⟩ (fun r => ∀ c : Dev nD,
      r.2.mem ((c.tc : Thread nD τ).loc main_v3_0) = o3_0 m c
      ∧ r.2.mem ((c.tc : Thread nD τ).loc main_v3_1) = o3_1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) Gen.adm (pdats m) () cellOf_inj emb₁ defs₀ 𝒱₀ L lv m ρ main
    (fun c => Gen.segs m 𝒱₀ L lv (fun _ c => R c) () (pdats m) (reg0 m) (reg1 m) c)
    (fun c Q => by
      rewrite [main_chain c, Seg.run_eq_chain,
        show (Gen.segs m 𝒱₀ L lv (fun _ c => R c) () (pdats m) (reg0 m) (reg1 m) c).map Seg.prog = [
          StableHlo.seq hostOps0,
          Prog.lift (.customCall (Pipeline.entry 0) ()),
          Prog.lift (.customCall (Pipeline.entry 1) ()) ] from rfl]
      exact .rfl)
    (fun c => by simp only [Gen.segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := fun c => ⟨.rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨(h c _ (mem_uc main_v3_0 (by decide))).trans (E3_v3_0 m c),
       (h c _ (mem_uc main_v3_1 (by decide))).trans (E3_v3_1 m c),
       (h c _ (mem_uc main_arg0 (by decide))).trans ((congrFun (V3_eq m c).symm _).trans (Gen.V3_main_arg0 m (outs m) c)),
       (h c _ (mem_uc main_arg1 (by decide))).trans ((congrFun (V3_eq m c).symm _).trans (Gen.V3_main_arg1 m (outs m) c)),
       (h c _ (mem_uc main_arg2 (by decide))).trans ((congrFun (V3_eq m c).symm _).trans (Gen.V3_main_arg2 m (outs m) c)),
       (h c _ (mem_uc main_arg3 (by decide))).trans ((congrFun (V3_eq m c).symm _).trans (Gen.V3_main_arg3 m (outs m) c)),
       (h c _ (mem_uc main_arg4 (by decide))).trans ((congrFun (V3_eq m c).symm _).trans (Gen.V3_main_arg4 m (outs m) c)),
       (h c _ (mem_uc main_arg5 (by decide))).trans ((congrFun (V3_eq m c).symm _).trans (Gen.V3_main_arg5 m (outs m) c)),
       (h c _ (mem_uc main_arg6 (by decide))).trans ((congrFun (V3_eq m c).symm _).trans (Gen.V3_main_arg6 m (outs m) c))⟩)

end Cert.KernelIdeal.Run

end
-- ==== Proof.Spec.lean ====
/-
  The LSTM cell both programs compute, as functions of the argument arrays at the exact instance
  (floats are extended reals): the gate pre-activations
      gates[p, q] = x[p, ·]·Wx[q, ·] + bx[q] + h[p, ·]·Wh[q, ·] + bh[q]      (p < 4096, q < 8192)
  in the reference's order of additions, the same number accumulated in four chunks of 512 along the
  contracted axis with the two biases added last (the kernel's order), and the cell update
      cy = σ(f)·cx + σ(i)·tanh(g),   hy = σ(o)·tanh(cy)
  where f, i, g, o are the four column bands of width 2048 of the gates.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![4096, 2048]⟩
abbrev SW : Shape := ⟨2, ![8192, 2048]⟩
abbrev SB : Shape := ⟨1, ![8192]⟩
abbrev SB2 : Shape := ⟨2, ![1, 8192]⟩
abbrev SG : Shape := ⟨2, ![4096, 8192]⟩

/-- Row `p` of `a` against row `q` of `w`, over the whole contracted axis. -/
def dotRow (a : SX.Idx → EReal) (w : SW.Idx → EReal) (p : Fin 4096) (q : Fin 8192) : EReal :=
  ∑ k : Fin 2048, a (ix2 p k) * w (ix2 q k)

/-- The gate pre-activation at row `p`, column `q`, in the reference's order of additions. -/
def gates (x h : SX.Idx → EReal) (wx wh : SW.Idx → EReal) (bx bh : SB.Idx → EReal) (p : Fin 4096) (q : Fin 8192) : EReal :=
  ((dotRow x wx p q + bx (ix1 q)) + dotRow h wh p q) + bh (ix1 q)

/-- Column `kb * 512 + kk` of the contracted axis: chunk `kb`, offset `kk`. -/
def kcol (kb : Fin 4) (kk : Fin 512) : Fin 2048 := ⟨kb.val * 512 + kk.val, by have := kb.isLt; have := kk.isLt; omega⟩

/-- Row `p` of `a` against row `q` of `w` over chunk `kb` of the contracted axis. -/
def dotChunk (a : SX.Idx → EReal) (w : SW.Idx → EReal) (p : Fin 4096) (q : Fin 8192) (kb : Fin 4) : EReal :=
  ∑ kk : Fin 512, a (ix2 p (kcol kb kk)) * w (ix2 q (kcol kb kk))

/-- The accumulator after the first `n` chunks: from zero, each chunk adds the `x·Wx` part, then the `h·Wh` part. -/
def accK (x h : SX.Idx → EReal) (wx wh : SW.Idx → EReal) (p : Fin 4096) (q : Fin 8192) : ℕ → EReal
  | 0 => 0
  | n + 1 => if hn : n < 4 then (accK x h wx wh p q n + dotChunk x wx p q ⟨n, hn⟩) + dotChunk h wh p q ⟨n, hn⟩ else accK x h wx wh p q n

/-- The gate pre-activation in the kernel's order: four chunks accumulated, then the two bias rows (as `[1, 8192]` arrays). -/
def gatesKer (x h : SX.Idx → EReal) (wx wh : SW.Idx → EReal) (bx2 bh2 : SB2.Idx → EReal) (p : Fin 4096) (q : Fin 8192) : EReal :=
  (accK x h wx wh p q 4 + bx2 (ix2 0 q)) + bh2 (ix2 0 q)

/-- Band `g` (0 forget, 1 input, 2 cell, 3 output) of gate column `j`. -/
def band (g : Fin 4) (j : Fin 2048) : Fin 8192 := ⟨j.val + g.val * 2048, by have := g.isLt; have := j.isLt; omega⟩

/-- The new cell state from a gates array `G` and the old cell state. -/
def cy (G : Fin 4096 → Fin 8192 → EReal) (cx : SX.Idx → EReal) (p : Fin 4096) (j : Fin 2048) : EReal :=
  Ideal.logistic (G p (band 0 j)) * cx (ix2 p j) + Ideal.logistic (G p (band 1 j)) * Ideal.tanh (G p (band 2 j))

/-- The new hidden state. -/
def hy (G : Fin 4096 → Fin 8192 → EReal) (cx : SX.Idx → EReal) (p : Fin 4096) (j : Fin 2048) : EReal :=
  Ideal.logistic (G p (band 3 j)) * Ideal.tanh (cy G cx p j)

/-- The two results as arrays over `[4096, 2048]`. -/
def cyArr (G : Fin 4096 → Fin 8192 → EReal) (cx : SX.Idx → EReal) : SX.Idx → EReal :=
  fun i => cy G cx ⟨(i 0).val, (i 0).isLt⟩ ⟨(i 1).val, (i 1).isLt⟩
def hyArr (G : Fin 4096 → Fin 8192 → EReal) (cx : SX.Idx → EReal) : SX.Idx → EReal :=
  fun i => hy G cx ⟨(i 0).val, (i 0).isLt⟩ ⟨(i 1).val, (i 1).isLt⟩

/-- A gates array `[4096, 8192]` read by coordinates. -/
def ofArr (g : SG.Idx → EReal) : Fin 4096 → Fin 8192 → EReal := fun p q => g (ix2 p q)

end Cert.Spec

end
-- ==== Proof.Value0_Pay.lean ====
/- The four payloads of the matmul kernel read at an index, at the ideal values: the reset block is zero, each
   of the two updates adds to the accumulator the product of a row of its left block with a row of its right block
   (the right block enters transposed), and the last adds the two bias rows to every row of the accumulator. -/
import proofs.«132795_j64476049047569_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R0

open Cert.KernelIdeal Cert.KernelIdeal.Gen
open Idealize.ShloMosaic Idealize.ShloMosaic.ValueIdx

/-- The dimension numbers of the body's two products: [1024, 512] times [512, 1024], contracting the 512. -/
abbrev mmDims := dot_S1024x512_S512x1024_S1024x1024_1_0_0_1_n_n

/-- The reset block is zero at every index. -/
theorem pay1_apply (a b : Fin 1024) : (k0_pay1 (F := Ideal)) (ix2 a b) = 0 := by
  unfold k0_pay1
  refine (congrFun (shapeCast_self _ _) (ix2 a b)).trans ?_
  exact Ideal.ofBits_zero_f32

/-! The operand indices of the product at an output index and a contraction index, axis by axis. -/

theorem lhs_mm_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_mm_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_mm_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_mm_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product into the zero accumulator, at row `a` and column `b`: row `a` of the left operand against column `b`
    of the right one. -/
theorem mm_apply (l : FVec Ideal S1024x512 .bf16) (r : FVec Ideal S512x1024 .bf16) (a b : Fin 1024) :
    matmul dot_S1024x512_S512x1024_S1024x1024_1_0_0_1_n_n none l r (constant S1024x1024 .f32 0x00000000#32) (ix2 a b)
      = ∑ k : Fin 512, l (ix2 a k) * r (ix2 k b) := by
  simp only [matmul]
  rw [Ideal.matmul_constant_zero_apply, ← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 a b) ((contrEquiv1 dot_S1024x512_S512x1024_S1024x1024_1_0_0_1_n_n 512 rfl rfl).symm k) = ix2 a k := funext fun x => Fin.ext (by
    match x with
    | ⟨0, _⟩ => exact lhs_mm_0 _ _
    | ⟨1, _⟩ => exact (lhs_mm_1 _ _).trans hk)
  have er : dot_S1024x512_S512x1024_S1024x1024_1_0_0_1_n_n.rhsIdx (ix2 a b) ((contrEquiv1 dot_S1024x512_S512x1024_S1024x1024_1_0_0_1_n_n 512 rfl rfl).symm k) = ix2 k b := funext fun x => Fin.ext (by
    match x with
    | ⟨0, _⟩ => exact (rhs_mm_0 _ _).trans hk
    | ⟨1, _⟩ => exact rhs_mm_1 _ _)
  rw [el, er]

/-- A [1024, 512] block transposed, read at row `k` and column `b`, is the block at row `b` and column `k`. -/
theorem tr_apply (w : FVec Ideal S1024x512 .bf16) (k : Fin 512) (b : Fin 1024) :
    transpose S512x1024 [1, 0] w transposes_S1024x512_p1_0_S512x1024 (ix2 k b) = w (ix2 b k) :=
  transpose_apply [1, 0] w transposes_S1024x512_p1_0_S512x1024 (ix2 k b) (ix2 b k) (fun x => match x with
    | ⟨0, _⟩ => rfl
    | ⟨1, _⟩ => rfl)

/-- The first update: the accumulator plus row `a` of the left block against row `b` of the right block. -/
theorem pay2_apply (x wx : Vec Ideal S1024x512 .f32) (acc : Vec Ideal S1024x1024 .f32) (a b : Fin 1024) :
    k0_pay2 x wx acc (ix2 a b) = acc (ix2 a b) + ∑ k : Fin 512, x (ix2 a k) * wx (ix2 b k) := by
  unfold k0_pay2
  refine (congrFun (shapeCast_self _ _) (ix2 a b)).trans ?_
  refine congrArg (acc (ix2 a b) + ·) ?_
  refine (mm_apply _ _ a b).trans ?_
  refine Finset.sum_congr rfl fun k _ => ?_
  exact congrArg (x (ix2 a k) * ·) (tr_apply _ k b)

/-- The second update, the same operation on the other pair of blocks. -/
theorem pay3_apply (h wh : Vec Ideal S1024x512 .f32) (acc : Vec Ideal S1024x1024 .f32) (a b : Fin 1024) :
    k0_pay3 h wh acc (ix2 a b) = acc (ix2 a b) + ∑ k : Fin 512, h (ix2 a k) * wh (ix2 b k) := by
  unfold k0_pay3
  refine (congrFun (shapeCast_self _ _) (ix2 a b)).trans ?_
  refine congrArg (acc (ix2 a b) + ·) ?_
  refine (mm_apply _ _ a b).trans ?_
  refine Finset.sum_congr rfl fun k _ => ?_
  exact congrArg (h (ix2 a k) * ·) (tr_apply _ k b)

/-- A [1, 1024] row broadcast to [1024, 1024], read at row `a` and column `b`, is the row at column `b`. -/
theorem row_apply (v : Vec Ideal S1x1024 .f32) (a b : Fin 1024) :
    broadcastTo S1024x1024 (shapeCast S1x1024 v shapeCasts_S1x1024_S1x1024) broadcasts_S1x1024_S1024x1024 (ix2 a b) = v (ix2 0 b) := by
  rw [shapeCast_self]
  exact broadcastTo_apply v broadcasts_S1x1024_S1024x1024 (ix2 a b) (ix2 0 b) (fun x => match x with
    | ⟨0, _⟩ => by show 0 = if (1 : Nat) = 1 then 0 else _; rw [if_pos rfl]
    | ⟨1, _⟩ => by show b.val = if (1024 : Nat) = 1 then 0 else b.val; rw [if_neg (by decide)])

/-- The stored block: the accumulator plus the first bias row, plus the second. -/
theorem pay4_apply (acc : Vec Ideal S1024x1024 .f32) (bx bh : Vec Ideal S1x1024 .f32) (a b : Fin 1024) :
    k0_pay4 acc bx bh (ix2 a b) = (acc (ix2 a b) + bx (ix2 0 b)) + bh (ix2 0 b) := by
  unfold k0_pay4
  show (acc (ix2 a b) + _) + _ = _
  rw [row_apply, row_apply]

end Cert.KernelIdeal.R0

end
-- ==== Proof.Value0.lean ====
/- What the matmul region leaves in the gates array, as a function of the arrays it was entered with: each window's
   block at a grid point is a rectangle of its array (the point `t` is row block `t / 32`, column block `t / 4 % 8`,
   chunk `t % 4` of the contracted axis), the accumulator after a point holds the chunks so far of the two products,
   the last chunk's point stores the accumulator plus the two bias rows, and the blocks written back tile the array. -/
import proofs.«132795_j64476049047569_1_alg».proof.Proof.Region0
import proofs.«132795_j64476049047569_1_alg».proof.Proof.Spec
import proofs.«132795_j64476049047569_1_alg».proof.Proof.Value0_Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.R0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The block index of each window at a grid point, in closed form: the point `t` is row block `t / 32`, column block
    `t / 4 % 8`, chunk `t % 4`. -/
theorem idx_facts : ∀ t : Fin cfg0.N,
    win0_0.index t (0 : Fin 2) = t.val / 32 ∧ win0_0.index t (1 : Fin 2) = t.val % 4
  ∧ win0_1.index t (0 : Fin 2) = t.val / 32 ∧ win0_1.index t (1 : Fin 2) = t.val % 4
  ∧ win0_2.index t (0 : Fin 2) = t.val / 4 % 8 ∧ win0_2.index t (1 : Fin 2) = t.val % 4
  ∧ win0_3.index t (0 : Fin 2) = t.val / 4 % 8 ∧ win0_3.index t (1 : Fin 2) = t.val % 4
  ∧ win0_4.index t (0 : Fin 2) = 0 ∧ win0_4.index t (1 : Fin 2) = t.val / 4 % 8
  ∧ win0_5.index t (0 : Fin 2) = 0 ∧ win0_5.index t (1 : Fin 2) = t.val / 4 % 8
  ∧ win0_6.index t (0 : Fin 2) = t.val / 32 ∧ win0_6.index t (1 : Fin 2) = t.val / 4 % 8 :=
  (by decide +kernel : ∀ t : Fin grid0.N, _)

/-! The blocks and the arrays at their literal types. -/
abbrev xblk (c : Dev nD) (t : Fin cfg0.N) : Vec Ideal S1024x512 .f32 := iblk0 V c 0 t
abbrev hblk (c : Dev nD) (t : Fin cfg0.N) : Vec Ideal S1024x512 .f32 := iblk0 V c 1 t
abbrev wxblk (c : Dev nD) (t : Fin cfg0.N) : Vec Ideal S1024x512 .f32 := iblk0 V c 2 t
abbrev whblk (c : Dev nD) (t : Fin cfg0.N) : Vec Ideal S1024x512 .f32 := iblk0 V c 3 t
abbrev bxblk (c : Dev nD) (t : Fin cfg0.N) : Vec Ideal S1x1024 .f32 := iblk0 V c 4 t
abbrev bhblk (c : Dev nD) (t : Fin cfg0.N) : Vec Ideal S1x1024 .f32 := iblk0 V c 5 t
abbrev xarr (c : Dev nD) : Vec Ideal S4096x2048 .f32 := V c main_arg0
abbrev harr (c : Dev nD) : Vec Ideal S4096x2048 .f32 := V c main_arg1
abbrev wxarr (c : Dev nD) : Vec Ideal S8192x2048 .f32 := V c main_arg3
abbrev wharr (c : Dev nD) : Vec Ideal S8192x2048 .f32 := V c main_arg5
abbrev bxarr (c : Dev nD) : Vec Ideal S1x8192 .f32 := V c main_v0
abbrev bharr (c : Dev nD) : Vec Ideal S1x8192 .f32 := V c main_v1

/-- The x block at point `t` is rows `(t / 32)·1024 …`, columns `(t % 4)·512 …` of x. -/
theorem xblk_apply (c : Dev nD) (t : Fin cfg0.N) (y : S1024x512.Idx) (k : S4096x2048.Idx)
    (hk0 : (k 0).val = t.val / 32 * 1024 + (y 0).val) (hk1 : (k 1).val = t.val % 4 * 512 + (y 1).val) :
    xblk V c t y = xarr V c k := by
  obtain ⟨e0, e1, -⟩ := idx_facts t
  unfold xblk iblk0
  rw [View.read_apply]
  show V c main_arg0 _ = V c main_arg0 _
  congr 1
  funext a
  apply Fin.ext
  match a with
  | ⟨0, _⟩ => show win0_0.index t 0 * 1024 + 1 * (y 0).val = (k 0).val; rw [e0, hk0]; omega
  | ⟨1, _⟩ => show win0_0.index t 1 * 512 + 1 * (y 1).val = (k 1).val; rw [e1, hk1]; omega

/-- The h block likewise of h. -/
theorem hblk_apply (c : Dev nD) (t : Fin cfg0.N) (y : S1024x512.Idx) (k : S4096x2048.Idx)
    (hk0 : (k 0).val = t.val / 32 * 1024 + (y 0).val) (hk1 : (k 1).val = t.val % 4 * 512 + (y 1).val) :
    hblk V c t y = harr V c k := by
  obtain ⟨-, -, e0, e1, -⟩ := idx_facts t
  unfold hblk iblk0
  rw [View.read_apply]
  show V c main_arg1 _ = V c main_arg1 _
  congr 1
  funext a
  apply Fin.ext
  match a with
  | ⟨0, _⟩ => show win0_1.index t 0 * 1024 + 1 * (y 0).val = (k 0).val; rw [e0, hk0]; omega
  | ⟨1, _⟩ => show win0_1.index t 1 * 512 + 1 * (y 1).val = (k 1).val; rw [e1, hk1]; omega

/-- The Wx block at point `t` is rows `(t / 4 % 8)·1024 …`, columns `(t % 4)·512 …` of Wx. -/
theorem wxblk_apply (c : Dev nD) (t : Fin cfg0.N) (y : S1024x512.Idx) (k : S8192x2048.Idx)
    (hk0 : (k 0).val = t.val / 4 % 8 * 1024 + (y 0).val) (hk1 : (k 1).val = t.val % 4 * 512 + (y 1).val) :
    wxblk V c t y = wxarr V c k := by
  obtain ⟨-, -, -, -, e0, e1, -⟩ := idx_facts t
  unfold wxblk iblk0
  rw [View.read_apply]
  show V c main_arg3 _ = V c main_arg3 _
  congr 1
  funext a
  apply Fin.ext
  match a with
  | ⟨0, _⟩ => show win0_2.index t 0 * 1024 + 1 * (y 0).val = (k 0).val; rw [e0, hk0]; omega
  | ⟨1, _⟩ => show win0_2.index t 1 * 512 + 1 * (y 1).val = (k 1).val; rw [e1, hk1]; omega

/-- The Wh block likewise of Wh. -/
theorem whblk_apply (c : Dev nD) (t : Fin cfg0.N) (y : S1024x512.Idx) (k : S8192x2048.Idx)
    (hk0 : (k 0).val = t.val / 4 % 8 * 1024 + (y 0).val) (hk1 : (k 1).val = t.val % 4 * 512 + (y 1).val) :
    whblk V c t y = wharr V c k := by
  obtain ⟨-, -, -, -, -, -, e0, e1, -⟩ := idx_facts t
  unfold whblk iblk0
  rw [View.read_apply]
  show V c main_arg5 _ = V c main_arg5 _
  congr 1
  funext a
  apply Fin.ext
  match a with
  | ⟨0, _⟩ => show win0_3.index t 0 * 1024 + 1 * (y 0).val = (k 0).val; rw [e0, hk0]; omega
  | ⟨1, _⟩ => show win0_3.index t 1 * 512 + 1 * (y 1).val = (k 1).val; rw [e1, hk1]; omega

/-- The first bias block at point `t` is columns `(t / 4 % 8)·1024 …` of the first bias row. -/
theorem bxblk_apply (c : Dev nD) (t : Fin cfg0.N) (y : S1x1024.Idx) (k : S1x8192.Idx)
    (hk0 : (k 0).val = (y 0).val) (hk1 : (k 1).val = t.val / 4 % 8 * 1024 + (y 1).val) :
    bxblk V c t y = bxarr V c k := by
  obtain ⟨-, -, -, -, -, -, -, -, e0, e1, -⟩ := idx_facts t
  unfold bxblk iblk0
  rw [View.read_apply]
  show V c main_v0 _ = V c main_v0 _
  congr 1
  funext a
  apply Fin.ext
  match a with
  | ⟨0, _⟩ => show win0_4.index t 0 * 1 + 1 * (y 0).val = (k 0).val; rw [e0, hk0]; omega
  | ⟨1, _⟩ => show win0_4.index t 1 * 1024 + 1 * (y 1).val = (k 1).val; rw [e1, hk1]; omega

/-- The second bias block likewise of the second bias row. -/
theorem bhblk_apply (c : Dev nD) (t : Fin cfg0.N) (y : S1x1024.Idx) (k : S1x8192.Idx)
    (hk0 : (k 0).val = (y 0).val) (hk1 : (k 1).val = t.val / 4 % 8 * 1024 + (y 1).val) :
    bhblk V c t y = bharr V c k := by
  obtain ⟨-, -, -, -, -, -, -, -, -, -, e0, e1, -⟩ := idx_facts t
  unfold bhblk iblk0
  rw [View.read_apply]
  show V c main_v1 _ = V c main_v1 _
  congr 1
  funext a
  apply Fin.ext
  match a with
  | ⟨0, _⟩ => show win0_5.index t 0 * 1 + 1 * (y 0).val = (k 0).val; rw [e0, hk0]; omega
  | ⟨1, _⟩ => show win0_5.index t 1 * 1024 + 1 * (y 1).val = (k 1).val; rw [e1, hk1]; omega

/-- One point's update at an index: the accumulator plus the x·Wx chunk product, plus the h·Wh chunk product. -/
theorem step0_apply (x h wx wh : Vec Ideal S1024x512 .f32) (acc : Vec Ideal S1024x1024 .f32) (a b : Fin 1024) :
    step0 x h wx wh acc (ix2 a b)
      = (acc (ix2 a b) + ∑ k : Fin 512, x (ix2 a k) * wx (ix2 b k)) + ∑ k : Fin 512, h (ix2 a k) * wh (ix2 b k) := by
  unfold step0
  rw [pay3_apply, pay2_apply]

/-- The accumulator's recursion at a chunk below 4. -/
theorem accK_succ (x h : Cert.Spec.SX.Idx → EReal) (wx wh : Cert.Spec.SW.Idx → EReal) (p : Fin 4096) (q : Fin 8192)
    (m : ℕ) (hm : m < 4) :
    Cert.Spec.accK x h wx wh p q (m + 1)
      = (Cert.Spec.accK x h wx wh p q m + Cert.Spec.dotChunk x wx p q ⟨m, hm⟩) + Cert.Spec.dotChunk h wh p q ⟨m, hm⟩ := by
  show (if hn : m < 4 then _ else _) = _
  rw [dif_pos hm]

/-- The x·Wx product of the blocks at point `t`, row `a` against row `b`, is chunk `t % 4` of the product of row `p` of x
    with row `q` of Wx. -/
theorem xchunk_eq (c : Dev nD) (t : Fin cfg0.N) (a b : Fin 1024) (p : Fin 4096) (q : Fin 8192) (kb : Fin 4)
    (hp : p.val = t.val / 32 * 1024 + a.val) (hq : q.val = t.val / 4 % 8 * 1024 + b.val) (hkb : kb.val = t.val % 4) :
    ∑ k : Fin 512, xblk V c t (ix2 a k) * wxblk V c t (ix2 b k) = Cert.Spec.dotChunk (xarr V c) (wxarr V c) p q kb := by
  unfold Cert.Spec.dotChunk
  refine Finset.sum_congr rfl fun k _ => ?_
  rw [xblk_apply V c t (ix2 a k) (ix2 p (Cert.Spec.kcol kb k)) hp (by show kb.val * 512 + k.val = _; rw [hkb]),
    wxblk_apply V c t (ix2 b k) (ix2 q (Cert.Spec.kcol kb k)) hq (by show kb.val * 512 + k.val = _; rw [hkb])]

/-- The h·Wh product likewise. -/
theorem hchunk_eq (c : Dev nD) (t : Fin cfg0.N) (a b : Fin 1024) (p : Fin 4096) (q : Fin 8192) (kb : Fin 4)
    (hp : p.val = t.val / 32 * 1024 + a.val) (hq : q.val = t.val / 4 % 8 * 1024 + b.val) (hkb : kb.val = t.val % 4) :
    ∑ k : Fin 512, hblk V c t (ix2 a k) * whblk V c t (ix2 b k) = Cert.Spec.dotChunk (harr V c) (wharr V c) p q kb := by
  unfold Cert.Spec.dotChunk
  refine Finset.sum_congr rfl fun k _ => ?_
  rw [hblk_apply V c t (ix2 a k) (ix2 p (Cert.Spec.kcol kb k)) hp (by show kb.val * 512 + k.val = _; rw [hkb]),
    whblk_apply V c t (ix2 b k) (ix2 q (Cert.Spec.kcol kb k)) hq (by show kb.val * 512 + k.val = _; rw [hkb])]

/-- The accumulator after the point at position `n`, at row `a` and column `b` of its block: chunks `0 … n % 4` of the two
    products of row `p` with row `q`, accumulated in order (a position that is a multiple of 4 starts from zero, any other
    from what the position before left, which belongs to the same output block). -/
theorem accAt_apply (c : Dev nD) : ∀ (n : ℕ) (hn : n < cfg0.N) (a b : Fin 1024) (p : Fin 4096) (q : Fin 8192),
    p.val = n / 32 * 1024 + a.val → q.val = n / 4 % 8 * 1024 + b.val →
    accAt V c n hn (ix2 a b) = Cert.Spec.accK (xarr V c) (harr V c) (wxarr V c) (wharr V c) p q (n % 4 + 1)
  | 0, hn, a, b, p, q, hp, hq => by
    show step0 (xblk V c ⟨0, hn⟩) (hblk V c ⟨0, hn⟩) (wxblk V c ⟨0, hn⟩) (whblk V c ⟨0, hn⟩) (k0_pay1 (F := Ideal)) (ix2 a b) = _
    rw [step0_apply, pay1_apply, xchunk_eq V c ⟨0, hn⟩ a b p q 0 hp hq rfl, hchunk_eq V c ⟨0, hn⟩ a b p q 0 hp hq rfl]
    exact (accK_succ _ _ _ _ p q 0 (by decide)).symm
  | n + 1, hn, a, b, p, q, hp, hq => by
    have hm : (n + 1) % 4 < 4 := Nat.mod_lt _ (by decide)
    show step0 (xblk V c ⟨n + 1, hn⟩) (hblk V c ⟨n + 1, hn⟩) (wxblk V c ⟨n + 1, hn⟩) (whblk V c ⟨n + 1, hn⟩)
      (if (n + 1) % 4 = 0 then k0_pay1 (F := Ideal) else accAt V c n (Nat.lt_of_succ_lt hn)) (ix2 a b) = _
    rw [step0_apply, xchunk_eq V c ⟨n + 1, hn⟩ a b p q ⟨(n + 1) % 4, hm⟩ hp hq rfl,
      hchunk_eq V c ⟨n + 1, hn⟩ a b p q ⟨(n + 1) % 4, hm⟩ hp hq rfl, accK_succ _ _ _ _ p q ((n + 1) % 4) hm]
    refine congrArg (· + _) (congrArg (· + _) ?_)
    by_cases h0 : (n + 1) % 4 = 0
    · rw [if_pos h0, pay1_apply, h0]; rfl
    · have e : (n + 1) % 4 = n % 4 + 1 := by omega
      rw [if_neg h0, e]
      exact accAt_apply c n (Nat.lt_of_succ_lt hn) a b p q (by omega) (by omega)

/-- What the point of a block's last chunk stores, at row `a` and column `b` of the block: the gate pre-activation at
    row `p` and column `q`, in the kernel's order of additions. -/
theorem out_apply (c : Dev nD) (t : Fin cfg0.N) (h3 : t.val % 4 = 3) (a b : Fin 1024) (p : Fin 4096) (q : Fin 8192)
    (hp : p.val = t.val / 32 * 1024 + a.val) (hq : q.val = t.val / 4 % 8 * 1024 + b.val) :
    out0_6 V c t (ix2 a b)
      = Cert.Spec.gatesKer (xarr V c) (harr V c) (wxarr V c) (wharr V c) (bxarr V c) (bharr V c) p q := by
  show k0_pay4 (accAt V c t.val t.isLt) (bxblk V c t) (bhblk V c t) (ix2 a b) = _
  rw [pay4_apply, accAt_apply V c t.val t.isLt a b p q hp hq, h3,
    bxblk_apply V c t (ix2 0 b) (ix2 0 q) rfl hq, bhblk_apply V c t (ix2 0 b) (ix2 0 q) rfl hq]
  rfl

/-- The gate pre-activations in the kernel's order, as contents of the gates array. -/
abbrev gatesArr (c : Dev nD) : Buf (Elt Ideal) ((c : Thread nD τ).loc main_v2) := fun i =>
  Cert.Spec.gatesKer (V c main_arg0) (V c main_arg1) (V c main_arg3) (V c main_arg5) (V c main_v0) (V c main_v1)
    ⟨(i 0).val, (i 0).isLt⟩ ⟨(i 1).val, (i 1).isLt⟩

/-- What a point that writes its block back writes is that block of the gate pre-activations: the block at point `t` is
    rows `(t / 32)·1024 …` and columns `(t / 4 % 8)·1024 …` of the array. -/
theorem flushed_eq (c : Dev nD) (t : Fin cfg0.N) (hf : (cfg0.win 6).flush t = true) :
    (dat0 V c).flushed 6 t = ((cfg0.win 6).blk t).view.read (Elt Ideal) (gatesArr V c) := by
  have h3 : t.val % 4 = 3 := (flush0_6 t).mp hf
  obtain ⟨-, -, -, -, -, -, -, -, -, -, -, -, e0, e1⟩ := idx_facts t
  show (cfg0.win 6).cut (grid0.coords t) ((dat0 V c).after 6 t) = _
  funext j
  rw [View.read_apply]
  have hj0 : (j 0).val < 1024 := (j 0).isLt
  have hj1 : (j 1).val < 1024 := (j 1).isLt
  have e : (cfg0.win 6).xinj (grid0.coords t) j = ix2 (⟨(j 0).val, hj0⟩ : Fin 1024) (⟨(j 1).val, hj1⟩ : Fin 1024) :=
    funext fun a => match a with
      | ⟨0, _⟩ => rfl
      | ⟨1, _⟩ => rfl
  show out0_6 V c t ((cfg0.win 6).xinj (grid0.coords t) j) = gatesArr V c (((cfg0.win 6).blk t).view.emb j)
  refine (congrArg (out0_6 V c t) e).trans ?_
  refine out_apply V c t h3 _ _ _ _ ?_ ?_
  · show win0_6.index t 0 * 1024 + 1 * (j 0).val = t.val / 32 * 1024 + (j 0).val
    rw [e0]; omega
  · show win0_6.index t 1 * 1024 + 1 * (j 1).val = t.val / 4 % 8 * 1024 + (j 1).val
    rw [e1]; omega

/-- An index of the gates array is in point `t`'s block iff each coordinate is in the block's range on its axis. -/
theorem mem_blk (t : Fin cfg0.N) (i : S4096x8192.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v2).slice (win0_6.rect t)).set ↔ _
  rw [View.set_slice_whole, Rect.mem_set_unit]
  exact Iff.rfl

/-- Every index of the gates array is in the block some point writes back: row `r`, column `s` in the block of the
    last chunk's point of row block `r / 1024` and column block `s / 1024`. -/
theorem cover (i : S4096x8192.Idx) :
    ∃ t : Fin cfg0.N, (cfg0.win 6).flush t = true ∧ i ∈ ((cfg0.win 6).blk t).view.set := by
  have hN : cfg0.N = 128 := N_0
  have hi0 : (i 0).val < 4096 := (i 0).isLt
  have hi1 : (i 1).val < 8192 := (i 1).isLt
  obtain ⟨t, ht⟩ : ∃ t : Fin cfg0.N, t.val = 32 * ((i 0).val / 1024) + 4 * ((i 1).val / 1024) + 3 :=
    ⟨⟨32 * ((i 0).val / 1024) + 4 * ((i 1).val / 1024) + 3, by omega⟩, rfl⟩
  obtain ⟨-, -, -, -, -, -, -, -, -, -, -, -, e0, e1⟩ := idx_facts t
  refine ⟨t, (flush0_6 t).mpr (by omega), ?_⟩
  rw [mem_blk]
  intro a
  match a with
  | ⟨0, _⟩ =>
    show win0_6.index t 0 * 1024 ≤ (i 0).val ∧ (i 0).val < win0_6.index t 0 * 1024 + 1024
    rw [e0]; omega
  | ⟨1, _⟩ =>
    show win0_6.index t 1 * 1024 ≤ (i 1).val ∧ (i 1).val < win0_6.index t 1 * 1024 + 1024
    rw [e1]; omega

/-- After the region the gates array holds, at row `p` and column `q`, the four chunks accumulated in order plus the two
    bias rows: each output block is written back once, after its last chunk. -/
theorem gates_arr (c : Dev nD) :
    (dat0 V c).arrAt 6 cfg0.N = fun i => Cert.Spec.gatesKer (V c main_arg0) (V c main_arg1) (V c main_arg3) (V c main_arg5)
      (V c main_v0) (V c main_v1) ⟨(i 0).val, (i 0).isLt⟩ ⟨(i 1).val, (i 1).isLt⟩ :=
  (dat0 V c).arrAt_eq_of_cover 6 (gatesArr V c) (flushed_eq V c) cover

end Cert.KernelIdeal.R0

end
-- ==== Proof.Value1.lean ====
/- What the gate region leaves in its two result arrays, as functions of the gates array and the old cell state. -/
import proofs.«132795_j64476049047569_1_alg».proof.Proof.Region1
import proofs.«132795_j64476049047569_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The cell update at one element of a block -/

/-- The new cell state at an element of the block: σ(f)·cx + σ(i)·tanh(g) of the loaded blocks' elements there. -/
theorem cell_at (f i g cx : Vec Ideal S512x512 .f32) (y : S512x512.Idx) :
    k1_pay1 f i g cx y = Ideal.logistic (f y) * cx y + Ideal.logistic (i y) * Ideal.tanh (g y) := by
  unfold k1_pay1
  simp only [shapeCast_self]
  rfl

/-- The new hidden state at an element of the block: σ(o)·tanh of the new cell state there. -/
theorem hidden_at (f i g o cx : Vec Ideal S512x512 .f32) (y : S512x512.Idx) :
    k1_pay2 f i g o cx y = Ideal.logistic (o y) * Ideal.tanh (k1_pay1 f i g cx y) := by
  unfold k1_pay2
  simp only [shapeCast_self]
  rfl

/-- The new hidden state at row `p`, column `j`, from block elements that are the four bands' gates and the old cell
    state at that row and column. -/
theorem hy_point (G : Vec Ideal S4096x8192 .f32) (cxa : Vec Ideal S4096x2048 .f32) (f i g o cx : Vec Ideal S512x512 .f32)
    (y : S512x512.Idx) (p : Fin 4096) (j : Fin 2048)
    (hf : f y = G (ix2 p (Cert.Spec.band 0 j))) (hi : i y = G (ix2 p (Cert.Spec.band 1 j)))
    (hg : g y = G (ix2 p (Cert.Spec.band 2 j))) (ho : o y = G (ix2 p (Cert.Spec.band 3 j)))
    (hcx : cx y = cxa (ix2 p j)) :
    k1_pay2 f i g o cx y = Cert.Spec.hy (Cert.Spec.ofArr G) cxa p j := by
  rw [hidden_at, cell_at, hf, hi, hg, ho, hcx]
  rfl

/-- The new cell state at row `p`, column `j`, likewise. -/
theorem cy_point (G : Vec Ideal S4096x8192 .f32) (cxa : Vec Ideal S4096x2048 .f32) (f i g cx : Vec Ideal S512x512 .f32)
    (y : S512x512.Idx) (p : Fin 4096) (j : Fin 2048)
    (hf : f y = G (ix2 p (Cert.Spec.band 0 j))) (hi : i y = G (ix2 p (Cert.Spec.band 1 j)))
    (hg : g y = G (ix2 p (Cert.Spec.band 2 j))) (hcx : cx y = cxa (ix2 p j)) :
    k1_pay1 f i g cx y = Cert.Spec.cy (Cert.Spec.ofArr G) cxa p j := by
  rw [cell_at, hf, hi, hg, hcx]
  rfl

/-! ## Where the blocks sit

Point `t` of the [8, 4] grid has row block `bi` and column block `bj`. Both outputs and the old cell state are tiled
[8, 4] by blocks of 512 × 512 and sit at block (bi, bj); the gates array has 16 column blocks, four per band, and the
window of band `g` sits at block (bi, bj + 4·g): column (bj + 4·g)·512 + b of the gates is column bj·512 + b of band `g`. -/

/-- The index maps over the grid: every window at the hidden state's row block; the four gate windows 0, 4, 8 and 12 column
    blocks to the right of its column block, the old cell state and the new one at it; row blocks below 8, column blocks below 4. -/
theorem idx_facts : ∀ t : Fin cfg1.N,
    win1_0.index t (0 : Fin 2) = win1_5.index t (0 : Fin 2) ∧ win1_0.index t (1 : Fin 2) = win1_5.index t (1 : Fin 2) + 0
    ∧ win1_1.index t (0 : Fin 2) = win1_5.index t (0 : Fin 2) ∧ win1_1.index t (1 : Fin 2) = win1_5.index t (1 : Fin 2) + 4
    ∧ win1_2.index t (0 : Fin 2) = win1_5.index t (0 : Fin 2) ∧ win1_2.index t (1 : Fin 2) = win1_5.index t (1 : Fin 2) + 8
    ∧ win1_3.index t (0 : Fin 2) = win1_5.index t (0 : Fin 2) ∧ win1_3.index t (1 : Fin 2) = win1_5.index t (1 : Fin 2) + 12
    ∧ win1_4.index t (0 : Fin 2) = win1_5.index t (0 : Fin 2) ∧ win1_4.index t (1 : Fin 2) = win1_5.index t (1 : Fin 2)
    ∧ win1_6.index t (0 : Fin 2) = win1_5.index t (0 : Fin 2) ∧ win1_6.index t (1 : Fin 2) = win1_5.index t (1 : Fin 2)
    ∧ win1_5.index t (0 : Fin 2) ≤ 7 ∧ win1_5.index t (1 : Fin 2) ≤ 3 :=
  (by decide +kernel : ∀ t : Fin grid1.N, _)

/-- Every block of the [8, 4] tiling is some point's. -/
theorem idx_onto : ∀ (q0 : Fin 8) (q1 : Fin 4), ∃ t : Fin cfg1.N,
    win1_5.index t (0 : Fin 2) = q0.val ∧ win1_5.index t (1 : Fin 2) = q1.val :=
  (by decide +kernel : ∀ (q0 : Fin 8) (q1 : Fin 4), ∃ t : Fin grid1.N,
    win1_5.index t (0 : Fin 2) = q0.val ∧ win1_5.index t (1 : Fin 2) = q1.val)

/-! ## What a point writes back -/

/-- Point `t` writes back its block of the new hidden state of the whole gates array and the whole old cell state. -/
theorem hy_flushed (c : Dev nD) (t : Fin cfg1.N) :
    (dat1 V c).flushed 5 t = ((cfg1.win 5).blk t).view.read (Elt Ideal) (Cert.Spec.hyArr (Cert.Spec.ofArr (V c main_v2)) (V c main_arg2)) := by
  show (cfg1.win 5).cut (grid1.coords t) ((dat1 V c).after 5 t) = _
  dsimp only [dat1]
  obtain ⟨e00, e01, e10, e11, e20, e21, e30, e31, e40, e41, e60, e61, b0, b1⟩ := idx_facts t
  funext y
  have hy0 : (y 0).val < 512 := (y 0).isLt
  have hy1 : (y 1).val < 512 := (y 1).isLt
  have k0 : ((((cfg1.win 5).blk t).view.emb y) 0).val = win1_5.index t (0 : Fin 2) * 512 + 1 * (y 0).val := rfl
  have k1 : ((((cfg1.win 5).blk t).view.emb y) 1).val = win1_5.index t (1 : Fin 2) * 512 + 1 * (y 1).val := rfl
  show k1_pay2 (iblk1 V c 0 t) (iblk1 V c 1 t) (iblk1 V c 2 t) (iblk1 V c 3 t) (iblk1 V c 4 t) y
      = Cert.Spec.hy (Cert.Spec.ofArr (V c main_v2)) (V c main_arg2)
          ⟨((((cfg1.win 5).blk t).view.emb y) 0).val, ((((cfg1.win 5).blk t).view.emb y) 0).isLt⟩
          ⟨((((cfg1.win 5).blk t).view.emb y) 1).val, ((((cfg1.win 5).blk t).view.emb y) 1).isLt⟩
  refine hy_point (V c main_v2) (V c main_arg2) (iblk1 V c 0 t) (iblk1 V c 1 t) (iblk1 V c 2 t) (iblk1 V c 3 t) (iblk1 V c 4 t) y _ _ ?_ ?_ ?_ ?_ ?_
  · show V c main_v2 (((cfg1.win 0).blk t).view.emb y) = V c main_v2 _
    refine congrArg (V c main_v2) (funext fun a => Fin.ext ?_)
    match a with
    | ⟨0, _⟩ => show win1_0.index t (0 : Fin 2) * 512 + 1 * (y 0).val = (((cfg1.win 5).blk t).view.emb y 0).val; omega
    | ⟨1, _⟩ => show win1_0.index t (1 : Fin 2) * 512 + 1 * (y 1).val = (((cfg1.win 5).blk t).view.emb y 1).val + 0 * 2048; omega
  · show V c main_v2 (((cfg1.win 1).blk t).view.emb y) = V c main_v2 _
    refine congrArg (V c main_v2) (funext fun a => Fin.ext ?_)
    match a with
    | ⟨0, _⟩ => show win1_1.index t (0 : Fin 2) * 512 + 1 * (y 0).val = (((cfg1.win 5).blk t).view.emb y 0).val; omega
    | ⟨1, _⟩ => show win1_1.index t (1 : Fin 2) * 512 + 1 * (y 1).val = (((cfg1.win 5).blk t).view.emb y 1).val + 1 * 2048; omega
  · show V c main_v2 (((cfg1.win 2).blk t).view.emb y) = V c main_v2 _
    refine congrArg (V c main_v2) (funext fun a => Fin.ext ?_)
    match a with
    | ⟨0, _⟩ => show win1_2.index t (0 : Fin 2) * 512 + 1 * (y 0).val = (((cfg1.win 5).blk t).view.emb y 0).val; omega
    | ⟨1, _⟩ => show win1_2.index t (1 : Fin 2) * 512 + 1 * (y 1).val = (((cfg1.win 5).blk t).view.emb y 1).val + 2 * 2048; omega
  · show V c main_v2 (((cfg1.win 3).blk t).view.emb y) = V c main_v2 _
    refine congrArg (V c main_v2) (funext fun a => Fin.ext ?_)
    match a with
    | ⟨0, _⟩ => show win1_3.index t (0 : Fin 2) * 512 + 1 * (y 0).val = (((cfg1.win 5).blk t).view.emb y 0).val; omega
    | ⟨1, _⟩ => show win1_3.index t (1 : Fin 2) * 512 + 1 * (y 1).val = (((cfg1.win 5).blk t).view.emb y 1).val + 3 * 2048; omega
  · show V c main_arg2 (((cfg1.win 4).blk t).view.emb y) = V c main_arg2 _
    refine congrArg (V c main_arg2) (funext fun a => Fin.ext ?_)
    match a with
    | ⟨0, _⟩ => show win1_4.index t (0 : Fin 2) * 512 + 1 * (y 0).val = (((cfg1.win 5).blk t).view.emb y 0).val; omega
    | ⟨1, _⟩ => show win1_4.index t (1 : Fin 2) * 512 + 1 * (y 1).val = (((cfg1.win 5).blk t).view.emb y 1).val; omega

/-- Point `t` writes back its block of the new cell state. -/
theorem cy_flushed (c : Dev nD) (t : Fin cfg1.N) :
    (dat1 V c).flushed 6 t = ((cfg1.win 6).blk t).view.read (Elt Ideal) (Cert.Spec.cyArr (Cert.Spec.ofArr (V c main_v2)) (V c main_arg2)) := by
  show (cfg1.win 6).cut (grid1.coords t) ((dat1 V c).after 6 t) = _
  dsimp only [dat1]
  obtain ⟨e00, e01, e10, e11, e20, e21, e30, e31, e40, e41, e60, e61, b0, b1⟩ := idx_facts t
  funext y
  have hy0 : (y 0).val < 512 := (y 0).isLt
  have hy1 : (y 1).val < 512 := (y 1).isLt
  have k0 : ((((cfg1.win 6).blk t).view.emb y) 0).val = win1_6.index t (0 : Fin 2) * 512 + 1 * (y 0).val := rfl
  have k1 : ((((cfg1.win 6).blk t).view.emb y) 1).val = win1_6.index t (1 : Fin 2) * 512 + 1 * (y 1).val := rfl
  show k1_pay1 (iblk1 V c 0 t) (iblk1 V c 1 t) (iblk1 V c 2 t) (iblk1 V c 4 t) y
      = Cert.Spec.cy (Cert.Spec.ofArr (V c main_v2)) (V c main_arg2)
          ⟨((((cfg1.win 6).blk t).view.emb y) 0).val, ((((cfg1.win 6).blk t).view.emb y) 0).isLt⟩
          ⟨((((cfg1.win 6).blk t).view.emb y) 1).val, ((((cfg1.win 6).blk t).view.emb y) 1).isLt⟩
  refine cy_point (V c main_v2) (V c main_arg2) (iblk1 V c 0 t) (iblk1 V c 1 t) (iblk1 V c 2 t) (iblk1 V c 4 t) y _ _ ?_ ?_ ?_ ?_
  · show V c main_v2 (((cfg1.win 0).blk t).view.emb y) = V c main_v2 _
    refine congrArg (V c main_v2) (funext fun a => Fin.ext ?_)
    match a with
    | ⟨0, _⟩ => show win1_0.index t (0 : Fin 2) * 512 + 1 * (y 0).val = (((cfg1.win 6).blk t).view.emb y 0).val; omega
    | ⟨1, _⟩ => show win1_0.index t (1 : Fin 2) * 512 + 1 * (y 1).val = (((cfg1.win 6).blk t).view.emb y 1).val + 0 * 2048; omega
  · show V c main_v2 (((cfg1.win 1).blk t).view.emb y) = V c main_v2 _
    refine congrArg (V c main_v2) (funext fun a => Fin.ext ?_)
    match a with
    | ⟨0, _⟩ => show win1_1.index t (0 : Fin 2) * 512 + 1 * (y 0).val = (((cfg1.win 6).blk t).view.emb y 0).val; omega
    | ⟨1, _⟩ => show win1_1.index t (1 : Fin 2) * 512 + 1 * (y 1).val = (((cfg1.win 6).blk t).view.emb y 1).val + 1 * 2048; omega
  · show V c main_v2 (((cfg1.win 2).blk t).view.emb y) = V c main_v2 _
    refine congrArg (V c main_v2) (funext fun a => Fin.ext ?_)
    match a with
    | ⟨0, _⟩ => show win1_2.index t (0 : Fin 2) * 512 + 1 * (y 0).val = (((cfg1.win 6).blk t).view.emb y 0).val; omega
    | ⟨1, _⟩ => show win1_2.index t (1 : Fin 2) * 512 + 1 * (y 1).val = (((cfg1.win 6).blk t).view.emb y 1).val + 2 * 2048; omega
  · show V c main_arg2 (((cfg1.win 4).blk t).view.emb y) = V c main_arg2 _
    refine congrArg (V c main_arg2) (funext fun a => Fin.ext ?_)
    match a with
    | ⟨0, _⟩ => show win1_4.index t (0 : Fin 2) * 512 + 1 * (y 0).val = (((cfg1.win 6).blk t).view.emb y 0).val; omega
    | ⟨1, _⟩ => show win1_4.index t (1 : Fin 2) * 512 + 1 * (y 1).val = (((cfg1.win 6).blk t).view.emb y 1).val; omega

/-! ## The blocks tile the arrays -/

/-- An index of the hidden-state array is in point `t`'s block iff each coordinate is in the block's range on its axis. -/
theorem hy_mem_blk (t : Fin cfg1.N) (i : S4096x2048.Idx) :
    i ∈ ((cfg1.win 5).blk t).view.set ↔ ∀ a : Fin 2, win1_5.index t a * S512x512.size a ≤ (i a).val ∧ (i a).val < win1_5.index t a * S512x512.size a + S512x512.size a := by
  show i ∈ ((View.whole main_v3_0).slice (win1_5.rect t)).set ↔ _
  rw [View.set_slice_whole, Rect.mem_set_unit]
  exact Iff.rfl

/-- The same for the cell-state array. -/
theorem cy_mem_blk (t : Fin cfg1.N) (i : S4096x2048.Idx) :
    i ∈ ((cfg1.win 6).blk t).view.set ↔ ∀ a : Fin 2, win1_6.index t a * S512x512.size a ≤ (i a).val ∧ (i a).val < win1_6.index t a * S512x512.size a + S512x512.size a := by
  show i ∈ ((View.whole main_v3_1).slice (win1_6.rect t)).set ↔ _
  rw [View.set_slice_whole, Rect.mem_set_unit]
  exact Iff.rfl

/-- Row `r`, column `j` of the hidden-state array is in the block of the point with row block `r / 512` and column block `j / 512`. -/
theorem hy_cover (i : S4096x2048.Idx) : ∃ t : Fin cfg1.N, (cfg1.win 5).flush t = true ∧ i ∈ ((cfg1.win 5).blk t).view.set := by
  have hi0 : (i 0).val < 4096 := (i 0).isLt
  have hi1 : (i 1).val < 2048 := (i 1).isLt
  obtain ⟨t, q0, q1⟩ := idx_onto ⟨(i 0).val / 512, by omega⟩ ⟨(i 1).val / 512, by omega⟩
  have q0' : win1_5.index t (0 : Fin 2) = (i 0).val / 512 := q0
  have q1' : win1_5.index t (1 : Fin 2) = (i 1).val / 512 := q1
  refine ⟨t, flush1_5 t, ?_⟩
  rw [hy_mem_blk]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 512 ≤ (i 1).val ∧ (i 1).val < win1_5.index t (1 : Fin 2) * 512 + 512; omega

/-- The same for the cell-state array, whose blocks sit where the hidden state's do. -/
theorem cy_cover (i : S4096x2048.Idx) : ∃ t : Fin cfg1.N, (cfg1.win 6).flush t = true ∧ i ∈ ((cfg1.win 6).blk t).view.set := by
  have hi0 : (i 0).val < 4096 := (i 0).isLt
  have hi1 : (i 1).val < 2048 := (i 1).isLt
  obtain ⟨t, q0, q1⟩ := idx_onto ⟨(i 0).val / 512, by omega⟩ ⟨(i 1).val / 512, by omega⟩
  have q0' : win1_5.index t (0 : Fin 2) = (i 0).val / 512 := q0
  have q1' : win1_5.index t (1 : Fin 2) = (i 1).val / 512 := q1
  obtain ⟨-, -, -, -, -, -, -, -, -, -, e60, e61, -, -⟩ := idx_facts t
  refine ⟨t, flush1_6 t, ?_⟩
  rw [cy_mem_blk]
  intro a
  match a with
  | ⟨0, _⟩ => show win1_6.index t (0 : Fin 2) * 512 ≤ (i 0).val ∧ (i 0).val < win1_6.index t (0 : Fin 2) * 512 + 512; omega
  | ⟨1, _⟩ => show win1_6.index t (1 : Fin 2) * 512 ≤ (i 1).val ∧ (i 1).val < win1_6.index t (1 : Fin 2) * 512 + 512; omega

/-! ## The two arrays after the region -/

/-- After the region the hy array holds the new hidden state of the gates array and the old cell state it was entered with. -/
theorem hy_arr (c : Dev nD) :
    (dat1 V c).arrAt 5 cfg1.N = Cert.Spec.hyArr (Cert.Spec.ofArr (V c main_v2)) (V c main_arg2) :=
  (dat1 V c).arrAt_eq_of_cover 5 _ (fun t _ => hy_flushed V c t) (fun i => hy_cover i)

/-- After the region the cy array holds the new cell state. -/
theorem cy_arr (c : Dev nD) :
    (dat1 V c).arrAt 6 cfg1.N = Cert.Spec.cyArr (Cert.Spec.ofArr (V c main_v2)) (V c main_arg2) :=
  (dat1 V c).arrAt_eq_of_cover 6 _ (fun t _ => cy_flushed V c t) (fun i => cy_cover i)

end Cert.KernelIdeal.R1

end
-- ==== Proof.Math.lean ====
/- The kernel's order of additions gives the reference's number: addition of extended reals is commutative and
   associative, and the contracted axis splits into its four chunks. -/
import proofs.«132795_j64476049047569_1_alg».proof.Proof.Spec
import Mathlib.Algebra.BigOperators.Fin
import Mathlib.Logic.Equiv.Fin.Basic

noncomputable section

open scoped BigOperators

namespace Cert.Spec

open Idealize.ShloMosaic Idealize.ShloMosaic.ValueIdx

/-- A sum over the contracted axis is the sum over the four chunks of the sums over each chunk: every column is
    `kb * 512 + kk` for exactly one chunk `kb` and offset `kk`. -/
theorem sum_kcol {M : Type*} [AddCommMonoid M] (f : Fin 2048 → M) :
    ∑ k : Fin 2048, f k = ∑ kb : Fin 4, ∑ kk : Fin 512, f (kcol kb kk) := by
  rw [← Fintype.sum_prod_type' (f := fun kb kk => f (kcol kb kk))]
  symm
  refine Fintype.sum_equiv (finProdFinEquiv : Fin 4 × Fin 512 ≃ Fin (4 * 512)) _ _ ?_
  rintro ⟨kb, kk⟩
  congr 1
  apply Fin.ext
  simp only [kcol, finProdFinEquiv_apply_val]
  omega

/-- The whole row product is the sum of its four chunk products. -/
theorem dotRow_eq_chunks (a : SX.Idx → EReal) (w : SW.Idx → EReal) (p : Fin 4096) (q : Fin 8192) :
    dotRow a w p q = dotChunk a w p q 0 + dotChunk a w p q 1 + dotChunk a w p q 2 + dotChunk a w p q 3 := by
  unfold dotRow dotChunk
  rw [sum_kcol (fun k => a (ix2 p k) * w (ix2 q k)), Fin.sum_univ_four]

/-- One step of the accumulator: chunk `n` adds its `x·Wx` part, then its `h·Wh` part. -/
theorem accK_succ (x h : SX.Idx → EReal) (wx wh : SW.Idx → EReal) (p : Fin 4096) (q : Fin 8192) (n : ℕ) (hn : n < 4) :
    accK x h wx wh p q (n + 1) =
      (accK x h wx wh p q n + dotChunk x wx p q ⟨n, hn⟩) + dotChunk h wh p q ⟨n, hn⟩ := by
  rw [accK, dif_pos hn]

/-- The accumulator after all four chunks, written out. -/
theorem accK_four (x h : SX.Idx → EReal) (wx wh : SW.Idx → EReal) (p : Fin 4096) (q : Fin 8192) :
    accK x h wx wh p q 4 =
      ((((((((0 + dotChunk x wx p q 0) + dotChunk h wh p q 0) + dotChunk x wx p q 1) + dotChunk h wh p q 1)
        + dotChunk x wx p q 2) + dotChunk h wh p q 2) + dotChunk x wx p q 3) + dotChunk h wh p q 3) := by
  have e0 : accK x h wx wh p q 0 = 0 := by rw [accK]
  have e1 := accK_succ x h wx wh p q 0 (by norm_num)
  have e2 := accK_succ x h wx wh p q 1 (by norm_num)
  have e3 := accK_succ x h wx wh p q 2 (by norm_num)
  have e4 := accK_succ x h wx wh p q 3 (by norm_num)
  rw [e0] at e1
  rw [e1] at e2
  rw [e2] at e3
  rw [e3] at e4
  exact e4

/-- Four chunks accumulated from zero, then the biases, is the reference's sum: no finiteness is needed, only that `+` on
    the extended reals is a commutative monoid. -/
theorem gatesKer_eq_gates (x h : SX.Idx → EReal) (wx wh : SW.Idx → EReal) (bx bh : SB.Idx → EReal) (bx2 bh2 : SB2.Idx → EReal)
    (hbx : ∀ q : Fin 8192, bx2 (ix2 0 q) = bx (ix1 q)) (hbh : ∀ q : Fin 8192, bh2 (ix2 0 q) = bh (ix1 q))
    (p : Fin 4096) (q : Fin 8192) :
    gatesKer x h wx wh bx2 bh2 p q = gates x h wx wh bx bh p q := by
  unfold gatesKer gates
  rw [accK_four, hbx, hbh, dotRow_eq_chunks, dotRow_eq_chunks, zero_add]
  ac_rfl

end Cert.Spec

end
-- ==== Proof.Bridge.lean ====
/- The kernel's two results are the cell update of the reference's gates: the gates array region 0 leaves is the
   accumulated sum with the biases, which is the reference's sum in another order; region 1 applies the cell update to it. -/
import proofs.«132795_j64476049047569_1_alg».proof.Proof.Segs
import proofs.«132795_j64476049047569_1_alg».proof.Proof.Value0
import proofs.«132795_j64476049047569_1_alg».proof.Proof.Value1
import proofs.«132795_j64476049047569_1_alg».proof.Proof.Math
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The reshapes write only the two bias rows: every argument reaches region 0 as launched. -/
theorem E1_arg0 (c : Dev nD) : E1 m c main_arg0 = m ((c.tc : Thread nD τ).loc main_arg0) := Gen.V1_of m c main_arg0 (by decide)
theorem E1_arg1 (c : Dev nD) : E1 m c main_arg1 = m ((c.tc : Thread nD τ).loc main_arg1) := Gen.V1_of m c main_arg1 (by decide)
theorem E1_arg2 (c : Dev nD) : E1 m c main_arg2 = m ((c.tc : Thread nD τ).loc main_arg2) := Gen.V1_of m c main_arg2 (by decide)
theorem E1_arg3 (c : Dev nD) : E1 m c main_arg3 = m ((c.tc : Thread nD τ).loc main_arg3) := Gen.V1_of m c main_arg3 (by decide)
theorem E1_arg5 (c : Dev nD) : E1 m c main_arg5 = m ((c.tc : Thread nD τ).loc main_arg5) := Gen.V1_of m c main_arg5 (by decide)

/-- The first bias row as region 0 finds it: the reshape of `b_x2h` to `[1, 8192]`. -/
theorem E1_v0 (c : Dev nD) : (E1 m c main_v0 : S1x8192.Idx → EReal)
    = shapeCast S1x8192 (m ((c.tc : Thread nD τ).loc main_arg4)) shapeCasts_S8192_S1x8192 := by
  show StableHlo.after hostOps0 (Gen.V0 m c) (Proc.devRef .tc main_v0) = _
  after_results
  rfl
theorem E1_v1 (c : Dev nD) : (E1 m c main_v1 : S1x8192.Idx → EReal)
    = shapeCast S1x8192 (m ((c.tc : Thread nD τ).loc main_arg6)) shapeCasts_S8192_S1x8192 := by
  show StableHlo.after hostOps0 (Gen.V0 m c) (Proc.devRef .tc main_v1) = _
  after_results
  rfl

/-- Off the gates array region 1 finds what region 0 found. -/
theorem E2_arg2 (c : Dev nD) : E2 m c main_arg2 = m ((c.tc : Thread nD τ).loc main_arg2) :=
  (E2_of_ne m c main_arg2 (by decide)).trans (E1_arg2 m c)

theorem E2_v2 (c : Dev nD) : E2 m c main_v2 = o2 m c :=
  Function.update_self (β := fun b : DevRef τ sig => Buf (Elt Ideal) ((c : Thread nD τ).1, b)) (Proc.devRef .tc main_v2) (o2 m c) (Gen.V1 m c)

/-- The gates array region 0 leaves, read by coordinates, is the reference's gates of the launch arrays: the four chunks
    accumulated from zero and the two bias rows are the reference's sum in another order. -/
theorem gates_bridge (c : Dev nD) :
    Cert.Spec.ofArr (E2 m c main_v2) = Cert.Spec.gates (m ((c.tc : Thread nD τ).loc main_arg0)) (m ((c.tc : Thread nD τ).loc main_arg1))
      (m ((c.tc : Thread nD τ).loc main_arg3)) (m ((c.tc : Thread nD τ).loc main_arg5))
      (m ((c.tc : Thread nD τ).loc main_arg4)) (m ((c.tc : Thread nD τ).loc main_arg6)) := by
  funext p q
  unfold Cert.Spec.ofArr
  rw [E2_v2]; unfold o2; rw [R0.gates_arr (E1 m) c]
  show Cert.Spec.gatesKer (E1 m c main_arg0) (E1 m c main_arg1) (E1 m c main_arg3) (E1 m c main_arg5) (E1 m c main_v0) (E1 m c main_v1) p q = _
  rw [E1_arg0, E1_arg1, E1_arg3, E1_arg5]
  exact Cert.Spec.gatesKer_eq_gates _ _ _ _ (m ((c.tc : Thread nD τ).loc main_arg4)) (m ((c.tc : Thread nD τ).loc main_arg6)) _ _
    (fun q => by rw [E1_v0]; exact shapeCast_a_1a_apply _ _ 0 q)
    (fun q => by rw [E1_v1]; exact shapeCast_a_1a_apply _ _ 0 q) p q

/-- The kernel's first result: the new hidden state of the reference's gates and the old cell state. -/
theorem o3_0_eq (c : Dev nD) :
    o3_0 m c = Cert.Spec.hyArr (Cert.Spec.gates (m ((c.tc : Thread nD τ).loc main_arg0)) (m ((c.tc : Thread nD τ).loc main_arg1))
      (m ((c.tc : Thread nD τ).loc main_arg3)) (m ((c.tc : Thread nD τ).loc main_arg5))
      (m ((c.tc : Thread nD τ).loc main_arg4)) (m ((c.tc : Thread nD τ).loc main_arg6))) (m ((c.tc : Thread nD τ).loc main_arg2)) := by
  unfold o3_0; rw [R1.hy_arr (E2 m) c, gates_bridge, E2_arg2]

/-- The kernel's second result: the new cell state. -/
theorem o3_1_eq (c : Dev nD) :
    o3_1 m c = Cert.Spec.cyArr (Cert.Spec.gates (m ((c.tc : Thread nD τ).loc main_arg0)) (m ((c.tc : Thread nD τ).loc main_arg1))
      (m ((c.tc : Thread nD τ).loc main_arg3)) (m ((c.tc : Thread nD τ).loc main_arg5))
      (m ((c.tc : Thread nD τ).loc main_arg4)) (m ((c.tc : Thread nD τ).loc main_arg6))) (m ((c.tc : Thread nD τ).loc main_arg2)) := by
  unfold o3_1; rw [R1.cy_arr (E2 m) c, gates_bridge, E2_arg2]

end Cert.KernelIdeal.Run

end
-- ==== Proof.RefSide.lean ====
/- The reference's two results, read operation by operation, are the cell update of the gates in the reference's order. -/
import proofs.«132795_j64476049047569_1_alg».proof.Defs
import proofs.«132795_j64476049047569_1_alg».proof.Proof.Gen.ReferenceIdeal.Run
import proofs.«132795_j64476049047569_1_alg».proof.Proof.Gen.ReferenceIdeal.Read
import proofs.«132795_j64476049047569_1_alg».proof.Proof.Spec
import Idealize.ShloMosaic.Lib.IdealHost

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! Index maps of the reference's layout operations at an index given by coordinates. -/
theorem lidx1_ix (p : Fin 4096) (q : Fin 8192) (k : Fin 2048) : lidx_main_v1 (ix2 p q) k = ix2 p k :=
  funext fun a => Fin.ext (by match a with | ⟨0, _⟩ => rfl | ⟨1, _⟩ => rfl)
theorem ridx1_ix (p : Fin 4096) (q : Fin 8192) (k : Fin 2048) : idx_main_v0 (ridx_main_v1 (ix2 p q) k) = ix2 q k :=
  funext fun a => Fin.ext (by match a with | ⟨0, _⟩ => rfl | ⟨1, _⟩ => rfl)
theorem lidx6_ix (p : Fin 4096) (q : Fin 8192) (k : Fin 2048) : lidx_main_v6 (ix2 p q) k = ix2 p k :=
  funext fun a => Fin.ext (by match a with | ⟨0, _⟩ => rfl | ⟨1, _⟩ => rfl)
theorem ridx6_ix (p : Fin 4096) (q : Fin 8192) (k : Fin 2048) : idx_main_v5 (ridx_main_v6 (ix2 p q) k) = ix2 q k :=
  funext fun a => Fin.ext (by match a with | ⟨0, _⟩ => rfl | ⟨1, _⟩ => rfl)
theorem bias3_ix (p : Fin 4096) (q : Fin 8192) : idx_main_v2 (idx_main_v3 (ix2 p q)) = ix1 q :=
  funext fun a => Fin.ext (by match a with | ⟨0, _⟩ => rfl)
theorem bias9_ix (p : Fin 4096) (q : Fin 8192) : idx_main_v8 (idx_main_v9 (ix2 p q)) = ix1 q :=
  funext fun a => Fin.ext (by match a with | ⟨0, _⟩ => rfl)

/-- The reference's gates array at row p, column q. -/
theorem gates_at (x0 x1 : (⟨S4096x2048, .f32⟩ : BufTy).Contents (Elt Ideal)) (x3 : (⟨S8192x2048, .f32⟩ : BufTy).Contents (Elt Ideal))
    (x4 : (⟨S8192, .f32⟩ : BufTy).Contents (Elt Ideal)) (x5 : (⟨S8192x2048, .f32⟩ : BufTy).Contents (Elt Ideal)) (x6 : (⟨S8192, .f32⟩ : BufTy).Contents (Elt Ideal))
    (p : Fin 4096) (q : Fin 8192) :
    val_main_v10 (F := Ideal) x0 x1 x3 x4 x5 x6 (ix2 p q) = Cert.Spec.gates x0 x1 x3 x5 x4 x6 p q := by
  rw [val_main_v10_apply, val_main_v7_apply, val_main_v4_apply, val_main_v1_apply, val_main_v6_apply,
    val_main_v9_apply, val_main_v8_apply, val_main_v3_apply, val_main_v2_apply]
  simp only [val_main_v0_apply, val_main_v5_apply, lidx1_ix, ridx1_ix, lidx6_ix, ridx6_ix, bias3_ix, bias9_ix,
    Ideal.addf_def]
  rfl

/-! The four column bands: a slice at column offset g * 2048 reads the gates at band g. -/
theorem slice11_ix (p : Fin 4096) (j : Fin 2048) : idx_main_v11 (ix2 p j) = ix2 p (Cert.Spec.band 0 j) :=
  funext fun a => Fin.ext (by
    match a with
    | ⟨0, _⟩ => rfl
    | ⟨1, _⟩ => show j.val = j.val + 0 * 2048; omega)
theorem slice18_ix (p : Fin 4096) (j : Fin 2048) : idx_main_v18 (ix2 p j) = ix2 p (Cert.Spec.band 1 j) :=
  funext fun a => Fin.ext (by
    match a with
    | ⟨0, _⟩ => rfl
    | ⟨1, _⟩ => show 2048 + j.val = j.val + 1 * 2048; omega)
theorem slice25_ix (p : Fin 4096) (j : Fin 2048) : idx_main_v25 (ix2 p j) = ix2 p (Cert.Spec.band 2 j) :=
  funext fun a => Fin.ext (by
    match a with
    | ⟨0, _⟩ => rfl
    | ⟨1, _⟩ => show 4096 + j.val = j.val + 2 * 2048; omega)
theorem slice27_ix (p : Fin 4096) (j : Fin 2048) : idx_main_v27 (ix2 p j) = ix2 p (Cert.Spec.band 3 j) :=
  funext fun a => Fin.ext (by
    match a with
    | ⟨0, _⟩ => rfl
    | ⟨1, _⟩ => show 6144 + j.val = j.val + 3 * 2048; omega)

/-- The forget gate: the logistic function of band 0. -/
theorem sig_f_at (x0 x1 : (⟨S4096x2048, .f32⟩ : BufTy).Contents (Elt Ideal)) (x3 : (⟨S8192x2048, .f32⟩ : BufTy).Contents (Elt Ideal))
    (x4 : (⟨S8192, .f32⟩ : BufTy).Contents (Elt Ideal)) (x5 : (⟨S8192x2048, .f32⟩ : BufTy).Contents (Elt Ideal)) (x6 : (⟨S8192, .f32⟩ : BufTy).Contents (Elt Ideal))
    (p : Fin 4096) (j : Fin 2048) :
    val_main_v17 (F := Ideal) x0 x1 x3 x4 x5 x6 (ix2 p j)
      = Ideal.logistic (Cert.Spec.gates x0 x1 x3 x5 x4 x6 p (Cert.Spec.band 0 j)) := by
  rw [val_main_v17_apply, val_main_v16_apply, val_main_cst_0_apply, val_main_v15_apply, val_main_v14_apply,
    val_main_cst_apply, val_main_v13_apply, val_main_v12_apply, val_main_v11_apply, slice11_ix, gates_at]
  simp only [Ideal.hostDivf_def, Ideal.addf_def, Ideal.hostUnary_exp_def, Ideal.hostNegf_def, Ideal.negf_def,
    Ideal.ofBits_def, Ideal.ofBits_one_f32]
  rfl

/-- The input gate: the logistic function of band 1. -/
theorem sig_i_at (x0 x1 : (⟨S4096x2048, .f32⟩ : BufTy).Contents (Elt Ideal)) (x3 : (⟨S8192x2048, .f32⟩ : BufTy).Contents (Elt Ideal))
    (x4 : (⟨S8192, .f32⟩ : BufTy).Contents (Elt Ideal)) (x5 : (⟨S8192x2048, .f32⟩ : BufTy).Contents (Elt Ideal)) (x6 : (⟨S8192, .f32⟩ : BufTy).Contents (Elt Ideal))
    (p : Fin 4096) (j : Fin 2048) :
    val_main_v24 (F := Ideal) x0 x1 x3 x4 x5 x6 (ix2 p j)
      = Ideal.logistic (Cert.Spec.gates x0 x1 x3 x5 x4 x6 p (Cert.Spec.band 1 j)) := by
  rw [val_main_v24_apply, val_main_v23_apply, val_main_cst_2_apply, val_main_v22_apply, val_main_v21_apply,
    val_main_cst_1_apply, val_main_v20_apply, val_main_v19_apply, val_main_v18_apply, slice18_ix, gates_at]
  simp only [Ideal.hostDivf_def, Ideal.addf_def, Ideal.hostUnary_exp_def, Ideal.hostNegf_def, Ideal.negf_def,
    Ideal.ofBits_def, Ideal.ofBits_one_f32]
  rfl

/-- The cell candidate: the hyperbolic tangent of band 2. -/
theorem tanh_g_at (x0 x1 : (⟨S4096x2048, .f32⟩ : BufTy).Contents (Elt Ideal)) (x3 : (⟨S8192x2048, .f32⟩ : BufTy).Contents (Elt Ideal))
    (x4 : (⟨S8192, .f32⟩ : BufTy).Contents (Elt Ideal)) (x5 : (⟨S8192x2048, .f32⟩ : BufTy).Contents (Elt Ideal)) (x6 : (⟨S8192, .f32⟩ : BufTy).Contents (Elt Ideal))
    (p : Fin 4096) (j : Fin 2048) :
    val_main_v26 (F := Ideal) x0 x1 x3 x4 x5 x6 (ix2 p j)
      = Ideal.tanh (Cert.Spec.gates x0 x1 x3 x5 x4 x6 p (Cert.Spec.band 2 j)) := by
  rw [val_main_v26_apply, val_main_v25_apply, slice25_ix, gates_at]
  rfl

/-- The output gate: the logistic function of band 3. -/
theorem sig_o_at (x0 x1 : (⟨S4096x2048, .f32⟩ : BufTy).Contents (Elt Ideal)) (x3 : (⟨S8192x2048, .f32⟩ : BufTy).Contents (Elt Ideal))
    (x4 : (⟨S8192, .f32⟩ : BufTy).Contents (Elt Ideal)) (x5 : (⟨S8192x2048, .f32⟩ : BufTy).Contents (Elt Ideal)) (x6 : (⟨S8192, .f32⟩ : BufTy).Contents (Elt Ideal))
    (p : Fin 4096) (j : Fin 2048) :
    val_main_v33 (F := Ideal) x0 x1 x3 x4 x5 x6 (ix2 p j)
      = Ideal.logistic (Cert.Spec.gates x0 x1 x3 x5 x4 x6 p (Cert.Spec.band 3 j)) := by
  rw [val_main_v33_apply, val_main_v32_apply, val_main_cst_4_apply, val_main_v31_apply, val_main_v30_apply,
    val_main_cst_3_apply, val_main_v29_apply, val_main_v28_apply, val_main_v27_apply, slice27_ix, gates_at]
  simp only [Ideal.hostDivf_def, Ideal.addf_def, Ideal.hostUnary_exp_def, Ideal.hostNegf_def, Ideal.negf_def,
    Ideal.ofBits_def, Ideal.ofBits_one_f32]
  rfl

/-- The new cell state at row p, column j. -/
theorem cy_at (x0 x1 x2 : (⟨S4096x2048, .f32⟩ : BufTy).Contents (Elt Ideal)) (x3 : (⟨S8192x2048, .f32⟩ : BufTy).Contents (Elt Ideal))
    (x4 : (⟨S8192, .f32⟩ : BufTy).Contents (Elt Ideal)) (x5 : (⟨S8192x2048, .f32⟩ : BufTy).Contents (Elt Ideal)) (x6 : (⟨S8192, .f32⟩ : BufTy).Contents (Elt Ideal))
    (p : Fin 4096) (j : Fin 2048) :
    val_main_v36 (F := Ideal) x0 x1 x2 x3 x4 x5 x6 (ix2 p j)
      = Cert.Spec.cy (Cert.Spec.gates x0 x1 x3 x5 x4 x6) x2 p j := by
  rw [val_main_v36_apply, val_main_v34_apply, val_main_v35_apply, sig_f_at, sig_i_at, tanh_g_at]
  rfl

/-- The new hidden state at row p, column j. -/
theorem hy_at (x0 x1 x2 : (⟨S4096x2048, .f32⟩ : BufTy).Contents (Elt Ideal)) (x3 : (⟨S8192x2048, .f32⟩ : BufTy).Contents (Elt Ideal))
    (x4 : (⟨S8192, .f32⟩ : BufTy).Contents (Elt Ideal)) (x5 : (⟨S8192x2048, .f32⟩ : BufTy).Contents (Elt Ideal)) (x6 : (⟨S8192, .f32⟩ : BufTy).Contents (Elt Ideal))
    (p : Fin 4096) (j : Fin 2048) :
    val_main_v38 (F := Ideal) x0 x1 x2 x3 x4 x5 x6 (ix2 p j)
      = Cert.Spec.hy (Cert.Spec.gates x0 x1 x3 x5 x4 x6) x2 p j := by
  rw [val_main_v38_apply, val_main_v37_apply, sig_o_at, cy_at]
  rfl

/-- The reference's first result (the new hidden state). Arguments in @main's order: input, hx, cx, W_x2h, b_x2h, W_h2h, b_h2h. -/
theorem ref_hy (x0 x1 x2 : (⟨S4096x2048, .f32⟩ : BufTy).Contents (Elt Ideal)) (x3 : (⟨S8192x2048, .f32⟩ : BufTy).Contents (Elt Ideal))
    (x4 : (⟨S8192, .f32⟩ : BufTy).Contents (Elt Ideal)) (x5 : (⟨S8192x2048, .f32⟩ : BufTy).Contents (Elt Ideal)) (x6 : (⟨S8192, .f32⟩ : BufTy).Contents (Elt Ideal)) :
    val_main_v38 (F := Ideal) x0 x1 x2 x3 x4 x5 x6 = Cert.Spec.hyArr (Cert.Spec.gates x0 x1 x3 x5 x4 x6) x2 := by
  funext i
  obtain ⟨p, j, rfl⟩ : ∃ (p : Fin 4096) (j : Fin 2048), i = ix2 p j := ⟨i 0, i 1, eq_ix2 i⟩
  rw [hy_at]
  rfl

/-- The reference's second result (the new cell state). -/
theorem ref_cy (x0 x1 x2 : (⟨S4096x2048, .f32⟩ : BufTy).Contents (Elt Ideal)) (x3 : (⟨S8192x2048, .f32⟩ : BufTy).Contents (Elt Ideal))
    (x4 : (⟨S8192, .f32⟩ : BufTy).Contents (Elt Ideal)) (x5 : (⟨S8192x2048, .f32⟩ : BufTy).Contents (Elt Ideal)) (x6 : (⟨S8192, .f32⟩ : BufTy).Contents (Elt Ideal)) :
    val_main_v36 (F := Ideal) x0 x1 x2 x3 x4 x5 x6 = Cert.Spec.cyArr (Cert.Spec.gates x0 x1 x3 x5 x4 x6) x2 := by
  funext i
  obtain ⟨p, j, rfl⟩ : ∃ (p : Fin 4096) (j : Fin 2048), i = ix2 p j := ⟨i 0, i 1, eq_ix2 i⟩
  rw [cy_at]
  rfl

end Cert.ReferenceIdeal.RefValue

end
-- ==== Proof.lean ====
/- An LSTM cell in two kernel regions against its one-line reference, over the extended reals.

   The kernel's first region computes the gate pre-activations block by block: for each [1024, 1024] output block it
   accumulates, over four chunks of 512 of the contracted axis, the chunk of x·Wxᵀ and then of h·Whᵀ into a scratch
   buffer reset at the first chunk, and at the last chunk writes the accumulator plus the two bias rows. Its second region
   reads the four column bands f, i, g, o of that array and the old cell state and writes cy = σ(f)·cx + σ(i)·tanh(g) and
   hy = σ(o)·tanh(cy). The reference computes ((x·Wxᵀ + bx) + h·Whᵀ) + bh with whole-array products and the same cell
   update, its sigmoid spelt 1 / (1 + exp(−·)), which is what the kernel's logistic denotes on the extended reals.

   The two gate arrays agree because addition of extended reals is commutative and associative (the chunks of a sum, the
   order of the four summands) and adding to zero changes nothing: no finiteness of the inputs is used. The frames: each
   region's arrays are split out of the core's unscoped buffers at its entry and put back at its exit; the four windows
   of the second region that read the one gates array each hold a quarter of its share. -/
import proofs.«132795_j64476049047569_1_alg».proof.Defs
import proofs.«132795_j64476049047569_1_alg».proof.Proof.Gen.Kernel
import proofs.«132795_j64476049047569_1_alg».proof.Proof.Gen.Kernel.Skeleton
import proofs.«132795_j64476049047569_1_alg».proof.Proof.Gen.Kernel.Launch
import proofs.«132795_j64476049047569_1_alg».proof.Proof.Gen.Kernel.Regions
import proofs.«132795_j64476049047569_1_alg».proof.Proof.Gen.Kernel.Points
import proofs.«132795_j64476049047569_1_alg».proof.Proof.Gen.KernelIdeal
import proofs.«132795_j64476049047569_1_alg».proof.Proof.Gen.KernelIdeal.Skeleton
import proofs.«132795_j64476049047569_1_alg».proof.Proof.Gen.KernelIdeal.Launch
import proofs.«132795_j64476049047569_1_alg».proof.Proof.Gen.KernelIdeal.Regions
import proofs.«132795_j64476049047569_1_alg».proof.Proof.Gen.KernelIdeal.Points
import proofs.«132795_j64476049047569_1_alg».proof.Proof.Gen.ReferenceIdeal
import proofs.«132795_j64476049047569_1_alg».proof.Proof.Gen.ReferenceIdeal.Run
import proofs.«132795_j64476049047569_1_alg».proof.Proof.Gen.ReferenceIdeal.Read
import proofs.«132795_j64476049047569_1_alg».proof.Proof.Gen.Pre_finite_inputs
import proofs.«132795_j64476049047569_1_alg».proof.Proof.KSegs
import proofs.«132795_j64476049047569_1_alg».proof.Proof.Bridge
import proofs.«132795_j64476049047569_1_alg».proof.Proof.RefSide
import Idealize.ShloMosaic.Adequacy
import Idealize.ShloMosaic.Init

noncomputable section

namespace Cert.Proof

open Idealize.ShloMosaic Idealize.SL.Sem

/-- The word-level kernel runs and leaves its arguments: the run of its two regions, the results dropped. -/
theorem frame_k [Cert.Kernel.Facts] [Cert.Pre_finite_inputs.Facts] : Cert.frame_Kernel := fun m ρ _ =>
  (θ_run Cert.Kernel.defs _ _).mono (fun _ h c => (h c).2.2) (Cert.Kernel.Run.run_main (F := Bits) m ρ)

/-- The same at the exact instance. -/
theorem frame_ki [Cert.KernelIdeal.Facts] [Cert.Pre_finite_inputs.Facts] : Cert.frame_KernelIdeal := fun m ρ _ =>
  (θ_run Cert.KernelIdeal.defs _ _).mono (fun _ h c => (h c).2.2) (Cert.KernelIdeal.Run.run_main (F := Ideal) m ρ)

/-- The reference runs and leaves its arguments: its run, the results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2) (Cert.ReferenceIdeal.Value.run (F := Ideal) m ρ)

/-- Both programs end with the cell update of the reference's gates, from memories agreeing on the arguments. -/
theorem algebraic [Cert.KernelIdeal.Facts] [Cert.ReferenceIdeal.Facts] [Cert.Pre_finite_inputs.Facts] : Cert.algebraic_KernelIdeal_ReferenceIdeal := by
  intro m ρ m' ρ' _ hagree
  refine ⟨fun c => Cert.KernelIdeal.Run.o3_0 m c, fun c => Cert.KernelIdeal.Run.o3_1 m c, Cert.KernelIdeal.Run.run_main (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · show _ = Cert.KernelIdeal.Run.o3_0 m c
    rw [Cert.ReferenceIdeal.Read.val_main_v38_eq, Cert.ReferenceIdeal.RefValue.ref_hy, Cert.KernelIdeal.Run.o3_0_eq,
      (hagree c).1, (hagree c).2.1, (hagree c).2.2.1, (hagree c).2.2.2.1, (hagree c).2.2.2.2.1, (hagree c).2.2.2.2.2.1, (hagree c).2.2.2.2.2.2]
  · refine (Cert.ReferenceIdeal.Read.val_main_v36_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))).trans ?_
    show _ = Cert.KernelIdeal.Run.o3_1 m c
    rw [Cert.ReferenceIdeal.RefValue.ref_cy, Cert.KernelIdeal.Run.o3_1_eq,
      (hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
